-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S20000x3x128 : Shape := ⟨3, ![20000, 3, 128]⟩
abbrev S400000x20 : Shape := ⟨2, ![400000, 20]⟩
abbrev S400000 : Shape := ⟨1, ![400000]⟩
abbrev S400000x3 : Shape := ⟨2, ![400000, 3]⟩
abbrev S128x128 : Shape := ⟨2, ![128, 128]⟩
abbrev S128 : Shape := ⟨1, ![128]⟩
abbrev S128x384 : Shape := ⟨2, ![128, 384]⟩
abbrev S384 : Shape := ⟨1, ![384]⟩
abbrev S20x384 : Shape := ⟨2, ![20, 384]⟩
abbrev S2x400000 : Shape := ⟨2, ![2, 400000]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S20000x3x128 : S_.BroadcastsInDim S20000x3x128 (![] : Fin 0 → Fin S20000x3x128.rank)
  reducesTo_S20000x3x128_S_d0_1_2 : S20000x3x128.ReducesTo [0, 1, 2] S_
  bcast_S_S400000x20 : S_.BroadcastsInDim S400000x20 (![] : Fin 0 → Fin S400000x20.rank)
  reducesTo_S400000x20_S_d0_1 : S400000x20.ReducesTo [0, 1] S_
  bcast_S_S400000 : S_.BroadcastsInDim S400000 (![] : Fin 0 → Fin S400000.rank)
  reducesTo_S400000_S_d0 : S400000.ReducesTo [0] S_
  bcast_S_S400000x3 : S_.BroadcastsInDim S400000x3 (![] : Fin 0 → Fin S400000x3.rank)
  reducesTo_S400000x3_S_d0_1 : S400000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S20x384 : S_.BroadcastsInDim S20x384 (![] : Fin 0 → Fin S20x384.rank)
  reducesTo_S20x384_S_d0_1 : S20x384.ReducesTo [0, 1] S_

variable [Facts]

def fn_part3 {F : FTy → Type} [FloatOps F] (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  main_v53

def fn_part2 {F : FTy → Type} [FloatOps F] (main_arg7 : FVec F S128x384 .f32) (main_arg8 : FVec F S384 .f32) (main_arg9 : FVec F S20x384 .f32) (main_arg10 : FVec F S384 .f32) (main_v33 : IVec S_ 1) : IVec S_ 1 :=
  let main_v34 : FVec F S128x384 .f32 := Host.absf main_arg7
  let main_cst_12 : FVec F S_ .f32 := constant S_ .f32 0x7F800000#32
  let main_v35 : FVec F S128x384 .f32 := broadcastInDim S128x384 ![] bcast_S_S128x384 main_cst_12
  let main_v36 : IVec S128x384 1 := cmpf .olt main_v34 main_v35
  let main_c_13 : IVec S_ 1 := constantI S_ 1 1#1
  let main_v37 : IVec S_ 1 := (fun x v => Host.reduce IntOp.andi x v reducesTo_S128x384_S_d0_1 h_S_) main_v36 main_c_13
  let main_v38 : IVec S_ 1 := andi main_v33 main_v37
  let main_v39 : FVec F S384 .f32 := Host.absf main_arg8
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S20x384 .f32 := Host.absf main_arg9
  let main_cst_16 : FVec F S_ .f32 := constant S_ .f32 0x7F800000#32
  let main_v45 : FVec F S20x384 .f32 := broadcastInDim S20x384 ![] bcast_S_S20x384 main_cst_16
  let main_v46 : IVec S20x384 1 := cmpf .olt main_v44 main_v45
  let main_c_17 : IVec S_ 1 := constantI S_ 1 1#1
  let main_v47 : IVec S_ 1 := (fun x v => Host.reduce IntOp.andi x v reducesTo_S20x384_S_d0_1 h_S_) main_v46 main_c_17
  let main_v48 : IVec S_ 1 := andi main_v43 main_v47
  let main_v49 : FVec F S384 .f32 := Host.absf main_arg10
  let main_cst_18 : FVec F S_ .f32 := constant S_ .f32 0x7F800000#32
  let main_v50 : FVec F S384 .f32 := broadcastInDim S384 ![] bcast_S_S384 main_cst_18
  fn_part3 (F := F) main_v48 main_v49 main_v50

def fn_part1 {F : FTy → Type} [FloatOps F] (main_arg4 : FVec F S400000x3 .f32) (main_arg5 : FVec F S128x128 .f32) (main_arg6 : FVec F S128 .f32) (main_arg7 : FVec F S128x384 .f32) (main_arg8 : FVec F S384 .f32) (main_arg9 : FVec F S20x384 .f32) (main_arg10 : FVec F S384 .f32) (main_v13 : IVec S_ 1) (main_v16 : IVec S400000 1) : IVec S_ 1 :=
  let main_c_5 : IVec S_ 1 := constantI S_ 1 1#1
  let main_v17 : IVec S_ 1 := (fun x v => Host.reduce IntOp.andi x v reducesTo_S400000_S_d0 h_S_) main_v16 main_c_5
  let main_v18 : IVec S_ 1 := andi main_v13 main_v17
  let main_v19 : FVec F S400000x3 .f32 := Host.absf main_arg4
  let main_cst_6 : FVec F S_ .f32 := constant S_ .f32 0x7F800000#32
  let main_v20 : FVec F S400000x3 .f32 := broadcastInDim S400000x3 ![] bcast_S_S400000x3 main_cst_6
  let main_v21 : IVec S400000x3 1 := cmpf .olt main_v19 main_v20
  let main_c_7 : IVec S_ 1 := constantI S_ 1 1#1
  let main_v22 : IVec S_ 1 := (fun x v => Host.reduce IntOp.andi x v reducesTo_S400000x3_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S20000x128 .f32) (main_arg1 : FVec F S20000x3x128 .f32) (main_arg2 : FVec F S400000x20 .f32) (main_arg3 : FVec F S400000 .f32) (main_arg4 : FVec F S400000x3 .f32) (main_arg5 : FVec F S128x128 .f32) (main_arg6 : FVec F S128 .f32) (main_arg7 : FVec F S128x384 .f32) (main_arg8 : FVec F S384 .f32) (main_arg9 : FVec F S20x384 .f32) (main_arg10 : FVec F S384 .f32) (main_arg11 : IVec S2x400000 32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x3x128 .f32 := Host.absf main_arg1
  let main_cst_0 : FVec F S_ .f32 := constant S_ .f32 0x7F800000#32
  let main_v5 : FVec F S20000x3x128 .f32 := broadcastInDim S20000x3x128 ![] bcast_S_S20000x3x128 main_cst_0
  let main_v6 : IVec S20000x3x128 1 := cmpf .olt main_v4 main_v5
  let main_c_1 : IVec S_ 1 := constantI S_ 1 1#1
  let main_v7 : IVec S_ 1 := (fun x v => Host.reduce IntOp.andi x v reducesTo_S20000x3x128_S_d0_1_2 h_S_) main_v6 main_c_1
  let main_v8 : IVec S_ 1 := andi main_v3 main_v7
  let main_v9 : FVec F S400000x20 .f32 := Host.absf main_arg2
  let main_cst_2 : FVec F S_ .f32 := constant S_ .f32 0x7F800000#32
  let main_v10 : FVec F S400000x20 .f32 := broadcastInDim S400000x20 ![] bcast_S_S400000x20 main_cst_2
  let main_v11 : IVec S400000x20 1 := cmpf .olt main_v9 main_v10
  let main_c_3 : IVec S_ 1 := constantI S_ 1 1#1
  let main_v12 : IVec S_ 1 := (fun x v => Host.reduce IntOp.andi x v reducesTo_S400000x20_S_d0_1 h_S_) main_v11 main_c_3
  let main_v13 : IVec S_ 1 := andi main_v8 main_v12
  let main_v14 : FVec F S400000 .f32 := Host.absf main_arg3
  let main_cst_4 : FVec F S_ .f32 := constant S_ .f32 0x7F800000#32
  let main_v15 : FVec F S400000 .f32 := broadcastInDim S400000 ![] bcast_S_S400000 main_cst_4
  let main_v16 : IVec S400000 1 := cmpf .olt main_v14 main_v15
  fn_part1 (F := F) main_arg4 main_arg5 main_arg6 main_arg7 main_arg8 main_arg9 main_arg10 main_v13 main_v16
-- ==== Kernel.lean ====
abbrev S20000x128 : Shape := ⟨2, ![20000, 128]⟩
abbrev S20000x3x128 : Shape := ⟨3, ![20000, 3, 128]⟩
abbrev S400000x20 : Shape := ⟨2, ![400000, 20]⟩
abbrev S400000 : Shape := ⟨1, ![400000]⟩
abbrev S400000x3 : Shape := ⟨2, ![400000, 3]⟩
abbrev S128x128 : Shape := ⟨2, ![128, 128]⟩
abbrev S128 : Shape := ⟨1, ![128]⟩
abbrev S128x384 : Shape := ⟨2, ![128, 384]⟩
abbrev S384 : Shape := ⟨1, ![384]⟩
abbrev S20x384 : Shape := ⟨2, ![20, 384]⟩
abbrev S2x400000 : Shape := ⟨2, ![2, 400000]⟩
abbrev S1x400000 : Shape := ⟨2, ![1, 400000]⟩
abbrev S_ : Shape := ⟨0, ![]⟩
abbrev S640 : Shape := ⟨1, ![640]⟩
abbrev S400640 : Shape := ⟨1, ![400640]⟩
abbrev S400640x20 : Shape := ⟨2, ![400640, 20]⟩
abbrev S400640x3 : Shape := ⟨2, ![400640, 3]⟩
abbrev S400640x1 : Shape := ⟨2, ![400640, 1]⟩
abbrev S400640x128 : Shape := ⟨2, ![400640, 128]⟩
abbrev S400640x3x128 : Shape := ⟨3, ![400640, 3, 128]⟩
abbrev S400640x384 : Shape := ⟨2, ![400640, 384]⟩
abbrev S1x128 : Shape := ⟨2, ![1, 128]⟩
abbrev S1x384 : Shape := ⟨2, ![1, 384]⟩
abbrev S1280x128 : Shape := ⟨2, ![1280, 128]⟩
abbrev S1280x384 : Shape := ⟨2, ![1280, 384]⟩
abbrev S1280x20 : Shape := ⟨2, ![1280, 20]⟩
abbrev S1280x1 : Shape := ⟨2, ![1280, 1]⟩
abbrev S1280x3 : Shape := ⟨2, ![1280, 3]⟩

abbrev nBuf : Space → Nat
  | .hbm => 65
  | .vmem => 20
  | .smem => 0
  | _ => 0

abbrev bufTy : (tb : Table) → Fin (tcTables nBuf tb) → BufTy
  | .hbm, ⟨0, _⟩ => ⟨S20000x128, .f32⟩
  | .hbm, ⟨1, _⟩ => ⟨S20000x3x128, .f32⟩
  | .hbm, ⟨2, _⟩ => ⟨S400000x20, .f32⟩
  | .hbm, ⟨3, _⟩ => ⟨S400000, .f32⟩
  | .hbm, ⟨4, _⟩ => ⟨S400000x3, .f32⟩
  | .hbm, ⟨5, _⟩ => ⟨S128x128, .f32⟩
  | .hbm, ⟨6, _⟩ => ⟨S128, .f32⟩
  | .hbm, ⟨7, _⟩ => ⟨S128x384, .f32⟩
  | .hbm, ⟨8, _⟩ => ⟨S384, .f32⟩
  | .hbm, ⟨9, _⟩ => ⟨S20x384, .f32⟩
  | .hbm, ⟨10, _⟩ => ⟨S384, .f32⟩
  | .hbm, ⟨11, _⟩ => ⟨S2x400000, .i32⟩
  | .hbm, ⟨12, _⟩ => ⟨S1x400000, .i32⟩
  | .hbm, ⟨13, _⟩ => ⟨S400000, .i32⟩
  | .hbm, ⟨14, _⟩ => ⟨S1x400000, .i32⟩
  | .hbm, ⟨15, _⟩ => ⟨S400000, .i32⟩
  | .hbm, ⟨16, _⟩ => ⟨S_, .i32⟩
  | .hbm, ⟨17, _⟩ => ⟨S640, .i32⟩
  | .hbm, ⟨18, _⟩ => ⟨S400640, .i32⟩
  | .hbm, ⟨19, _⟩ => ⟨S_, .i32⟩
  | .hbm, ⟨20, _⟩ => ⟨S640, .i32⟩
  | .hbm, ⟨21, _⟩ => ⟨S400640, .i32⟩
  | .hbm, ⟨22, _⟩ => ⟨S_, .i32⟩
  | .hbm, ⟨23, _⟩ => ⟨S_, .f32⟩
  | .hbm, ⟨24, _⟩ => ⟨S400640x20, .f32⟩
  | .hbm, ⟨25, _⟩ => ⟨S_, .i32⟩
  | .hbm, ⟨26, _⟩ => ⟨S_, .f32⟩
  | .hbm, ⟨27, _⟩ => ⟨S400640, .f32⟩
  | .hbm, ⟨28, _⟩ => ⟨S_, .i32⟩
  | .hbm, ⟨29, _⟩ => ⟨S_, .f32⟩
  | .hbm, ⟨30, _⟩ => ⟨S400640x3, .f32⟩
  | .hbm, ⟨31, _⟩ => ⟨S_, .i32⟩
  | .hbm, ⟨32, _⟩ => ⟨S400640, .i32⟩
  | .hbm, ⟨33, _⟩ => ⟨S400640, .i1⟩
  | .hbm, ⟨34, _⟩ => ⟨S_, .i32⟩
  | .hbm, ⟨35, _⟩ => ⟨S400640, .i32⟩
  | .hbm, ⟨36, _⟩ => ⟨S400640, .i32⟩
  | .hbm, ⟨37, _⟩ => ⟨S400640, .i32⟩
  | .hbm, ⟨38, _⟩ => ⟨S400640x1, .i32⟩
  | .hbm, ⟨39, _⟩ => ⟨S400640x128, .f32⟩
  | .hbm, ⟨40, _⟩ => ⟨S_, .i32⟩
  | .hbm, ⟨41, _⟩ => ⟨S400640, .i32⟩
  | .hbm, ⟨42, _⟩ => ⟨S400640, .i1⟩
  | .hbm, ⟨43, _⟩ => ⟨S_, .i32⟩
  | .hbm, ⟨44, _⟩ => ⟨S400640, .i32⟩
  | .hbm, ⟨45, _⟩ => ⟨S400640, .i32⟩
  | .hbm, ⟨46, _⟩ => ⟨S400640, .i32⟩
  | .hbm, ⟨47, _⟩ => ⟨S400640x1, .i32⟩
  | .hbm, ⟨48, _⟩ => ⟨S400640x3x128, .f32⟩
  | .hbm, ⟨49, _⟩ => ⟨S400640x384, .f32⟩
  | .hbm, ⟨50, _⟩ => ⟨S400640x1, .f32⟩
  | .hbm, ⟨51, _⟩ => ⟨S1x128, .f32⟩
  | .hbm, ⟨52, _⟩ => ⟨S1x384, .f32⟩
  | .hbm, ⟨53, _⟩ => ⟨S1x384, .f32⟩
  | .hbm, ⟨54, _⟩ => ⟨S400640x128, .f32⟩
  | .hbm, ⟨55, _⟩ => ⟨S400640x384, .f32⟩
  | .hbm, ⟨56, _⟩ => ⟨S_, .f32⟩
  | .hbm, ⟨57, _⟩ => ⟨S20000x128, .f32⟩
  | .hbm, ⟨58, _⟩ => ⟨S400640x1, .i32⟩
  | .hbm, ⟨59, _⟩ => ⟨S20000x128, .f32⟩
  | .hbm, ⟨60, _⟩ => ⟨S400640x3x128, .f32⟩
  | .hbm, ⟨61, _⟩ => ⟨S_, .f32⟩
  | .hbm, ⟨62, _⟩ => ⟨S20000x3x128, .f32⟩
  | .hbm, ⟨63, _⟩ => ⟨S400640x1, .i32⟩
  | .hbm, ⟨64, _⟩ => ⟨S20000x3x128, .f32⟩
  | .local _ .vmem, ⟨0, _⟩ => ⟨S1280x128, .f32⟩
  | .local _ .vmem, ⟨1, _⟩ => ⟨S1280x128, .f32⟩
  | .local _ .vmem, ⟨2, _⟩ => ⟨S1280x384, .f32⟩
  | .local _ .vmem, ⟨3, _⟩ => ⟨S1280x384, .f32⟩
  | .local _ .vmem, ⟨4, _⟩ => ⟨S1280x20, .f32⟩
  | .local _ .vmem, ⟨5, _⟩ => ⟨S1280x20, .f32⟩
  | .local _ .vmem, ⟨6, _⟩ => ⟨S1280x1, .f32⟩
  | .local _ .vmem, ⟨7, _⟩ => ⟨S1280x1, .f32⟩
  | .local _ .vmem, ⟨8, _⟩ => ⟨S1280x3, .f32⟩
  | .local _ .vmem, ⟨9, _⟩ => ⟨S1280x3, .f32⟩
  | .local _ .vmem, ⟨10, _⟩ => ⟨S128x128, .f32⟩
  | .local _ .vmem, ⟨11, _⟩ => ⟨S1x128, .f32⟩
  | .local _ .vmem, ⟨12, _⟩ => ⟨S128x384, .f32⟩
  | .local _ .vmem, ⟨13, _⟩ => ⟨S1x384, .f32⟩
  | .local _ .vmem, ⟨14, _⟩ => ⟨S20x384, .f32⟩
  | .local _ .vmem, ⟨15, _⟩ => ⟨S1x384, .f32⟩
  | .local _ .vmem, ⟨16, _⟩ => ⟨S1280x128, .f32⟩
  | .local _ .vmem, ⟨17, _⟩ => ⟨S1280x128, .f32⟩
  | .local _ .vmem, ⟨18, _⟩ => ⟨S1280x384, .f32⟩
  | .local _ .vmem, ⟨19, _⟩ => ⟨S1280x384, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_call0_v0 : Ref sig .tc := ⟨.hbm, 23, rfl⟩
abbrev main_v8 : Ref sig .tc := ⟨.hbm, 24, rfl⟩
abbrev main_c_2 : Ref sig .tc := ⟨.hbm, 25, rfl⟩
abbrev main_call1_v0 : Ref sig .tc := ⟨.hbm, 26, rfl⟩
abbrev main_v9 : Ref sig .tc := ⟨.hbm, 27, rfl⟩
abbrev main_c_3 : Ref sig .tc := ⟨.hbm, 28, rfl⟩
abbrev main_call2_v0 : Ref sig .tc := ⟨.hbm, 29, rfl⟩
abbrev main_v10 : Ref sig .tc := ⟨.hbm, 30, rfl⟩
abbrev main_c_4 : Ref sig .tc := ⟨.hbm, 31, rfl⟩
abbrev main_v11 : Ref sig .tc := ⟨.hbm, 32, rfl⟩
abbrev main_v12 : Ref sig .tc := ⟨.hbm, 33, rfl⟩
abbrev main_c_5 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_6 : Ref sig .tc := ⟨.hbm, 40, rfl⟩
abbrev main_v18 : Ref sig .tc := ⟨.hbm, 41, rfl⟩
abbrev main_v19 : Ref sig .tc := ⟨.hbm, 42, rfl⟩
abbrev main_c_7 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30_0 : Ref sig .tc := ⟨.hbm, 54, rfl⟩
abbrev main_v30_1 : Ref sig .tc := ⟨.hbm, 55, rfl⟩
abbrev main_cst : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![313], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1280x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S20x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1280x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1280x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S640 : S_.BroadcastsInDim S640 (![] : Fin 0 → Fin S640.rank)
  concatenates_S400000_S640_S400640_d0 : Shape.Concatenates [S400000, S640] S400640 0
  pads_S400000x20_S400640x20_06400_000 : S400000x20.Pads (![0, 0] : Fin 2 → Nat) ![640, 0] ![0, 0] S400640x20
  h_S_ : 0 < S_.numel
  pads_S400000_S400640_06400 : S400000.Pads (![0] : Fin 1 → Nat) ![640] ![0] S400640
  pads_S400000x3_S400640x3_06400_000 : S400000x3.Pads (![0, 0] : Fin 2 → Nat) ![640, 0] ![0, 0] S400640x3
  bcast_S_S400640 : S_.BroadcastsInDim S400640 (![] : Fin 0 → Fin S400640.rank)
  bcast_S400640_S400640x1_0 : S400640.BroadcastsInDim S400640x1 (![0] : Fin 1 → Fin S400640x1.rank)
  shapeCasts_S400640x3x128_S400640x384 : S400640x3x128.ShapeCasts S400640x384
  bcast_S128_S1x128_1 : S128.BroadcastsInDim S1x128 (![1] : Fin 1 → Fin S1x128.rank)
  bcast_S384_S1x384_1 : S384.BroadcastsInDim S1x384 (![1] : Fin 1 → Fin S1x384.rank)
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  inb_S1280x384_S1280x384_0_0 : ∀ a, (![0, 0] : Fin 2 → Nat) a + S1280x384.size a ≤ S1280x384.size a
  h_S1280x384 : 0 < S1280x384.numel
  shapeCasts_S1280x384_S1280x384 : S1280x384.ShapeCasts S1280x384
  inb_S1280x20_S1280x20_0_0 : ∀ a, (![0, 0] : Fin 2 → Nat) a + S1280x20.size a ≤ S1280x20.size a
  h_S1280x20 : 0 < S1280x20.numel
  shapeCasts_S1280x20_S1280x20 : S1280x20.ShapeCasts S1280x20
  inb_S1280x1_S1280x1_0_0 : ∀ a, (![0, 0] : Fin 2 → Nat) a + S1280x1.size a ≤ S1280x1.size a
  h_S1280x1 : 0 < S1280x1.numel
  shapeCasts_S1280x1_S1280x1 : S1280x1.ShapeCasts S1280x1
  inb_S1280x3_S1280x3_0_0 : ∀ a, (![0, 0] : Fin 2 → Nat) a + S1280x3.size a ≤ S1280x3.size a
  h_S1280x3 : 0 < S1280x3.numel
  shapeCasts_S1280x3_S1280x3 : S1280x3.ShapeCasts S1280x3
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  inb_S20x384_S20x384_0_0 : ∀ a, (![0, 0] : Fin 2 → Nat) a + S20x384.size a ≤ S20x384.size a
  h_S20x384 : 0 < S20x384.numel
  broadcasts_S1x384_S1280x384 : S1x384.Broadcasts S1280x384
  broadcasts_S1280x1_S1280x384 : S1280x1.Broadcasts S1280x384
  broadcasts_S1x128_S1280x128 : S1x128.Broadcasts S1280x128
  slices_S1280x384_o0_0_S1280x128 : S1280x384.Slices ![0, 0] S1280x128
  slices_S1280x384_o0_128_S1280x128 : S1280x384.Slices ![0, 128] S1280x128
  slices_S1280x384_o0_256_S1280x128 : S1280x384.Slices ![0, 256] S1280x128
  slices_S1280x3_o0_0_S1280x1 : S1280x3.Slices ![0, 0] S1280x1
  slices_S1280x3_o0_1_S1280x1 : S1280x3.Slices ![0, 1] S1280x1
  slices_S1280x3_o0_2_S1280x1 : S1280x3.Slices ![0, 2] S1280x1
  broadcasts_S1280x1_S1280x128 : S1280x1.Broadcasts S1280x128
  inb_S1280x384_S1280x128_0_0 : ∀ a, (![0, 0] : Fin 2 → Nat) a + S1280x128.size a ≤ S1280x384.size a
  inb_S1280x384_S1280x128_0_128 : ∀ a, (![0, 128] : Fin 2 → Nat) a + S1280x128.size a ≤ S1280x384.size a
  inb_S1280x384_S1280x128_0_256 : ∀ a, (![0, 256] : Fin 2 → Nat) a + S1280x128.size a ≤ S1280x384.size a
  bcast_S_S20000x128 : S_.BroadcastsInDim S20000x128 (![] : Fin 0 → Fin S20000x128.rank)
  shapeCasts_S400640x384_S400640x3x128 : S400640x384.ShapeCasts S400640x3x128
  bcast_S_S20000x3x128 : S_.BroadcastsInDim S20000x3x128 (![] : Fin 0 → Fin S20000x3x128.rank)
  gather_S20000x128_S400640x1_S400640x128_1_0_n_n_0_1_1128_wf : GatherDims.WF S20000x128 S400640x1 S400640x128 [1] [0] [] [0] [] 1 ![1, 128]
  gather_S20000x3x128_S400640x1_S400640x3x128_12_0_n_n_0_1_13128_wf : GatherDims.WF S20000x3x128 S400640x1 S400640x3x128 [1, 2] [0] [] [0] [] 1 ![1, 3, 128]
  dot_S1280x20_S20x384_S1280x384_1_0_0_1_n_n_wf : DotDims.WF S1280x20 S20x384 S1280x384 [1] [0] [0] [1] [] []
  dot_S1280x128_S128x128_S1280x128_1_0_0_1_n_n_wf : DotDims.WF S1280x128 S128x128 S1280x128 [1] [0] [0] [1] [] []
  dot_S1280x128_S128x384_S1280x384_1_0_0_1_n_n_wf : DotDims.WF S1280x128 S128x384 S1280x384 [1] [0] [0] [1] [] []
  scatter_S20000x128_S400640x1_S400640x128_1_0_0_1_wf : ScatterDims.WF S20000x128 S400640x1 S400640x128 [1] [0] [0] 1
  scatter_S20000x3x128_S400640x1_S400640x3x128_12_0_0_1_wf : ScatterDims.WF S20000x3x128 S400640x1 S400640x3x128 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x128.size a ≤ S400640x128.size a
  hwx0_0 : ∀ i : grid0.Coords, EltTy.bits .f32 = 32 ∨ (Rect.block (s := S400640x128) S1280x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x384.size a ≤ S400640x384.size a
  hwx0_1 : ∀ i : grid0.Coords, EltTy.bits .f32 = 32 ∨ (Rect.block (s := S400640x384) S1280x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x20.size a ≤ S400640x20.size a
  hwx0_2 : ∀ i : grid0.Coords, EltTy.bits .f32 = 32 ∨ (Rect.block (s := S400640x20) S1280x20.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1280x1.size a ≤ S400640x1.size a
  hwx0_3 : ∀ i : grid0.Coords, EltTy.bits .f32 = 32 ∨ (Rect.block (s := S400640x1) S1280x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1280x3.size a ≤ S400640x3.size a
  hwx0_4 : ∀ i : grid0.Coords, EltTy.bits .f32 = 32 ∨ (Rect.block (s := S400640x3) S1280x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x384.size a ≤ S128x384.size a
  hwx0_7 : ∀ i : grid0.Coords, EltTy.bits .f32 = 32 ∨ (Rect.block (s := S128x384) S128x384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x384.size a ≤ S1x384.size a
  hwx0_8 : ∀ i : grid0.Coords, EltTy.bits .f32 = 32 ∨ (Rect.block (s := S1x384) S1x384.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S20x384.size a ≤ S20x384.size a
  hwx0_9 : ∀ i : grid0.Coords, EltTy.bits .f32 = 32 ∨ (Rect.block (s := S20x384) S20x384.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x384.size a ≤ S1x384.size a
  hwx0_10 : ∀ i : grid0.Coords, EltTy.bits .f32 = 32 ∨ (Rect.block (s := S1x384) S1x384.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1280x128.size a ≤ S400640x128.size a
  hwx0_11 : ∀ i : grid0.Coords, EltTy.bits .f32 = 32 ∨ (Rect.block (s := S400640x128) S1280x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1280x384.size a ≤ S400640x384.size a
  hwx0_12 : ∀ i : grid0.Coords, EltTy.bits .f32 = 32 ∨ (Rect.block (s := S400640x384) S1280x384.size (cc0_transform_12 i) (hinb0_12 i)).WholeWords (EltTy.packing .f32)

variable [Facts₀]

def gather_S20000x128_S400640x1_S400640x128_1_0_n_n_0_1_1128 : GatherDims S20000x128 S400640x1 S400640x128 where
  offsetDims := [1]
  collapsedSliceDims := [0]
  operandBatchingDims := []
  startIndicesBatchingDims := []
  startIndexMap := [0]
  indexVectorDim := 1
  sliceSizes := ![1, 128]
  wf := gather_S20000x128_S400640x1_S400640x128_1_0_n_n_0_1_1128_wf
def gather_S20000x3x128_S400640x1_S400640x3x128_12_0_n_n_0_1_13128 : GatherDims S20000x3x128 S400640x1 S400640x3x128 where
  offsetDims := [1, 2]
  collapsedSliceDims := [0]
  operandBatchingDims := []
  startIndicesBatchingDims := []
  startIndexMap := [0]
  indexVectorDim := 1
  sliceSizes := ![1, 3, 128]
  wf := gather_S20000x3x128_S400640x1_S400640x3x128_12_0_n_n_0_1_13128_wf
def dot_S1280x20_S20x384_S1280x384_1_0_0_1_n_n : DotDims S1280x20 S20x384 S1280x384 where
  lhsContracting := [1]
  rhsContracting := [0]
  lhsNonContracting := [0]
  rhsNonContracting := [1]
  lhsBatch := []
  rhsBatch := []
  wf := dot_S1280x20_S20x384_S1280x384_1_0_0_1_n_n_wf
def dot_S1280x128_S128x128_S1280x128_1_0_0_1_n_n : DotDims S1280x128 S128x128 S1280x128 where
  lhsContracting := [1]
  rhsContracting := [0]
  lhsNonContracting := [0]
  rhsNonContracting := [1]
  lhsBatch := []
  rhsBatch := []
  wf := dot_S1280x128_S128x128_S1280x128_1_0_0_1_n_n_wf
def dot_S1280x128_S128x384_S1280x384_1_0_0_1_n_n : DotDims S1280x128 S128x384 S1280x384 where
  lhsContracting := [1]
  rhsContracting := [0]
  lhsNonContracting := [0]
  rhsNonContracting := [1]
  lhsBatch := []
  rhsBatch := []
  wf := dot_S1280x128_S128x384_S1280x384_1_0_0_1_n_n_wf
def scatter_S20000x128_S400640x1_S400640x128_1_0_0_1 : ScatterDims S20000x128 S400640x1 S400640x128 where
  updateWindowDims := [1]
  insertedWindowDims := [0]
  scatterDimsToOperandDims := [0]
  indexVectorDim := 1
  wf := scatter_S20000x128_S400640x1_S400640x128_1_0_0_1_wf
def scatter_S20000x3x128_S400640x1_S400640x3x128_12_0_0_1 : ScatterDims S20000x3x128 S400640x1 S400640x3x128 where
  updateWindowDims := [1, 2]
  insertedWindowDims := [0]
  scatterDimsToOperandDims := [0]
  indexVectorDim := 1
  wf := scatter_S20000x3x128_S400640x1_S400640x3x128_12_0_0_1_wf

abbrev win0_0 : Pipeline.Window sig grid0 :=
  Pipeline.Window.ofSpec (Memref.whole main_v17) S1280x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1280x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1280x20.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1280x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1280x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S20x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v29) S1x384.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v30_0) S1280x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v30_1) S1280x384.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S20000x128 : Shape := ⟨2, ![20000, 128]⟩
abbrev S20000x3x128 : Shape := ⟨3, ![20000, 3, 128]⟩
abbrev S400000x20 : Shape := ⟨2, ![400000, 20]⟩
abbrev S400000 : Shape := ⟨1, ![400000]⟩
abbrev S400000x3 : Shape := ⟨2, ![400000, 3]⟩
abbrev S128x128 : Shape := ⟨2, ![128, 128]⟩
abbrev S128 : Shape := ⟨1, ![128]⟩
abbrev S128x384 : Shape := ⟨2, ![128, 384]⟩
abbrev S384 : Shape := ⟨1, ![384]⟩
abbrev S20x384 : Shape := ⟨2, ![20, 384]⟩
abbrev S2x400000 : Shape := ⟨2, ![2, 400000]⟩
abbrev S1x400000 : Shape := ⟨2, ![1, 400000]⟩
abbrev S400000x384 : Shape := ⟨2, ![400000, 384]⟩
abbrev S1x384 : Shape := ⟨2, ![1, 384]⟩
abbrev S400000x1 : Shape := ⟨2, ![400000, 1]⟩
abbrev S_ : Shape := ⟨0, ![]⟩
abbrev S400000x128 : Shape := ⟨2, ![400000, 128]⟩
abbrev S1x128 : Shape := ⟨2, ![1, 128]⟩
abbrev S400000x1x128 : Shape := ⟨3, ![400000, 1, 128]⟩
abbrev S400000x3x1 : Shape := ⟨3, ![400000, 3, 1]⟩
abbrev S400000x3x128 : Shape := ⟨3, ![400000, 3, 128]⟩

abbrev nBuf : Space → Nat
  | .hbm => 91
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S20000x3x128, .f32⟩
  | .hbm, ⟨2, _⟩ => ⟨S400000x20, .f32⟩
  | .hbm, ⟨3, _⟩ => ⟨S400000, .f32⟩
  | .hbm, ⟨4, _⟩ => ⟨S400000x3, .f32⟩
  | .hbm, ⟨5, _⟩ => ⟨S128x128, .f32⟩
  | .hbm, ⟨6, _⟩ => ⟨S128, .f32⟩
  | .hbm, ⟨7, _⟩ => ⟨S128x384, .f32⟩
  | .hbm, ⟨8, _⟩ => ⟨S384, .f32⟩
  | .hbm, ⟨9, _⟩ => ⟨S20x384, .f32⟩
  | .hbm, ⟨10, _⟩ => ⟨S384, .f32⟩
  | .hbm, ⟨11, _⟩ => ⟨S2x400000, .i32⟩
  | .hbm, ⟨12, _⟩ => ⟨S1x400000, .i32⟩
  | .hbm, ⟨13, _⟩ => ⟨S400000, .i32⟩
  | .hbm, ⟨14, _⟩ => ⟨S1x400000, .i32⟩
  | .hbm, ⟨15, _⟩ => ⟨S400000, .i32⟩
  | .hbm, ⟨16, _⟩ => ⟨S400000x384, .f32⟩
  | .hbm, ⟨17, _⟩ => ⟨S1x384, .f32⟩
  | .hbm, ⟨18, _⟩ => ⟨S400000x384, .f32⟩
  | .hbm, ⟨19, _⟩ => ⟨S400000x384, .f32⟩
  | .hbm, ⟨20, _⟩ => ⟨S400000x1, .f32⟩
  | .hbm, ⟨21, _⟩ => ⟨S400000x384, .f32⟩
  | .hbm, ⟨22, _⟩ => ⟨S400000x384, .f32⟩
  | .hbm, ⟨23, _⟩ => ⟨S_, .i32⟩
  | .hbm, ⟨24, _⟩ => ⟨S400000, .i32⟩
  | .hbm, ⟨25, _⟩ => ⟨S400000, .i1⟩
  | .hbm, ⟨26, _⟩ => ⟨S_, .i32⟩
  | .hbm, ⟨27, _⟩ => ⟨S400000, .i32⟩
  | .hbm, ⟨28, _⟩ => ⟨S400000, .i32⟩
  | .hbm, ⟨29, _⟩ => ⟨S400000, .i32⟩
  | .hbm, ⟨30, _⟩ => ⟨S400000x1, .i32⟩
  | .hbm, ⟨31, _⟩ => ⟨S400000x128, .f32⟩
  | .hbm, ⟨32, _⟩ => ⟨S400000x128, .f32⟩
  | .hbm, ⟨33, _⟩ => ⟨S1x128, .f32⟩
  | .hbm, ⟨34, _⟩ => ⟨S400000x128, .f32⟩
  | .hbm, ⟨35, _⟩ => ⟨S400000x128, .f32⟩
  | .hbm, ⟨36, _⟩ => ⟨S400000x128, .f32⟩
  | .hbm, ⟨37, _⟩ => ⟨S400000x128, .f32⟩
  | .hbm, ⟨38, _⟩ => ⟨S_, .f32⟩
  | .hbm, ⟨39, _⟩ => ⟨S400000x128, .f32⟩
  | .hbm, ⟨40, _⟩ => ⟨S400000x128, .f32⟩
  | .hbm, ⟨41, _⟩ => ⟨S_, .f32⟩
  | .hbm, ⟨42, _⟩ => ⟨S400000x128, .f32⟩
  | .hbm, ⟨43, _⟩ => ⟨S400000x128, .f32⟩
  | .hbm, ⟨44, _⟩ => ⟨S400000x128, .f32⟩
  | .hbm, ⟨45, _⟩ => ⟨S400000x384, .f32⟩
  | .hbm, ⟨46, _⟩ => ⟨S1x384, .f32⟩
  | .hbm, ⟨47, _⟩ => ⟨S400000x384, .f32⟩
  | .hbm, ⟨48, _⟩ => ⟨S400000x384, .f32⟩
  | .hbm, ⟨49, _⟩ => ⟨S400000x384, .f32⟩
  | .hbm, ⟨50, _⟩ => ⟨S400000x128, .f32⟩
  | .hbm, ⟨51, _⟩ => ⟨S400000x128, .f32⟩
  | .hbm, ⟨52, _⟩ => ⟨S400000x128, .f32⟩
  | .hbm, ⟨53, _⟩ => ⟨S_, .f32⟩
  | .hbm, ⟨54, _⟩ => ⟨S20000x128, .f32⟩
  | .hbm, ⟨55, _⟩ => ⟨S400000x1, .i32⟩
  | .hbm, ⟨56, _⟩ => ⟨S20000x128, .f32⟩
  | .hbm, ⟨57, _⟩ => ⟨S400000x1x128, .f32⟩
  | .hbm, ⟨58, _⟩ => ⟨S400000x3x1, .f32⟩
  | .hbm, ⟨59, _⟩ => ⟨S400000x3x128, .f32⟩
  | .hbm, ⟨60, _⟩ => ⟨S400000x3x128, .f32⟩
  | .hbm, ⟨61, _⟩ => ⟨S400000x3x128, .f32⟩
  | .hbm, ⟨62, _⟩ => ⟨S_, .f32⟩
  | .hbm, ⟨63, _⟩ => ⟨S20000x3x128, .f32⟩
  | .hbm, ⟨64, _⟩ => ⟨S400000x1, .i32⟩
  | .hbm, ⟨65, _⟩ => ⟨S20000x3x128, .f32⟩
  | .hbm, ⟨66, _⟩ => ⟨S_, .i32⟩
  | .hbm, ⟨67, _⟩ => ⟨S400000, .i32⟩
  | .hbm, ⟨68, _⟩ => ⟨S400000, .i1⟩
  | .hbm, ⟨69, _⟩ => ⟨S_, .i32⟩
  | .hbm, ⟨70, _⟩ => ⟨S400000, .i32⟩
  | .hbm, ⟨71, _⟩ => ⟨S400000, .i32⟩
  | .hbm, ⟨72, _⟩ => ⟨S400000, .i32⟩
  | .hbm, ⟨73, _⟩ => ⟨S400000x1, .i32⟩
  | .hbm, ⟨74, _⟩ => ⟨S400000x3x128, .f32⟩
  | .hbm, ⟨75, _⟩ => ⟨S400000x3x1, .f32⟩
  | .hbm, ⟨76, _⟩ => ⟨S400000x3x128, .f32⟩
  | .hbm, ⟨77, _⟩ => ⟨S400000x3x128, .f32⟩
  | .hbm, ⟨78, _⟩ => ⟨S_, .f32⟩
  | .hbm, ⟨79, _⟩ => ⟨S400000x128, .f32⟩
  | .hbm, ⟨80, _⟩ => ⟨S400000x128, .f32⟩
  | .hbm, ⟨81, _⟩ => ⟨S400000x1x128, .f32⟩
  | .hbm, ⟨82, _⟩ => ⟨S400000x3x1, .f32⟩
  | .hbm, ⟨83, _⟩ => ⟨S400000x3x128, .f32⟩
  | .hbm, ⟨84, _⟩ => ⟨S400000x3x128, .f32⟩
  | .hbm, ⟨85, _⟩ => ⟨S400000x3x128, .f32⟩
  | .hbm, ⟨86, _⟩ => ⟨S_, .f32⟩
  | .hbm, ⟨87, _⟩ => ⟨S20000x3x128, .f32⟩
  | .hbm, ⟨88, _⟩ => ⟨S400000x1, .i32⟩
  | .hbm, ⟨89, _⟩ => ⟨S20000x3x128, .f32⟩
  | .hbm, ⟨90, _⟩ => ⟨S20000x3x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_1 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_2 : Ref sig .tc := ⟨.hbm, 66, rfl⟩
abbrev main_v42 : Ref sig .tc := ⟨.hbm, 67, rfl⟩
abbrev main_v43 : Ref sig .tc := ⟨.hbm, 68, rfl⟩
abbrev main_c_3 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_4 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_5 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S384_S1x384_1 : S384.BroadcastsInDim S1x384 (![1] : Fin 1 → Fin S1x384.rank)
  bcast_S1x384_S400000x384_0_1 : S1x384.BroadcastsInDim S400000x384 (![0, 1] : Fin 2 → Fin S400000x384.rank)
  bcast_S400000_S400000x1_0 : S400000.BroadcastsInDim S400000x1 (![0] : Fin 1 → Fin S400000x1.rank)
  bcast_S400000x1_S400000x384_0_1 : S400000x1.BroadcastsInDim S400000x384 (![0, 1] : Fin 2 → Fin S400000x384.rank)
  bcast_S_S400000 : S_.BroadcastsInDim S400000 (![] : Fin 0 → Fin S400000.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  slices_S400000x384_S400000x128_0_0 : S400000x384.Slices ![0, 0] S400000x128
  slices_S400000x384_S400000x128_0_128 : S400000x384.Slices ![0, 128] S400000x128
  slices_S400000x384_S400000x128_0_256 : S400000x384.Slices ![0, 256] S400000x128
  bcast_S_S20000x128 : S_.BroadcastsInDim S20000x128 (![] : Fin 0 → Fin S20000x128.rank)
  bcast_S400000x128_S400000x1x128_0_2 : S400000x128.BroadcastsInDim S400000x1x128 (![0, 2] : Fin 2 → Fin S400000x1x128.rank)
  bcast_S400000x3_S400000x3x1_0_1 : S400000x3.BroadcastsInDim S400000x3x1 (![0, 1] : Fin 2 → Fin S400000x3x1.rank)
  bcast_S400000x1x128_S400000x3x128_0_1_2 : S400000x1x128.BroadcastsInDim S400000x3x128 (![0, 1, 2] : Fin 3 → Fin S400000x3x128.rank)
  bcast_S400000x3x1_S400000x3x128_0_1_2 : S400000x3x1.BroadcastsInDim S400000x3x128 (![0, 1, 2] : Fin 3 → Fin S400000x3x128.rank)
  bcast_S_S20000x3x128 : S_.BroadcastsInDim S20000x3x128 (![] : Fin 0 → Fin S20000x3x128.rank)
  reducesTo_S400000x3x128_S400000x128_d1 : S400000x3x128.ReducesTo [1] S400000x128
  h_S_ : 0 < S_.numel
  dot_S400000x20_S20x384_S400000x384_1_0_0_1_n_n_wf : DotDims.WF S400000x20 S20x384 S400000x384 [1] [0] [0] [1] [] []
  gather_S20000x128_S400000x1_S400000x128_1_0_n_n_0_1_1128_wf : GatherDims.WF S20000x128 S400000x1 S400000x128 [1] [0] [] [0] [] 1 ![1, 128]
  dot_S400000x128_S128x128_S400000x128_1_0_0_1_n_n_wf : DotDims.WF S400000x128 S128x128 S400000x128 [1] [0] [0] [1] [] []
  dot_S400000x128_S128x384_S400000x384_1_0_0_1_n_n_wf : DotDims.WF S400000x128 S128x384 S400000x384 [1] [0] [0] [1] [] []
  scatter_S20000x128_S400000x1_S400000x128_1_0_0_1_wf : ScatterDims.WF S20000x128 S400000x1 S400000x128 [1] [0] [0] 1
  scatter_S20000x3x128_S400000x1_S400000x3x128_12_0_0_1_wf : ScatterDims.WF S20000x3x128 S400000x1 S400000x3x128 [1, 2] [0] [0] 1
  gather_S20000x3x128_S400000x1_S400000x3x128_12_0_n_n_0_1_13128_wf : GatherDims.WF S20000x3x128 S400000x1 S400000x3x128 [1, 2] [0] [] [0] [] 1 ![1, 3, 128]

variable [Facts₀]

def dot_S400000x20_S20x384_S400000x384_1_0_0_1_n_n : DotDims S400000x20 S20x384 S400000x384 where
  lhsContracting := [1]
  rhsContracting := [0]
  lhsNonContracting := [0]
  rhsNonContracting := [1]
  lhsBatch := []
  rhsBatch := []
  wf := dot_S400000x20_S20x384_S400000x384_1_0_0_1_n_n_wf
def gather_S20000x128_S400000x1_S400000x128_1_0_n_n_0_1_1128 : GatherDims S20000x128 S400000x1 S400000x128 where
  offsetDims := [1]
  collapsedSliceDims := [0]
  operandBatchingDims := []
  startIndicesBatchingDims := []
  startIndexMap := [0]
  indexVectorDim := 1
  sliceSizes := ![1, 128]
  wf := gather_S20000x128_S400000x1_S400000x128_1_0_n_n_0_1_1128_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S400000x128_S128x384_S400000x384_1_0_0_1_n_n : DotDims S400000x128 S128x384 S400000x384 where
  lhsContracting := [1]
  rhsContracting := [0]
  lhsNonContracting := [0]
  rhsNonContracting := [1]
  lhsBatch := []
  rhsBatch := []
  wf := dot_S400000x128_S128x384_S400000x384_1_0_0_1_n_n_wf
def scatter_S20000x128_S400000x1_S400000x128_1_0_0_1 : ScatterDims S20000x128 S400000x1 S400000x128 where
  updateWindowDims := [1]
  insertedWindowDims := [0]
  scatterDimsToOperandDims := [0]
  indexVectorDim := 1
  wf := scatter_S20000x128_S400000x1_S400000x128_1_0_0_1_wf
def scatter_S20000x3x128_S400000x1_S400000x3x128_12_0_0_1 : ScatterDims S20000x3x128 S400000x1 S400000x3x128 where
  updateWindowDims := [1, 2]
  insertedWindowDims := [0]
  scatterDimsToOperandDims := [0]
  indexVectorDim := 1
  wf := scatter_S20000x3x128_S400000x1_S400000x3x128_12_0_0_1_wf
def gather_S20000x3x128_S400000x1_S400000x3x128_12_0_n_n_0_1_13128 : GatherDims S20000x3x128 S400000x1 S400000x3x128 where
  offsetDims := [1, 2]
  collapsedSliceDims := [0]
  operandBatchingDims := []
  startIndicesBatchingDims := []
  startIndexMap := [0]
  indexVectorDim := 1
  sliceSizes := ![1, 3, 128]
  wf := gather_S20000x3x128_S400000x1_S400000x3x128_12_0_n_n_0_1_13128_wf

class Facts : Prop extends Facts₀ where

variable [Facts]
-- ==== Proof.KRun.lean ====
/-
  The kernel program's run with its two results named: each is what the operations after the pallas call
  compute from the call's two output arrays.
-/
import proofs.«108081_j71390946394547_1_alg».proof.Proof.Gen.KernelIdeal.Frame
import Idealize.ShloMosaic.PureOps.Ideal

set_option maxRecDepth 16384

noncomputable section

namespace Cert.KRun

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every weakly fair execution ends with the two results at the values the trailing scatter-adds compute
    and the arguments unchanged. -/
theorem run_named : θ_run defs (onTc (τ := τ) (main (F := Ideal))) ⟨m, fun _ => 0, ρ⟩ (fun r => ∀ c : Dev nD,
      r.2.mem ((c.tc : Thread nD τ).loc main_v33) = Pipeline.afterTail₀ cfgs (dats m) 0 (V0 m) [hostOps1] c main_v33
      ∧ r.2.mem ((c.tc : Thread nD τ).loc main_v37) = Pipeline.afterTail₀ cfgs (dats m) 0 (V0 m) [hostOps1] c main_v37
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).2 main_v33 (Pipeline.mem_restRefs_of main_v33 (by decide) (by decide)),
      (h c).2 main_v37 (Pipeline.mem_restRefs_of main_v37 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 5).trans ((((dats m) 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans ((((dats m) 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans ((((dats m) 0 c).arrAt_in 9 rfl _).trans ((A_eq m c 9).trans (V_main_arg9 m c))),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩) (run_main m ρ)

end Cert.KRun

end
-- ==== Proof.KTail.lean ====
/-
  The operations after the pallas call: each result is a scatter-add, by the padded target indices, of one of
  the call's two output arrays into zeros.
-/
import proofs.«108081_j71390946394547_1_alg».proof.Proof.Gen.KernelIdeal.Frame
import Idealize.ShloMosaic.PureOps.Ideal
import Idealize.ShloMosaic.Lib.StableHlo.Run

set_option maxRecDepth 16384

noncomputable section

namespace Cert.KTail

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD)

/-- After the call the target indices are as before it (no window stages them). -/
theorem kept_v5 :
    Pipeline.withArrays (cfgs 0).spec c (V0 m c) (fun w => (dats m 0 c).arrAt w (cfgs 0).N) (Proc.devRef .tc main_v5)
      = V m c main_v5 :=
  Pipeline.withArrays_of_ne _ c (V0 m c) _ main_v5 (by exact (by decide : ∀ w, Pipeline.arrRef spec0 w ≠ main_v5))

/-- After the call the two output arrays hold what the run's proof data say. -/
theorem out11 :
    Pipeline.withArrays (cfgs 0).spec c (V0 m c) (fun w => (dats m 0 c).arrAt w (cfgs 0).N) (Proc.devRef .tc main_v30_0)
      = (dats m 0 c).arrAt 11 cfg0.N :=
  Pipeline.withArrays_arr spec0 launch0.win.arr_inj c (V0 m c) (fun w => (dats m 0 c).arrAt w (cfgs 0).N) 11

theorem out12 :
    Pipeline.withArrays (cfgs 0).spec c (V0 m c) (fun w => (dats m 0 c).arrAt w (cfgs 0).N) (Proc.devRef .tc main_v30_1)
      = (dats m 0 c).arrAt 12 cfg0.N :=
  Pipeline.withArrays_arr spec0 launch0.win.arr_inj c (V0 m c) (fun w => (dats m 0 c).arrAt w (cfgs 0).N) 12

/-- The first result. -/
theorem tail33 :
    (Pipeline.afterTail₀ cfgs (dats m) 0 (V0 m) [hostOps1] c main_v33 : S20000x128.Idx → EReal)
      = Host.scatterAdd scatter_S20000x128_S400640x1_S400640x128_1_0_0_1
          (broadcastInDim S20000x128 ![] bcast_S_S20000x128 (constant (F := Ideal) S_ .f32 0x00000000#32))
          (broadcastInDim S400640x1 ![0] bcast_S400640_S400640x1_0 (V m c main_v5))
          ((dats m 0 c).arrAt 11 cfg0.N) := by
  unfold Pipeline.afterTail₀
  show StableHlo.after hostOps1 _ (Proc.devRef .tc main_v33) = _
  after_results
  rw [kept_v5, out11]

/-- The second result. -/
theorem tail37 :
    (Pipeline.afterTail₀ cfgs (dats m) 0 (V0 m) [hostOps1] c main_v37 : S20000x3x128.Idx → EReal)
      = Host.scatterAdd scatter_S20000x3x128_S400640x1_S400640x3x128_12_0_0_1
          (broadcastInDim S20000x3x128 ![] bcast_S_S20000x3x128 (constant (F := Ideal) S_ .f32 0x00000000#32))
          (broadcastInDim S400640x1 ![0] bcast_S400640_S400640x1_0 (V m c main_v5))
          (shapeCast S400640x3x128 ((dats m 0 c).arrAt 12 cfg0.N) shapeCasts_S400640x384_S400640x3x128) := by
  unfold Pipeline.afterTail₀
  show StableHlo.after hostOps1 _ (Proc.devRef .tc main_v37) = _
  after_results
  rw [kept_v5, out12]
  rfl

end Cert.KTail

end
-- ==== Proof.Spec.lean ====
/-
  The message-passing layer as mathematics, independent of any program.

  For one edge with gathered source features sj (128 values), radial basis rb (20 values), cutoff cu and
  direction ev (3 values), and weights W1, b1, W2, b2, Wr, br:
    lin k  = sum_t sj t * W1 t k + b1 k
    act k  = lin k * logistic (lin k)                      (the silu nonlinearity)
    gate q = (sum_r rb r * Wr r q + br q) * cu
    X q    = (sum_k act k * W2 k q + b2 q) * gate q        (384 filter values: three groups of 128)
  The scalar message of the edge is X on the first group. The vector message, component c, feature h, is written
  two ways: (X(128+h) + inner h * X(256+h)) * ev c with inner h = (vj 0 h * ev 0 + vj 1 h * ev 1) + vj 2 h * ev 2,
  or X(128+h) * ev c  and  ((0 + sum_k vj k h * ev k) * X(256+h)) * ev c  summed separately. Each node receives the sum
  of the messages of the edges that point at it.
-/
import Idealize.ShloMosaic.Lib.ValueIdx
import Idealize.ShloMosaic.PureOps.Ideal

noncomputable section

namespace Cert.Msg

open Idealize.ShloMosaic Idealize.ShloMosaic.ValueIdx

/-- The six weight arrays, as functions of their coordinates. -/
structure Wts where
  W1 : Fin 128 → Fin 128 → EReal
  b1 : Fin 128 → EReal
  W2 : Fin 128 → Fin 384 → EReal
  b2 : Fin 384 → EReal
  Wr : Fin 20 → Fin 384 → EReal
  br : Fin 384 → EReal

/-- The first linear layer on the gathered source features. -/
def lin (w : Wts) (sj : Fin 128 → EReal) (k : Fin 128) : EReal := (∑ t : Fin 128, sj t * w.W1 t k) + w.b1 k

/-- silu of the first layer: x * logistic x. -/
def act (w : Wts) (sj : Fin 128 → EReal) (k : Fin 128) : EReal := lin w sj k * Ideal.logistic (lin w sj k)

/-- The radial projection modulated by the cutoff. -/
def gate (w : Wts) (rb : Fin 20 → EReal) (cu : EReal) (q : Fin 384) : EReal :=
  ((∑ r : Fin 20, rb r * w.Wr r q) + w.br q) * cu

/-- One edge's 384 filter values. -/
def rowX (w : Wts) (sj : Fin 128 → EReal) (rb : Fin 20 → EReal) (cu : EReal) (q : Fin 384) : EReal :=
  ((∑ k : Fin 128, act w sj k * w.W2 k q) + w.b2 q) * gate w rb cu q

/-- Feature h in the first, second and third group of 128 filter values. -/
def qss (h : Fin 128) : Fin 384 := ⟨h.val, by omega⟩
def qsv (h : Fin 128) : Fin 384 := ⟨128 + h.val, by omega⟩
def qvv (h : Fin 128) : Fin 384 := ⟨256 + h.val, by omega⟩

/-- The vector message with the two terms combined before the multiplication by the direction. -/
def dvK (X : Fin 384 → EReal) (vj : Fin 3 → Fin 128 → EReal) (ev : Fin 3 → EReal) (c : Fin 3) (h : Fin 128) : EReal :=
  (X (qsv h) + ((vj 0 h * ev 0 + vj 1 h * ev 1) + vj 2 h * ev 2) * X (qvv h)) * ev c

/-- The two terms of the vector message multiplied by the direction separately. -/
def dvR1 (X : Fin 384 → EReal) (ev : Fin 3 → EReal) (c : Fin 3) (h : Fin 128) : EReal := X (qsv h) * ev c
def dvR2 (X : Fin 384 → EReal) (vj : Fin 3 → Fin 128 → EReal) (ev : Fin 3 → EReal) (c : Fin 3) (h : Fin 128) : EReal :=
  ((0 + ∑ k : Fin 3, vj k h * ev k) * X (qvv h)) * ev c

/-- A negative index word counts from the end of the 20000 rows. -/
def wrapIdx (j : BitVec 32) : BitVec 32 := Scalar.select (IntOp.cmpi .slt j 0#32) (IntOp.addi j 20000#32) j

/-- The row a source index word reads: wrapped, read signed, clamped into the rows. -/
def srcRow (j : BitVec 32) : Fin 20000 := ⟨min (wrapIdx j).toInt.toNat (20000 - 1), by omega⟩

/-- The twelve argument arrays at the ideal instance. -/
structure Args where
  s : (⟨2, ![20000, 128]⟩ : Shape).Idx → EReal
  v : (⟨3, ![20000, 3, 128]⟩ : Shape).Idx → EReal
  rbf : (⟨2, ![400000, 20]⟩ : Shape).Idx → EReal
  cut : (⟨1, ![400000]⟩ : Shape).Idx → EReal
  ev : (⟨2, ![400000, 3]⟩ : Shape).Idx → EReal
  W1 : (⟨2, ![128, 128]⟩ : Shape).Idx → EReal
  b1 : (⟨1, ![128]⟩ : Shape).Idx → EReal
  W2 : (⟨2, ![128, 384]⟩ : Shape).Idx → EReal
  b2 : (⟨1, ![384]⟩ : Shape).Idx → EReal
  Wr : (⟨2, ![20, 384]⟩ : Shape).Idx → EReal
  br : (⟨1, ![384]⟩ : Shape).Idx → EReal
  ei : (⟨2, ![2, 400000]⟩ : Shape).Idx → BitVec 32

namespace Args

variable (a : Args)

def wts : Wts where
  W1 t k := a.W1 (ix2 t k)
  b1 k := a.b1 (ix1 k)
  W2 k q := a.W2 (ix2 k q)
  b2 q := a.b2 (ix1 q)
  Wr r q := a.Wr (ix2 r q)
  br q := a.br (ix1 q)

/-- The source row of edge e (second row of the index array). -/
def src (e : Fin 400000) : Fin 20000 := srcRow (a.ei (ix2 1 e))

/-- Edge e points at node n (first row of the index array, read signed). -/
def dstIs (e : Fin 400000) (n : Fin 20000) : Prop := (a.ei (ix2 0 e)).toInt = (n.val : Int)

instance (e : Fin 400000) (n : Fin 20000) : Decidable (a.dstIs e n) := by unfold dstIs; infer_instance

/-- Edge e's filter values. -/
def X (e : Fin 400000) (q : Fin 384) : EReal :=
  rowX a.wts (fun t => a.s (ix2 (a.src e) t)) (fun r => a.rbf (ix2 e r)) (a.cut (ix1 e)) q

/-- Edge e's gathered source vectors and its direction. -/
def vj (e : Fin 400000) (k : Fin 3) (h : Fin 128) : EReal := a.v (ix3 (a.src e) k h)
def evr (e : Fin 400000) (k : Fin 3) : EReal := a.ev (ix2 e k)

/-- The scalar output at node n, feature h. -/
def ds (n : Fin 20000) (h : Fin 128) : EReal := 0 + ∑ e : Fin 400000, if a.dstIs e n then a.X e (qss h) else 0

/-- The vector output at node n, component c, feature h: combined form, and the two-term form. -/
def dvKer (n : Fin 20000) (c : Fin 3) (h : Fin 128) : EReal :=
  0 + ∑ e : Fin 400000, if a.dstIs e n then dvK (a.X e) (a.vj e) (a.evr e) c h else 0
def dvRef (n : Fin 20000) (c : Fin 3) (h : Fin 128) : EReal :=
  (0 + ∑ e : Fin 400000, if a.dstIs e n then dvR1 (a.X e) (a.evr e) c h else 0)
    + (0 + ∑ e : Fin 400000, if a.dstIs e n then dvR2 (a.X e) (a.vj e) (a.evr e) c h else 0)

/-- The outputs as arrays over the nodes. -/
def dsArr : (⟨2, ![20000, 128]⟩ : Shape).Idx → EReal :=
  fun i => a.ds ⟨(i 0).val, (i 0).isLt⟩ ⟨(i 1).val, (i 1).isLt⟩
def dvKerArr : (⟨3, ![20000, 3, 128]⟩ : Shape).Idx → EReal :=
  fun i => a.dvKer ⟨(i 0).val, (i 0).isLt⟩ ⟨(i 1).val, (i 1).isLt⟩ ⟨(i 2).val, (i 2).isLt⟩
def dvRefArr : (⟨3, ![20000, 3, 128]⟩ : Shape).Idx → EReal :=
  fun i => a.dvRef ⟨(i 0).val, (i 0).isLt⟩ ⟨(i 1).val, (i 1).isLt⟩ ⟨(i 2).val, (i 2).isLt⟩

/-- Every float entry of the arguments is a real number. -/
structure Finite : Prop where
  s : ∀ i, ∃ r : ℝ, a.s i = r
  v : ∀ i, ∃ r : ℝ, a.v i = r
  rbf : ∀ i, ∃ r : ℝ, a.rbf i = r
  cut : ∀ i, ∃ r : ℝ, a.cut i = r
  ev : ∀ i, ∃ r : ℝ, a.ev i = r
  W1 : ∀ i, ∃ r : ℝ, a.W1 i = r
  b1 : ∀ i, ∃ r : ℝ, a.b1 i = r
  W2 : ∀ i, ∃ r : ℝ, a.W2 i = r
  b2 : ∀ i, ∃ r : ℝ, a.b2 i = r
  Wr : ∀ i, ∃ r : ℝ, a.Wr i = r
  br : ∀ i, ∃ r : ℝ, a.br i = r

end Args

end Cert.Msg

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.LibColBroadcast.lean ====
/-
  A column repeated along the columns, read at an entry (a general lemma: nothing here depends on a program).

  A column [A, 1] broadcast to B columns [A, B] holds at (p, q) the column's entry p: a broadcast reads a unit axis
  at 0 and every other axis at the result's coordinate.  Any sizes A, B; companion of the row form (a row [1, A]
  broadcast down B rows read at (p, q) is the row at q).
-/
import Idealize.ShloMosaic.Lib.ValueIdx
import Idealize.ShloMosaic.Lib.Pipeline.Value

noncomputable section

namespace Cert.Lib.ColBroadcast

open Idealize.ShloMosaic Idealize.ShloMosaic.ValueIdx

/-- A column [A, 1] broadcast to B columns, at (p, q), is the column at (p, 0). -/
theorem bcastColMat_apply {α : Type} {A B : Nat} (c : (⟨2, ![A, 1]⟩ : Shape).Idx → α)
    (h : (⟨2, ![A, 1]⟩ : Shape).Broadcasts ⟨2, ![A, B]⟩) (p : Fin A) (q : Fin B) :
    broadcastTo ⟨2, ![A, B]⟩ c h (ix2 p q) = c (ix2 p (0 : Fin 1)) := by
  refine broadcastTo_apply c h (ix2 p q) (ix2 p (0 : Fin 1)) ?_
  intro a
  match a with
  | ⟨0, _⟩ =>
    show p.val = if A = 1 then 0 else p.val
    split
    · have := p.isLt; omega
    · rfl
  | ⟨1, _⟩ => simp

end Cert.Lib.ColBroadcast

end
-- ==== Proof.KPay.lean ====
/-
  The kernel body's stored values at one entry of a block of 1280 edges.
-/
import proofs.«108081_j71390946394547_1_alg».proof.Proof.Gen.KernelIdeal.Skeleton
import proofs.«108081_j71390946394547_1_alg».proof.Proof.Spec
import proofs.«108081_j71390946394547_1_alg».proof.Proof.LibMatmul
import proofs.«108081_j71390946394547_1_alg».proof.Proof.LibLayout
import proofs.«108081_j71390946394547_1_alg».proof.Proof.LibColBroadcast
import Idealize.ShloMosaic.Lib.ValueLayout
import Idealize.ShloMosaic.Lib.Pipeline.Value

noncomputable section

namespace Cert.KPay

open Cert.KernelIdeal Cert.KernelIdeal.Gen Idealize.ShloMosaic Idealize.ShloMosaic.ValueIdx Cert.Msg

variable (x0 : Vec Ideal S1280x128 .f32) (x1 : Vec Ideal S1280x384 .f32) (x2 : Vec Ideal S1280x20 .f32)
  (x3 : Vec Ideal S1280x1 .f32) (x4 : Vec Ideal S1280x3 .f32) (x5 : Vec Ideal S128x128 .f32) (x6 : Vec Ideal S1x128 .f32)
  (x7 : Vec Ideal S128x384 .f32) (x8 : Vec Ideal S1x384 .f32) (x9 : Vec Ideal S20x384 .f32) (x10 : Vec Ideal S1x384 .f32)

/-- The weights as the body loads them: the biases are one-row matrices. -/
def bwts : Wts where
  W1 t k := x5 (ix2 t k)
  b1 k := x6 (ix2 0 k)
  W2 k q := x7 (ix2 k q)
  b2 q := x8 (ix2 0 q)
  Wr r q := x9 (ix2 r q)
  br q := x10 (ix2 0 q)

/-- Row p of the block: the filter values of that edge. -/
def bX (p : Fin 1280) (q : Fin 384) : EReal :=
  rowX (bwts x5 x6 x7 x8 x9 x10) (fun t => x0 (ix2 p t)) (fun r => x2 (ix2 p r)) (x3 (ix2 p 0)) q

/-- Row p of the block: the gathered source vectors (three groups of 128 columns) and the direction. -/
def bvj (p : Fin 1280) (k : Fin 3) (h : Fin 128) : EReal := x1 (ix2 p ⟨128 * k.val + h.val, by omega⟩)
def bev (p : Fin 1280) (k : Fin 3) : EReal := x4 (ix2 p k)

/-- The gate block at (p, q): the radial projection plus its bias, times the cutoff of row p. -/
private theorem pay14_apply (p : Fin 1280) (q : Fin 384) :
    k0_pay14 x2 x3 x9 x10 (ix2 p q)
      = gate (bwts x5 x6 x7 x8 x9 x10) (fun r => x2 (ix2 p r)) (x3 (ix2 p 0)) q := by
  unfold k0_pay14 gate bwts
  simp only [mulf_apply, addf_apply, shapeCast_self]
  refine congrArg₂ (· * ·) (congrArg₂ (· + ·) ?_ ?_) ?_
  · exact Cert.Lib.Matmul.matmul_zero_apply (A := 1280) (K := 20) (C := 384) none
      (truncf .bf16 x2 bitsLt_bf16_f32) (truncf .bf16 x9 bitsLt_bf16_f32) p q
  · exact broadcastTo_1b_ab_apply x10 _ p q
  · exact Cert.Lib.ColBroadcast.bcastColMat_apply x3 _ p q

/-- The activated first layer at (p, k): the linear layer times its logistic. -/
private theorem pay15_apply (p : Fin 1280) (k : Fin 128) :
    k0_pay15 x0 x5 x6 (ix2 p k)
      = act (bwts x5 x6 x7 x8 x9 x10) (fun t => x0 (ix2 p t)) k := by
  unfold k0_pay15 act lin bwts
  simp only [truncf_apply, mulf_apply, addf_apply, shapeCast_self]
  have hl : matmul (F := Ideal) dot_S1280x128_S128x128_S1280x128_1_0_0_1_n_n none (truncf .bf16 x0 bitsLt_bf16_f32)
        (truncf .bf16 x5 bitsLt_bf16_f32) (constant S1280x128 .f32 0#32) (ix2 p k)
        + broadcastTo S1280x128 x6 broadcasts_S1x128_S1280x128 (ix2 p k)
      = (∑ t : Fin 128, x0 (ix2 p t) * x5 (ix2 t k)) + x6 (ix2 0 k) := by
    refine congrArg₂ (· + ·) ?_ ?_
    · exact Cert.Lib.Matmul.matmul_zero_apply (A := 1280) (K := 128) (C := 128) none
        (truncf .bf16 x0 bitsLt_bf16_f32) (truncf .bf16 x5 bitsLt_bf16_f32) p k
    · exact broadcastTo_1b_ab_apply x6 _ p k
  exact congrArg₂ (fun a b => a * Ideal.logistic b) hl hl

/-- The filter block at (p, q): the second layer on the activations plus its bias, times the gate. -/
private theorem pay1_apply (p : Fin 1280) (q : Fin 384) :
    k0_pay1 (k0_pay12 x7) (k0_pay13 x8) (k0_pay14 x2 x3 x9 x10) (k0_pay15 x0 x5 x6) (ix2 p q)
      = bX x0 x2 x3 x5 x6 x7 x8 x9 x10 p q := by
  unfold k0_pay1 bX rowX
  simp only [mulf_apply, addf_apply]
  refine congrArg₂ (· * ·) (congrArg₂ (· + ·) ?_ ?_) (pay14_apply x2 x3 x5 x6 x7 x8 x9 x10 p q)
  · refine (Cert.Lib.Matmul.matmul_zero_apply (A := 1280) (K := 128) (C := 384) none
      (k0_pay15 x0 x5 x6) (k0_pay12 x7) p q).trans ?_
    refine Finset.sum_congr rfl fun k _ => ?_
    exact congrArg₂ (· * ·) (pay15_apply x0 x5 x6 x7 x8 x9 x10 p k) rfl
  · unfold k0_pay13
    simp only [shapeCast_self]
    exact broadcastTo_1b_ab_apply x8 _ p q

/-- The value stored to the scalar output block at (p, h). -/
theorem pay2_apply (p : Fin 1280) (h : Fin 128) :
    k0_pay2 (k0_pay12 x7) (k0_pay13 x8) (k0_pay14 x2 x3 x9 x10) (k0_pay15 x0 x5 x6) (ix2 p h)
      = bX x0 x2 x3 x5 x6 x7 x8 x9 x10 p (qss h) := by
  unfold k0_pay2
  refine (slice2_axis1_apply 0 _ _ p h (qss h) ?_).trans (pay1_apply x0 x2 x3 x5 x6 x7 x8 x9 x10 p (qss h))
  show h.val = 0 + h.val
  omega

/-- Column group c of the gathered vectors at (p, h): the slice at offset o = 128 * c. -/
private theorem vj_apply (p : Fin 1280) (h : Fin 128) (c : Fin 3) (o : Nat) (ho : o = 128 * c.val)
    (hs : S1280x384.Slices ![0, o] S1280x128) :
    extractStridedSlice S1280x128 ![0, o] (k0_pay10 x1) hs (ix2 p h) = bvj x1 p c h := by
  unfold k0_pay10 bvj
  simp only [shapeCast_self]
  refine slice2_axis1_apply o x1 hs p h _ ?_
  show 128 * c.val + h.val = o + h.val
  omega

/-- Direction column c of the block, repeated along the row, at (p, h). -/
private theorem ev_apply (p : Fin 1280) (h : Fin 128) (c : Fin 3)
    (hs : S1280x3.Slices ![0, c.val] S1280x1) (hb : S1280x1.Broadcasts S1280x128) :
    broadcastTo S1280x128 (extractStridedSlice S1280x1 ![0, c.val] (k0_pay11 x4) hs) hb (ix2 p h) = bev x4 p c := by
  unfold k0_pay11 bev
  simp only [shapeCast_self]
  refine (Cert.Lib.ColBroadcast.bcastColMat_apply _ hb p h).trans ?_
  refine slice2_axis1_apply c.val x4 hs p (0 : Fin 1) c ?_
  show c.val = c.val + 0
  omega

/-- The combined vector term at (p, h), before the multiplication by a direction component. -/
private theorem pay6_apply (p : Fin 1280) (h : Fin 128) :
    k0_pay6 (k0_pay10 x1) (k0_pay11 x4) (k0_pay12 x7) (k0_pay13 x8) (k0_pay14 x2 x3 x9 x10) (k0_pay15 x0 x5 x6) (ix2 p h)
      = bX x0 x2 x3 x5 x6 x7 x8 x9 x10 p (qsv h)
        + ((bvj x1 p 0 h * bev x4 p 0 + bvj x1 p 1 h * bev x4 p 1) + bvj x1 p 2 h * bev x4 p 2)
          * bX x0 x2 x3 x5 x6 x7 x8 x9 x10 p (qvv h) := by
  unfold k0_pay6 k0_pay3 k0_pay4 k0_pay5
  simp only [mulf_apply, addf_apply]
  refine congrArg₂ (· + ·) ?_ (congrArg₂ (· * ·) (congrArg₂ (· + ·) (congrArg₂ (· + ·)
    (congrArg₂ (· * ·) ?_ ?_) (congrArg₂ (· * ·) ?_ ?_)) (congrArg₂ (· * ·) ?_ ?_)) ?_)
  · exact (slice2_axis1_apply 128 _ _ p h (qsv h) rfl).trans
      (pay1_apply x0 x2 x3 x5 x6 x7 x8 x9 x10 p (qsv h))
  · exact vj_apply x1 p h 0 0 rfl _
  · exact ev_apply x4 p h 0 _ _
  · exact vj_apply x1 p h 1 128 rfl _
  · exact ev_apply x4 p h 1 _ _
  · exact vj_apply x1 p h 2 256 rfl _
  · exact ev_apply x4 p h 2 _ _
  · exact (slice2_axis1_apply 256 _ _ p h (qvv h) rfl).trans
      (pay1_apply x0 x2 x3 x5 x6 x7 x8 x9 x10 p (qvv h))

/-- The values stored to the three column groups of the vector output block at (p, h). -/
theorem pay7_apply (p : Fin 1280) (h : Fin 128) :
    k0_pay7 (k0_pay10 x1) (k0_pay11 x4) (k0_pay12 x7) (k0_pay13 x8) (k0_pay14 x2 x3 x9 x10) (k0_pay15 x0 x5 x6) (ix2 p h)
      = dvK (bX x0 x2 x3 x5 x6 x7 x8 x9 x10 p) (bvj x1 p) (bev x4 p) 0 h := by
  unfold k0_pay7 k0_pay3 dvK
  simp only [mulf_apply]
  exact congrArg₂ (· * ·) (pay6_apply x0 x1 x2 x3 x4 x5 x6 x7 x8 x9 x10 p h) (ev_apply x4 p h 0 _ _)

theorem pay8_apply (p : Fin 1280) (h : Fin 128) :
    k0_pay8 (k0_pay10 x1) (k0_pay11 x4) (k0_pay12 x7) (k0_pay13 x8) (k0_pay14 x2 x3 x9 x10) (k0_pay15 x0 x5 x6) (ix2 p h)
      = dvK (bX x0 x2 x3 x5 x6 x7 x8 x9 x10 p) (bvj x1 p) (bev x4 p) 1 h := by
  unfold k0_pay8 k0_pay4 dvK
  simp only [mulf_apply]
  exact congrArg₂ (· * ·) (pay6_apply x0 x1 x2 x3 x4 x5 x6 x7 x8 x9 x10 p h) (ev_apply x4 p h 1 _ _)

theorem pay9_apply (p : Fin 1280) (h : Fin 128) :
    k0_pay9 (k0_pay10 x1) (k0_pay11 x4) (k0_pay12 x7) (k0_pay13 x8) (k0_pay14 x2 x3 x9 x10) (k0_pay15 x0 x5 x6) (ix2 p h)
      = dvK (bX x0 x2 x3 x5 x6 x7 x8 x9 x10 p) (bvj x1 p) (bev x4 p) 2 h := by
  unfold k0_pay9 k0_pay5 dvK
  simp only [mulf_apply]
  exact congrArg₂ (· * ·) (pay6_apply x0 x1 x2 x3 x4 x5 x6 x7 x8 x9 x10 p h) (ev_apply x4 p h 2 _ _)

end Cert.KPay

end
-- ==== Proof.KBlocks.lean ====
/-
  The pallas call's two output arrays as whole functions of the arrays it reads.

  The grid has 313 points; point t handles the 1280 edges  1280 t … 1280 t + 1279: windows 0–4 (source features,
  source vectors, radial basis, cutoff, direction) and both outputs move with t along the rows, windows 5–10 (the
  weights) are the whole arrays at every point. Row p of point t's block is row 1280 t + p of the array, so the
  value stored at row p, a function of that row of each input block alone, is that function of row 1280 t + p of the
  arrays. The blocks of the 313 points tile the 400640 rows.
-/
import proofs.«108081_j71390946394547_1_alg».proof.Proof.Gen.KernelIdeal.Frame
import proofs.«108081_j71390946394547_1_alg».proof.Proof.Spec
import proofs.«108081_j71390946394547_1_alg».proof.Proof.KPay
import Idealize.ShloMosaic.PureOps.Ideal
import Idealize.ShloMosaic.Lib.Pipeline.Value

set_option maxRecDepth 16384

noncomputable section

namespace Cert.KBlocks

open Cert.KernelIdeal Cert.KernelIdeal.Gen Idealize.ShloMosaic Idealize.ShloMosaic.TcCoe Idealize.SL.Sem
open Idealize.ShloMosaic.ValueIdx Cert.Msg
open Idealize.ShloMosaic.Pipeline (Dat)

variable (m : (ℓ : Loc nD τ sig) → Buf (Elt Ideal) ℓ) (c : Dev nD)

/-! ## The arrays the call reads, by their literal types -/

abbrev aS : S400640x128.Idx → EReal := V m c main_v17
abbrev aV : S400640x384.Idx → EReal := V m c main_v25
abbrev aR : S400640x20.Idx → EReal := V m c main_v8
abbrev aC : S400640x1.Idx → EReal := V m c main_v26
abbrev aE : S400640x3.Idx → EReal := V m c main_v10
abbrev aW1 : S128x128.Idx → EReal := V m c main_arg5
abbrev aB1 : S1x128.Idx → EReal := V m c main_v27
abbrev aW2 : S128x384.Idx → EReal := V m c main_arg7
abbrev aB2 : S1x384.Idx → EReal := V m c main_v28
abbrev aWr : S20x384.Idx → EReal := V m c main_arg9
abbrev aBr : S1x384.Idx → EReal := V m c main_v29

/-- The weights as the call reads them. -/
def kw : Wts := KPay.bwts (aW1 m c) (aB1 m c) (aW2 m c) (aB2 m c) (aWr m c) (aBr m c)

/-- Padded edge e's filter values, gathered source vectors and direction. -/
def kX (e : Fin 400640) (q : Fin 384) : EReal :=
  rowX (kw m c) (fun t => aS m c (ix2 e t)) (fun r => aR m c (ix2 e r)) (aC m c (ix2 e (0 : Fin 1))) q
def kvj (e : Fin 400640) (k : Fin 3) (h : Fin 128) : EReal :=
  aV m c (ix2 e (⟨128 * k.val + h.val, by omega⟩ : Fin 384))
def kev (e : Fin 400640) (k : Fin 3) : EReal := aE m c (ix2 e k)

/-- The scalar messages of all padded edges, and their vector messages laid out in 384 columns
    (column 128 k + h is component k, feature h). -/
def dsEdge : S400640x128.Idx → EReal :=
  fun i => kX m c ⟨(i 0).val, (i 0).isLt⟩ (qss ⟨(i 1).val, (i 1).isLt⟩)
def dvEdge : S400640x384.Idx → EReal :=
  fun i => dvK (kX m c ⟨(i 0).val, (i 0).isLt⟩) (kvj m c ⟨(i 0).val, (i 0).isLt⟩) (kev m c ⟨(i 0).val, (i 0).isLt⟩)
    ⟨(i 1).val / 128, by have h : (i 1).val < 384 := (i 1).isLt; omega⟩ ⟨(i 1).val % 128, Nat.mod_lt _ (by decide)⟩

/-! ## Where a block's entry sits in its array -/

theorem lt313 (t : Fin cfg0.N) : t.val < 313 := by
  have h := t.isLt
  have hN : cfg0.N = 313 := N_0
  omega

/-- Row p of point t's block is row 1280 t + p. -/
def row (t : Fin cfg0.N) (p : Fin 1280) : Fin 400640 :=
  ⟨t.val * 1280 + p.val, by have := lt313 t; have := p.isLt; omega⟩

/-- The printed index maps over the grid: windows 0–4, 11 and 12 are at block (t, 0), windows 5–10 at block (0, 0). -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

theorem idx_whole : ∀ t : Fin cfg0.N,
    (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-! ## The input blocks read at an entry -/

theorem blk0 (t : Fin cfg0.N) (p : Fin 1280) (k : Fin 128) :
    iblk m c 0 t (ix2 p k) = aS m c (ix2 (row t p) k) := by
  show V m c main_v17 (((cfg0.win 0).blk t).view.emb (ix2 p k)) = _
  have h : ((cfg0.win 0).blk t).view.emb (ix2 p k) = ix2 (row t p) k := by
    funext a; apply Fin.ext
    obtain ⟨⟨e0, e1⟩, -⟩ := idx_rows t
    match a with
    | ⟨0, _⟩ => show win0_0.index t (0 : Fin 2) * 1280 + 1 * p.val = t.val * 1280 + p.val; omega
    | ⟨1, _⟩ => show win0_0.index t (1 : Fin 2) * 128 + 1 * k.val = k.val; omega
  rw [h]

theorem blk1 (t : Fin cfg0.N) (p : Fin 1280) (k : Fin 384) :
    iblk m c 1 t (ix2 p k) = aV m c (ix2 (row t p) k) := by
  show V m c main_v25 (((cfg0.win 1).blk t).view.emb (ix2 p k)) = _
  have h : ((cfg0.win 1).blk t).view.emb (ix2 p k) = ix2 (row t p) k := by
    funext a; apply Fin.ext
    obtain ⟨-, ⟨e0, e1⟩, -⟩ := idx_rows t
    match a with
    | ⟨0, _⟩ => show win0_1.index t (0 : Fin 2) * 1280 + 1 * p.val = t.val * 1280 + p.val; omega
    | ⟨1, _⟩ => show win0_1.index t (1 : Fin 2) * 384 + 1 * k.val = k.val; omega
  rw [h]

theorem blk2 (t : Fin cfg0.N) (p : Fin 1280) (k : Fin 20) :
    iblk m c 2 t (ix2 p k) = aR m c (ix2 (row t p) k) := by
  show V m c main_v8 (((cfg0.win 2).blk t).view.emb (ix2 p k)) = _
  have h : ((cfg0.win 2).blk t).view.emb (ix2 p k) = ix2 (row t p) k := by
    funext a; apply Fin.ext
    obtain ⟨-, -, ⟨e0, e1⟩, -⟩ := idx_rows t
    match a with
    | ⟨0, _⟩ => show win0_2.index t (0 : Fin 2) * 1280 + 1 * p.val = t.val * 1280 + p.val; omega
    | ⟨1, _⟩ => show win0_2.index t (1 : Fin 2) * 20 + 1 * k.val = k.val; omega
  rw [h]

theorem blk3 (t : Fin cfg0.N) (p : Fin 1280) (k : Fin 1) :
    iblk m c 3 t (ix2 p k) = aC m c (ix2 (row t p) k) := by
  show V m c main_v26 (((cfg0.win 3).blk t).view.emb (ix2 p k)) = _
  have h : ((cfg0.win 3).blk t).view.emb (ix2 p k) = ix2 (row t p) k := by
    funext a; apply Fin.ext
    obtain ⟨-, -, -, ⟨e0, e1⟩, -⟩ := idx_rows t
    match a with
    | ⟨0, _⟩ => show win0_3.index t (0 : Fin 2) * 1280 + 1 * p.val = t.val * 1280 + p.val; omega
    | ⟨1, _⟩ => show win0_3.index t (1 : Fin 2) * 1 + 1 * k.val = k.val; omega
  rw [h]

theorem blk4 (t : Fin cfg0.N) (p : Fin 1280) (k : Fin 3) :
    iblk m c 4 t (ix2 p k) = aE m c (ix2 (row t p) k) := by
  show V m c main_v10 (((cfg0.win 4).blk t).view.emb (ix2 p k)) = _
  have h : ((cfg0.win 4).blk t).view.emb (ix2 p k) = ix2 (row t p) k := by
    funext a; apply Fin.ext
    obtain ⟨-, -, -, -, ⟨e0, e1⟩, -⟩ := idx_rows t
    match a with
    | ⟨0, _⟩ => show win0_4.index t (0 : Fin 2) * 1280 + 1 * p.val = t.val * 1280 + p.val; omega
    | ⟨1, _⟩ => show win0_4.index t (1 : Fin 2) * 3 + 1 * k.val = k.val; omega
  rw [h]

/-- The weight windows' blocks are the whole arrays. -/
theorem blk5 (t : Fin cfg0.N) : (iblk m c 5 t : S128x128.Idx → EReal) = aW1 m c := by
  funext j
  show V m c main_arg5 (((cfg0.win 5).blk t).view.emb j) = V m c main_arg5 j
  have h : ((cfg0.win 5).blk t).view.emb j = j := by
    funext a; apply Fin.ext
    obtain ⟨⟨e0, e1⟩, -⟩ := idx_whole t
    match a with
    | ⟨0, _⟩ => show win0_5.index t (0 : Fin 2) * 128 + 1 * (j 0).val = (j 0).val; omega
    | ⟨1, _⟩ => show win0_5.index t (1 : Fin 2) * 128 + 1 * (j 1).val = (j 1).val; omega
  rw [h]

theorem blk6 (t : Fin cfg0.N) : (iblk m c 6 t : S1x128.Idx → EReal) = aB1 m c := by
  funext j
  show V m c main_v27 (((cfg0.win 6).blk t).view.emb j) = V m c main_v27 j
  have h : ((cfg0.win 6).blk t).view.emb j = j := by
    funext a; apply Fin.ext
    obtain ⟨-, ⟨e0, e1⟩, -⟩ := idx_whole t
    match a with
    | ⟨0, _⟩ => show win0_6.index t (0 : Fin 2) * 1 + 1 * (j 0).val = (j 0).val; omega
    | ⟨1, _⟩ => show win0_6.index t (1 : Fin 2) * 128 + 1 * (j 1).val = (j 1).val; omega
  rw [h]

theorem blk7 (t : Fin cfg0.N) : (iblk m c 7 t : S128x384.Idx → EReal) = aW2 m c := by
  funext j
  show V m c main_arg7 (((cfg0.win 7).blk t).view.emb j) = V m c main_arg7 j
  have h : ((cfg0.win 7).blk t).view.emb j = j := by
    funext a; apply Fin.ext
    obtain ⟨-, -, ⟨e0, e1⟩, -⟩ := idx_whole t
    match a with
    | ⟨0, _⟩ => show win0_7.index t (0 : Fin 2) * 128 + 1 * (j 0).val = (j 0).val; omega
    | ⟨1, _⟩ => show win0_7.index t (1 : Fin 2) * 384 + 1 * (j 1).val = (j 1).val; omega
  rw [h]

theorem blk8 (t : Fin cfg0.N) : (iblk m c 8 t : S1x384.Idx → EReal) = aB2 m c := by
  funext j
  show V m c main_v28 (((cfg0.win 8).blk t).view.emb j) = V m c main_v28 j
  have h : ((cfg0.win 8).blk t).view.emb j = j := by
    funext a; apply Fin.ext
    obtain ⟨-, -, -, ⟨e0, e1⟩, -⟩ := idx_whole t
    match a with
    | ⟨0, _⟩ => show win0_8.index t (0 : Fin 2) * 1 + 1 * (j 0).val = (j 0).val; omega
    | ⟨1, _⟩ => show win0_8.index t (1 : Fin 2) * 384 + 1 * (j 1).val = (j 1).val; omega
  rw [h]

theorem blk9 (t : Fin cfg0.N) : (iblk m c 9 t : S20x384.Idx → EReal) = aWr m c := by
  funext j
  show V m c main_arg9 (((cfg0.win 9).blk t).view.emb j) = V m c main_arg9 j
  have h : ((cfg0.win 9).blk t).view.emb j = j := by
    funext a; apply Fin.ext
    obtain ⟨-, -, -, -, ⟨e0, e1⟩, -⟩ := idx_whole t
    match a with
    | ⟨0, _⟩ => show win0_9.index t (0 : Fin 2) * 20 + 1 * (j 0).val = (j 0).val; omega
    | ⟨1, _⟩ => show win0_9.index t (1 : Fin 2) * 384 + 1 * (j 1).val = (j 1).val; omega
  rw [h]

theorem blk10 (t : Fin cfg0.N) : (iblk m c 10 t : S1x384.Idx → EReal) = aBr m c := by
  funext j
  show V m c main_v29 (((cfg0.win 10).blk t).view.emb j) = V m c main_v29 j
  have h : ((cfg0.win 10).blk t).view.emb j = j := by
    funext a; apply Fin.ext
    obtain ⟨-, -, -, -, -, ⟨e0, e1⟩⟩ := idx_whole t
    match a with
    | ⟨0, _⟩ => show win0_10.index t (0 : Fin 2) * 1 + 1 * (j 0).val = (j 0).val; omega
    | ⟨1, _⟩ => show win0_10.index t (1 : Fin 2) * 384 + 1 * (j 1).val = (j 1).val; omega
  rw [h]

/-! ## Where an output block's entry sits -/

theorem emb11 (t : Fin cfg0.N) (p : Fin 1280) (h : Fin 128) :
    ((cfg0.win 11).blk t).view.emb (ix2 p h) = ix2 (row t p) h := by
  funext a; apply Fin.ext
  obtain ⟨-, -, -, -, -, ⟨e0, e1⟩, -⟩ := idx_rows t
  match a with
  | ⟨0, _⟩ => show win0_11.index t (0 : Fin 2) * 1280 + 1 * p.val = t.val * 1280 + p.val; omega
  | ⟨1, _⟩ => show win0_11.index t (1 : Fin 2) * 128 + 1 * h.val = h.val; omega

theorem emb12 (t : Fin cfg0.N) (p : Fin 1280) (k : Fin 384) :
    ((cfg0.win 12).blk t).view.emb (ix2 p k) = ix2 (row t p) k := by
  funext a; apply Fin.ext
  obtain ⟨-, -, -, -, -, -, ⟨e0, e1⟩⟩ := idx_rows t
  match a with
  | ⟨0, _⟩ => show win0_12.index t (0 : Fin 2) * 1280 + 1 * p.val = t.val * 1280 + p.val; omega
  | ⟨1, _⟩ => show win0_12.index t (1 : Fin 2) * 384 + 1 * k.val = k.val; omega

/-! ## A point's rows are the arrays' rows -/

theorem hz : (![0, 0] : Fin 2 → Nat) = fun _ => 0 := funext fun a => by fin_cases a <;> rfl

/-- The weights a point loads are the call's weights. -/
theorem wts_eq (t : Fin cfg0.N) :
    KPay.bwts (iblk m c 5 t) (iblk m c 6 t) (iblk m c 7 t) (iblk m c 8 t) (iblk m c 9 t) (iblk m c 10 t) = kw m c := by
  unfold kw
  rw [blk5 m c t, blk6 m c t, blk7 m c t, blk8 m c t, blk9 m c t, blk10 m c t]

theorem bX_eq (t : Fin cfg0.N) (p : Fin 1280) (q : Fin 384) :
    KPay.bX (iblk m c 0 t) (iblk m c 2 t) (iblk m c 3 t) (iblk m c 5 t) (iblk m c 6 t) (iblk m c 7 t) (iblk m c 8 t)
      (iblk m c 9 t) (iblk m c 10 t) p q = kX m c (row t p) q := by
  unfold KPay.bX kX
  rw [wts_eq m c t]
  simp only [blk0 m c t p, blk2 m c t p, blk3 m c t p]

theorem bX_fun (t : Fin cfg0.N) (p : Fin 1280) :
    KPay.bX (iblk m c 0 t) (iblk m c 2 t) (iblk m c 3 t) (iblk m c 5 t) (iblk m c 6 t) (iblk m c 7 t) (iblk m c 8 t)
      (iblk m c 9 t) (iblk m c 10 t) p = kX m c (row t p) :=
  funext fun q => bX_eq m c t p q

theorem bvj_fun (t : Fin cfg0.N) (p : Fin 1280) : KPay.bvj (iblk m c 1 t) p = kvj m c (row t p) := by
  funext k h
  unfold KPay.bvj kvj
  exact blk1 m c t p _

theorem bev_fun (t : Fin cfg0.N) (p : Fin 1280) : KPay.bev (iblk m c 4 t) p = kev m c (row t p) := by
  funext k
  exact blk4 m c t p k

/-! ## What a point writes back -/

/-- Point t writes back block t of the scalar messages. -/
theorem flushed11 (t : Fin cfg0.N) :
    (dats m 0 c).flushed 11 t = ((cfg0.win 11).blk t).view.read (Elt Ideal) (dsEdge m c) := by
  show (cfg0.win 11).cut (grid0.coords t) ((dats m 0 c).after 11 t) = _
  rw [after0_11]
  unfold out0_11
  rw [View.canon_unit_zero hz]
  simp only [View.ld_unit_zero (S := S1280x128) hz, View.ld_unit_zero (S := S1280x20) hz,
    View.ld_unit_zero (S := S1280x1) hz, View.ld_unit_zero (S := S128x128) hz, View.ld_unit_zero (S := S1x128) hz,
    View.ld_unit_zero (S := S128x384) hz, View.ld_unit_zero (S := S1x384) hz, View.ld_unit_zero (S := S20x384) hz]
  funext j
  obtain ⟨p, h, rfl⟩ : ∃ (p : Fin 1280) (h : Fin 128), j = ix2 p h := ⟨j 0, j 1, eq_ix2 j⟩
  show k0_pay2 (k0_pay12 (iblk m c 7 t)) (k0_pay13 (iblk m c 8 t))
      (k0_pay14 (iblk m c 2 t) (iblk m c 3 t) (iblk m c 9 t) (iblk m c 10 t))
      (k0_pay15 (iblk m c 0 t) (iblk m c 5 t) (iblk m c 6 t)) (ix2 p h)
    = dsEdge m c (((cfg0.win 11).blk t).view.emb (ix2 p h))
  refine (KPay.pay2_apply (iblk m c 0 t) (iblk m c 2 t) (iblk m c 3 t) (iblk m c 5 t) (iblk m c 6 t) (iblk m c 7 t)
    (iblk m c 8 t) (iblk m c 9 t) (iblk m c 10 t) p h).trans ?_
  rw [bX_eq m c t p (qss h), emb11 t p h]
  rfl

/-- The vector messages at row e, column k. -/
theorem dvEdge_apply (e : Fin 400640) (k : Fin 384) :
    dvEdge m c (ix2 e k) = dvK (kX m c e) (kvj m c e) (kev m c e)
      ⟨k.val / 128, by have := k.isLt; omega⟩ ⟨k.val % 128, Nat.mod_lt _ (by decide)⟩ := rfl

/-- Point t writes back block t of the vector messages: its three stores are the three column groups. -/
theorem flushed12 (t : Fin cfg0.N) :
    (dats m 0 c).flushed 12 t = ((cfg0.win 12).blk t).view.read (Elt Ideal) (dvEdge m c) := by
  show (cfg0.win 12).cut (grid0.coords t) ((dats m 0 c).after 12 t) = _
  rw [after0_12]
  unfold out0_12
  simp only [View.ld_unit_zero (S := S1280x128) hz, View.ld_unit_zero (S := S1280x384) hz, View.ld_unit_zero (S := S1280x20) hz,
    View.ld_unit_zero (S := S1280x1) hz, View.ld_unit_zero (S := S1280x3) hz, View.ld_unit_zero (S := S128x128) hz,
    View.ld_unit_zero (S := S1x128) hz, View.ld_unit_zero (S := S128x384) hz, View.ld_unit_zero (S := S1x384) hz,
    View.ld_unit_zero (S := S20x384) hz]
  funext y
  refine View.canon_apply_of_pieces (Val := Elt Ideal) (S := S1280x384) (e := .f32)
    (fun y : S1280x384.Idx => (dvEdge m c (((cfg0.win 12).blk t).view.emb y) : Elt Ideal .f32)) _ ?_ y
    (cover0_12 _ _ _ y)
  intro pc hpc x
  simp only [List.mem_cons, List.mem_nil_iff, or_false] at hpc
  rcases hpc with rfl | rfl | rfl
  · obtain ⟨p, h, rfl⟩ : ∃ (p : Fin 1280) (h : Fin 128), x = ix2 p h := ⟨x 0, x 1, eq_ix2 x⟩
    have hemb : r0_12.emb (ix2 p h) = ix2 p (⟨256 + h.val, by omega⟩ : Fin 384) := by
      funext a; apply Fin.ext
      match a with
      | ⟨0, _⟩ => show 0 + 1 * p.val = p.val; omega
      | ⟨1, _⟩ => show 256 + 1 * h.val = 256 + h.val; omega
    show k0_pay9 (k0_pay10 (iblk m c 1 t)) (k0_pay11 (iblk m c 4 t)) (k0_pay12 (iblk m c 7 t)) (k0_pay13 (iblk m c 8 t))
        (k0_pay14 (iblk m c 2 t) (iblk m c 3 t) (iblk m c 9 t) (iblk m c 10 t))
        (k0_pay15 (iblk m c 0 t) (iblk m c 5 t) (iblk m c 6 t)) (ix2 p h)
      = dvEdge m c (((cfg0.win 12).blk t).view.emb (r0_12.emb (ix2 p h)))
    refine (KPay.pay9_apply (iblk m c 0 t) (iblk m c 1 t) (iblk m c 2 t) (iblk m c 3 t) (iblk m c 4 t) (iblk m c 5 t)
      (iblk m c 6 t) (iblk m c 7 t) (iblk m c 8 t) (iblk m c 9 t) (iblk m c 10 t) p h).trans ?_
    rw [hemb, emb12 t p _, dvEdge_apply, bX_fun m c t p, bvj_fun m c t p, bev_fun m c t p]
    congr 1
    · exact Fin.ext (by show 2 = (256 + h.val) / 128; have := h.isLt; omega)
    · exact Fin.ext (by show h.val = (256 + h.val) % 128; have := h.isLt; omega)
  · obtain ⟨p, h, rfl⟩ : ∃ (p : Fin 1280) (h : Fin 128), x = ix2 p h := ⟨x 0, x 1, eq_ix2 x⟩
    have hemb : r0_11.emb (ix2 p h) = ix2 p (⟨128 + h.val, by omega⟩ : Fin 384) := by
      funext a; apply Fin.ext
      match a with
      | ⟨0, _⟩ => show 0 + 1 * p.val = p.val; omega
      | ⟨1, _⟩ => show 128 + 1 * h.val = 128 + h.val; omega
    show k0_pay8 (k0_pay10 (iblk m c 1 t)) (k0_pay11 (iblk m c 4 t)) (k0_pay12 (iblk m c 7 t)) (k0_pay13 (iblk m c 8 t))
        (k0_pay14 (iblk m c 2 t) (iblk m c 3 t) (iblk m c 9 t) (iblk m c 10 t))
        (k0_pay15 (iblk m c 0 t) (iblk m c 5 t) (iblk m c 6 t)) (ix2 p h)
      = dvEdge m c (((cfg0.win 12).blk t).view.emb (r0_11.emb (ix2 p h)))
    refine (KPay.pay8_apply (iblk m c 0 t) (iblk m c 1 t) (iblk m c 2 t) (iblk m c 3 t) (iblk m c 4 t) (iblk m c 5 t)
      (iblk m c 6 t) (iblk m c 7 t) (iblk m c 8 t) (iblk m c 9 t) (iblk m c 10 t) p h).trans ?_
    rw [hemb, emb12 t p _, dvEdge_apply, bX_fun m c t p, bvj_fun m c t p, bev_fun m c t p]
    congr 1
    · exact Fin.ext (by show 1 = (128 + h.val) / 128; have := h.isLt; omega)
    · exact Fin.ext (by show h.val = (128 + h.val) % 128; have := h.isLt; omega)
  · obtain ⟨p, h, rfl⟩ : ∃ (p : Fin 1280) (h : Fin 128), x = ix2 p h := ⟨x 0, x 1, eq_ix2 x⟩
    have hemb : r0_10.emb (ix2 p h) = ix2 p (⟨h.val, by omega⟩ : Fin 384) := by
      funext a; apply Fin.ext
      match a with
      | ⟨0, _⟩ => show 0 + 1 * p.val = p.val; omega
      | ⟨1, _⟩ => show 0 + 1 * h.val = h.val; omega
    show k0_pay7 (k0_pay10 (iblk m c 1 t)) (k0_pay11 (iblk m c 4 t)) (k0_pay12 (iblk m c 7 t)) (k0_pay13 (iblk m c 8 t))
        (k0_pay14 (iblk m c 2 t) (iblk m c 3 t) (iblk m c 9 t) (iblk m c 10 t))
        (k0_pay15 (iblk m c 0 t) (iblk m c 5 t) (iblk m c 6 t)) (ix2 p h)
      = dvEdge m c (((cfg0.win 12).blk t).view.emb (r0_10.emb (ix2 p h)))
    refine (KPay.pay7_apply (iblk m c 0 t) (iblk m c 1 t) (iblk m c 2 t) (iblk m c 3 t) (iblk m c 4 t) (iblk m c 5 t)
      (iblk m c 6 t) (iblk m c 7 t) (iblk m c 8 t) (iblk m c 9 t) (iblk m c 10 t) p h).trans ?_
    rw [hemb, emb12 t p _, dvEdge_apply, bX_fun m c t p, bvj_fun m c t p, bev_fun m c t p]
    congr 1
    · exact Fin.ext (by show 0 = h.val / 128; have := h.isLt; omega)
    · exact Fin.ext (by show h.val = h.val % 128; have := h.isLt; omega)

/-! ## The blocks tile the arrays -/

theorem mem_blk11 (t : Fin cfg0.N) (i : S400640x128.Idx) :
    i ∈ ((cfg0.win 11).blk t).view.set ↔ ∀ a : Fin 2, win0_11.index t a * S1280x128.size a ≤ (i a).val
      ∧ (i a).val < win0_11.index t a * S1280x128.size a + S1280x128.size a := by
  show i ∈ ((View.whole main_v30_0).slice (win0_11.rect t)).set ↔ _
  rw [View.set_slice_whole, Rect.mem_set_unit]
  exact Iff.rfl

theorem mem_blk12 (t : Fin cfg0.N) (i : S400640x384.Idx) :
    i ∈ ((cfg0.win 12).blk t).view.set ↔ ∀ a : Fin 2, win0_12.index t a * S1280x384.size a ≤ (i a).val
      ∧ (i a).val < win0_12.index t a * S1280x384.size a + S1280x384.size a := by
  show i ∈ ((View.whole main_v30_1).slice (win0_12.rect t)).set ↔ _
  rw [View.set_slice_whole, Rect.mem_set_unit]
  exact Iff.rfl

/-- Row r is in the block of point r / 1280. -/
theorem cover11 (i : S400640x128.Idx) :
    ∃ t : Fin cfg0.N, (cfg0.win 11).flush t = true ∧ i ∈ ((cfg0.win 11).blk t).view.set := by
  have hi0 : (i 0).val < 400640 := (i 0).isLt
  have hi1 : (i 1).val < 128 := (i 1).isLt
  have hN : cfg0.N = 313 := N_0
  refine ⟨⟨(i 0).val / 1280, by rw [hN]; omega⟩, flush0_11 _, ?_⟩
  rw [mem_blk11]
  obtain ⟨-, -, -, -, -, ⟨e0, e1⟩, -⟩ := idx_rows ⟨(i 0).val / 1280, by rw [hN]; omega⟩
  intro a
  match a with
  | ⟨0, _⟩ =>
    show win0_11.index _ (0 : Fin 2) * 1280 ≤ (i 0).val ∧ (i 0).val < win0_11.index _ (0 : Fin 2) * 1280 + 1280
    rw [e0]; show (i 0).val / 1280 * 1280 ≤ (i 0).val ∧ (i 0).val < (i 0).val / 1280 * 1280 + 1280; omega
  | ⟨1, _⟩ =>
    show win0_11.index _ (1 : Fin 2) * 128 ≤ (i 1).val ∧ (i 1).val < win0_11.index _ (1 : Fin 2) * 128 + 128
    rw [e1]; omega

theorem cover12 (i : S400640x384.Idx) :
    ∃ t : Fin cfg0.N, (cfg0.win 12).flush t = true ∧ i ∈ ((cfg0.win 12).blk t).view.set := by
  have hi0 : (i 0).val < 400640 := (i 0).isLt
  have hi1 : (i 1).val < 384 := (i 1).isLt
  have hN : cfg0.N = 313 := N_0
  refine ⟨⟨(i 0).val / 1280, by rw [hN]; omega⟩, flush0_12 _, ?_⟩
  rw [mem_blk12]
  obtain ⟨-, -, -, -, -, -, ⟨e0, e1⟩⟩ := idx_rows ⟨(i 0).val / 1280, by rw [hN]; omega⟩
  intro a
  match a with
  | ⟨0, _⟩ =>
    show win0_12.index _ (0 : Fin 2) * 1280 ≤ (i 0).val ∧ (i 0).val < win0_12.index _ (0 : Fin 2) * 1280 + 1280
    rw [e0]; show (i 0).val / 1280 * 1280 ≤ (i 0).val ∧ (i 0).val < (i 0).val / 1280 * 1280 + 1280; omega
  | ⟨1, _⟩ =>
    show win0_12.index _ (1 : Fin 2) * 384 ≤ (i 1).val ∧ (i 1).val < win0_12.index _ (1 : Fin 2) * 384 + 384
    rw [e1]; omega

/-! ## The two output arrays after the call -/

theorem final11 : (dats m 0 c).arrAt 11 cfg0.N = dsEdge m c :=
  (dats m 0 c).arrAt_eq_of_cover 11 (dsEdge m c) (fun t _ => flushed11 m c t) cover11

theorem final12 : (dats m 0 c).arrAt 12 cfg0.N = dvEdge m c :=
  (dats m 0 c).arrAt_eq_of_cover 12 (dvEdge m c) (fun t _ => flushed12 m c t) cover12

end Cert.KBlocks

end
-- ==== Proof.LibRowGatherScatter.lean ====
/-
  A row gather followed by a row scatter-add, read at an entry (a general lemma: nothing here depends on a program).

  For an operand of shape [N, W], index arrays of shape [E, 1] and updates of shape [E, W], the row scatter-add
  (update window axis 1, inserted window axis 0, scatter axis 0, index vector axis 1) at entry (n, q) is x[n, q]
  plus the sum, over the edges e whose index dst[e], read signed, is n, of the update (e, q): an edge whose index
  is not a row contributes nothing. The row gather (offset axis 1, collapsed axis 0, start index map [0], index
  vector axis 1, slice sizes [1, W]) at (e, q) is the operand at row min(src[e], N - 1) (the index read signed and
  clamped), column q. Their composition therefore acts on every column by itself (`pass_apply`).
-/
import Idealize.ShloMosaic.Lib.ValueIdx
import Idealize.ShloMosaic.PureOps.Ideal.Laws

noncomputable section

namespace Cert.Lib.RowPass

open Idealize.ShloMosaic Idealize.ShloMosaic.ValueIdx

section Generic

/-- The row scatter's dimension numbers over an operand [N, W], indices [E, 1] and updates [E, W]. -/
abbrev scD (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)

/-- On the row axis the window of update (e, q) starts at dst[e], read signed. -/
theorem sc_start0 (idx : IVec ⟨2, ![E, 1]⟩ w) (e : Fin E) (q : Fin W) :
    (scD N E W wf).start (ix2 e q) idx 0 = (idx (ix2 e 0)).toInt := by
  unfold ScatterDims.start
  rw [dif_pos (show (0 : Fin 2) ∈ (scD N E W wf).scatterDimsToOperandDims from List.mem_singleton.mpr rfl)]
  congr 2
  funext b
  match b with
  | ⟨0, _⟩ => rfl
  | ⟨1, _⟩ => rfl

/-- On the column axis every window starts at 0. -/
theorem sc_start1 (idx : IVec ⟨2, ![E, 1]⟩ w) (e : Fin E) (q : Fin W) :
    (scD N E W wf).start (ix2 e q) idx 1 = 0 := by
  unfold ScatterDims.start
  rw [dif_neg (show (1 : Fin 2) ∉ ([0] : List (Fin 2)) by decide)]

/-- The row axis is inserted: the window coordinate there is 0. -/
theorem sc_window0 (e : Fin E) (q : Fin W) : (scD N E W wf).window (ix2 e q) 0 = 0 := by
  unfold ScatterDims.window
  have h : (0 : Fin 2) ∉ (scD N E W wf).sKept :=
    (by decide : (0 : Fin 2) ∉ (List.finRange 2).filter (fun a => a ∉ ([0] : List (Fin 2))))
  rw [dif_neg h]

/-- On the column axis the window coordinate of update (e, q) is q. -/
theorem sc_window1 (e : Fin E) (q : Fin W) : (scD N E W wf).window (ix2 e q) 1 = q.val := by
  unfold ScatterDims.window
  have h : (1 : Fin 2) ∈ (scD N E W wf).sKept :=
    (by decide : (1 : Fin 2) ∈ (List.finRange 2).filter (fun a => a ∉ ([0] : List (Fin 2))))
  rw [dif_pos h]
  rfl

/-- An axis of a rank-2 shape is 0 or 1. -/
theorem fin2_cases (a : Fin 2) : a = 0 ∨ a = 1 := by
  revert a; decide

/-- Update (e, q) lands at (n, q') exactly when dst[e] = n and q = q' (an update whose dst[e] is not a row lands
    nowhere). -/
theorem sc_result_iff (idx : IVec ⟨2, ![E, 1]⟩ w) (e : Fin E) (q q' : Fin W) (n : Fin N) :
    (scD N E W wf).resultIdx? (ix2 e q) idx = some (ix2 n q')
      ↔ (idx (ix2 e 0)).toInt = (n.val : Int) ∧ q = q' := by
  have hq := q.isLt
  have hn := n.isLt
  unfold ScatterDims.resultIdx?
  split
  · rename_i h
    have h0 := h 0
    rw [sc_start0, sc_window0] at h0
    constructor
    · intro hs
      have hs' := Option.some.inj hs
      have e0 := congrArg (fun f => (f 0).val) hs'
      have e1 := congrArg (fun f => (f 1).val) hs'
      simp only [sc_start0, sc_start1, sc_window0, sc_window1] at e0 e1
      refine ⟨?_, Fin.ext ?_⟩
      · change _ = n.val at e0
        omega
      · change _ = q'.val at e1
        omega
    · rintro ⟨ht, rfl⟩
      congr 1
      funext a
      refine Fin.ext ?_
      rcases fin2_cases a with rfl | rfl
      · show ((scD N E W wf).start (ix2 e q) idx 0 + ((scD N E W wf).window (ix2 e q) 0 : Int)).toNat = n.val
        rw [sc_start0, sc_window0, ht]; omega
      · show ((scD N E W wf).start (ix2 e q) idx 1 + ((scD N E W wf).window (ix2 e q) 1 : Int)).toNat = q.val
        rw [sc_start1, sc_window1]; omega
  · rename_i h
    constructor
    · intro hs; exact absurd hs (by simp)
    · rintro ⟨ht, rfl⟩
      exfalso; apply h
      intro a
      rcases fin2_cases a with rfl | rfl
      · rw [sc_start0, sc_window0, ht]
        show (0 : Int) ≤ (n.val : Int) + ((0 : Nat) : Int) ∧ (n.val : Int) + ((0 : Nat) : Int) < (N : Int)
        omega
      · rw [sc_start1, sc_window1]
        show (0 : Int) ≤ 0 + (q.val : Int) ∧ 0 + (q.val : Int) < (W : Int)
        omega

/-- The scatter-add at entry (n, q): x[n, q] plus the sum over the edges e with dst[e] = n of the update (e, q). -/
theorem sc_apply (x : (⟨2, ![N, W]⟩ : Shape).Idx → EReal) (idx : IVec ⟨2, ![E, 1]⟩ w)
    (upd : (⟨2, ![E, W]⟩ : Shape).Idx → EReal) (n : Fin N) (q : Fin W) :
    Ideal.hostScatterAdd (scD N E W wf) x idx upd (ix2 n q)
      = x (ix2 n q) + ∑ e : Fin E, if (idx (ix2 e 0)).toInt = (n.val : Int) then upd (ix2 e q) else 0 := by
  show x (ix2 n q) + ∑ j ∈ Finset.univ.filter (fun j => (scD N E W wf).resultIdx? j idx = some (ix2 n q)), upd j = _
  congr 1
  rw [Finset.sum_filter, sum_idx2]
  refine Finset.sum_congr rfl fun e _ => ?_
  rw [Finset.sum_congr rfl fun q' _ => if_congr (sc_result_iff wf idx e q' q n) rfl rfl]
  by_cases ht : (idx (ix2 e 0)).toInt = (n.val : Int)
  · simp [ht]
  · simp [ht]

/-- The row gather's dimension numbers over an operand [N, W], start indices [E, 1] and a result [E, W]. -/
abbrev gaD (N E W : Nat) (wfg : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wfg

variable (wfg : GatherDims.WF ⟨2, ![N, W]⟩ ⟨2, ![E, 1]⟩ ⟨2, ![E, W]⟩ [1] [0] [] [0] [] 1 ![1, W])

/-- On the row axis the slice of result (e, q) starts at src[e], read signed and clamped into [0, N - 1]. -/
theorem ga_start0 (idx : IVec ⟨2, ![E, 1]⟩ w) (e : Fin E) (q : Fin W) :
    (gaD N E W wfg).start (ix2 e q) idx 0 = min (idx (ix2 e 0)).toInt.toNat (N - 1) := by
  unfold GatherDims.start
  rw [dif_pos (show (0 : Fin 2) ∈ (gaD N E W wfg).startIndexMap from List.mem_singleton.mpr rfl)]
  have hsi : (gaD N E W wfg).siIdx (ix2 e q) ⟨List.idxOf (0 : Fin 2) (gaD N E W wfg).startIndexMap,
      List.idxOf_lt_length_iff.2 (List.mem_singleton.mpr rfl)⟩ = ix2 e 0 := by
    funext b
    match b with
    | ⟨0, _⟩ => rfl
    | ⟨1, _⟩ => rfl
  rw [hsi]
  rfl

/-- On the column axis every slice starts at 0. -/
theorem ga_start1 (idx : IVec ⟨2, ![E, 1]⟩ w) (e : Fin E) (q : Fin W) :
    (gaD N E W wfg).start (ix2 e q) idx 1 = 0 := by
  unfold GatherDims.start
  rw [dif_neg (show (1 : Fin 2) ∉ ([0] : List (Fin 2)) by decide)]

/-- The row axis is collapsed: the offset coordinate there is 0. -/
theorem ga_off0 (e : Fin E) (q : Fin W) : (gaD N E W wfg).offCoord (ix2 e q) 0 = 0 := by
  unfold GatherDims.offCoord
  have h : (0 : Fin 2) ∉ (gaD N E W wfg).sKept :=
    (by decide : (0 : Fin 2) ∉ (List.finRange 2).filter (fun a => a ∉ ([0] ++ [] : List (Fin 2))))
  rw [dif_neg h]

/-- On the column axis the offset coordinate of result (e, q) is q. -/
theorem ga_off1 (e : Fin E) (q : Fin W) : (gaD N E W wfg).offCoord (ix2 e q) 1 = q.val := by
  unfold GatherDims.offCoord
  have h : (1 : Fin 2) ∈ (gaD N E W wfg).sKept :=
    (by decide : (1 : Fin 2) ∈ (List.finRange 2).filter (fun a => a ∉ ([0] ++ [] : List (Fin 2))))
  rw [dif_pos h]
  rfl

/-- The gather at (e, q): the operand at row min(src[e], N - 1), column q. -/
theorem ga_apply {α : Type} (hN : 0 < N) (H : (⟨2, ![N, W]⟩ : Shape).Idx → α) (idx : IVec ⟨2, ![E, 1]⟩ w)
    (e : Fin E) (q : Fin W) :
    Host.gather (gaD N E W wfg) H idx (ix2 e q)
      = H (ix2 ⟨min (idx (ix2 e 0)).toInt.toNat (N - 1), by omega⟩ q) := by
  unfold Host.gather
  congr 1
  funext a
  refine Fin.ext ?_
  rcases fin2_cases a with rfl | rfl
  · show (gaD N E W wfg).start (ix2 e q) idx 0 + (gaD N E W wfg).batchCoord (ix2 e q) 0
      + (gaD N E W wfg).offCoord (ix2 e q) 0 = min (idx (ix2 e 0)).toInt.toNat (N - 1)
    rw [ga_start0, ga_off0, GatherDims.batchCoord_eq_zero _ _ _ List.not_mem_nil, Nat.add_zero]
  · show (gaD N E W wfg).start (ix2 e q) idx 1 + (gaD N E W wfg).batchCoord (ix2 e q) 1
      + (gaD N E W wfg).offCoord (ix2 e q) 1 = q.val
    rw [ga_start1, ga_off1, GatherDims.batchCoord_eq_zero _ _ _ List.not_mem_nil]
    omega

/-- The gather-then-scatter-add at entry (n, q): x[n, q] plus the sum over the edges e whose target is n of H at the
    clamped source row of e, column q. -/
theorem pass_apply (hN : 0 < N) (H x : (⟨2, ![N, W]⟩ : Shape).Idx → EReal) (idxd idxs : IVec ⟨2, ![E, 1]⟩ w)
    (n : Fin N) (q : Fin W) :
    Ideal.hostScatterAdd (scD N E W wf) x idxd (Host.gather (gaD N E W wfg) H idxs) (ix2 n q)
      = x (ix2 n q) + ∑ e : Fin E, if (idxd (ix2 e 0)).toInt = (n.val : Int)
          then H (ix2 ⟨min (idxs (ix2 e 0)).toInt.toNat (N - 1), by omega⟩ q) else 0 := by
  rw [sc_apply]
  congr 1
  refine Finset.sum_congr rfl fun e _ => ?_
  rw [ga_apply wfg hN]

end Generic

end Cert.Lib.RowPass

end
-- ==== Proof.LibRowGatherScatter3.lean ====
/-
  A row gather and a row scatter-add over a rank-3 operand, read at an entry (a general lemma: nothing here depends
  on a program).

  For an operand of shape [N, A, B], index arrays of shape [E, 1] and updates of shape [E, A, B], the row
  scatter-add (update window axes 1 and 2, inserted window axis 0, scatter axis 0, index vector axis 1) at entry
  (n, a, b) is x[n, a, b] plus the sum, over the edges e whose index dst[e], read signed, is n, of the update
  (e, a, b): an edge whose index is not a row contributes nothing. The row gather (offset axes 1 and 2, collapsed
  axis 0, start index map [0], index vector axis 1, slice sizes [1, A, B]) at (e, a, b) is the operand at row
  min(src[e], N - 1) (the index read signed and clamped), entry (a, b) of that row.
-/
import Idealize.ShloMosaic.Lib.ValueIdx
import Idealize.ShloMosaic.PureOps.Ideal.Laws

noncomputable section

namespace Cert.Lib.RowPass3

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv p := rfl

/-- A sum over a rank-3 index set is the triple sum over its coordinates. -/
theorem sum_idx3 {M : Type*} [AddCommMonoid M] {n0 n1 n2 : Nat} (f : (⟨3, ![n0, n1, n2]⟩ : Shape).Idx → M) :
    ∑ j, f j = ∑ a, ∑ b, ∑ c, f (ix3 a b c) := by
  rw [← Equiv.sum_comp idxEquiv3.symm f, Fintype.sum_prod_type]
  refine Finset.sum_congr rfl fun a _ => ?_
  rw [Fintype.sum_prod_type]
  rfl

/-- An axis of a rank-3 shape is 0, 1 or 2. -/
theorem fin3_cases (a : Fin 3) : a = 0 ∨ a = 1 ∨ a = 2 := by
  revert a; decide

section Generic

/-- The row scatter's dimension numbers over an operand [N, A, B], indices [E, 1] and updates [E, A, B]. -/
abbrev scD (N E A B : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

variable {N E A B w : Nat}
  (wf : ScatterDims.WF ⟨3, ![N, A, B]⟩ ⟨2, ![E, 1]⟩ ⟨3, ![E, A, B]⟩ [1, 2] [0] [0] 1)

/-- On the row axis the window of update (e, a, b) starts at dst[e], read signed. -/
theorem sc_start0 (idx : IVec ⟨2, ![E, 1]⟩ w) (e : Fin E) (a : Fin A) (b : Fin B) :
    (scD N E A B wf).start (ix3 e a b) idx 0 = (idx (ix2 e 0)).toInt := by
  unfold ScatterDims.start
  rw [dif_pos (show (0 : Fin 3) ∈ (scD N E A B wf).scatterDimsToOperandDims from List.mem_singleton.mpr rfl)]
  congr 2
  funext c
  match c with
  | ⟨0, _⟩ => rfl
  | ⟨1, _⟩ => rfl

/-- On the two window axes every window starts at 0. -/
theorem sc_start1 (idx : IVec ⟨2, ![E, 1]⟩ w) (e : Fin E) (a : Fin A) (b : Fin B) :
    (scD N E A B wf).start (ix3 e a b) idx 1 = 0 := by
  unfold ScatterDims.start
  rw [dif_neg (show (1 : Fin 3) ∉ ([0] : List (Fin 3)) by decide)]

theorem sc_start2 (idx : IVec ⟨2, ![E, 1]⟩ w) (e : Fin E) (a : Fin A) (b : Fin B) :
    (scD N E A B wf).start (ix3 e a b) idx 2 = 0 := by
  unfold ScatterDims.start
  rw [dif_neg (show (2 : Fin 3) ∉ ([0] : List (Fin 3)) by decide)]

/-- The row axis is inserted: the window coordinate there is 0. -/
theorem sc_window0 (e : Fin E) (a : Fin A) (b : Fin B) : (scD N E A B wf).window (ix3 e a b) 0 = 0 := by
  unfold ScatterDims.window
  have h : (0 : Fin 3) ∉ (scD N E A B wf).sKept :=
    (by decide : (0 : Fin 3) ∉ (List.finRange 3).filter (fun a => a ∉ ([0] : List (Fin 3))))
  rw [dif_neg h]

/-- On the window axes the window coordinates of update (e, a, b) are a and b. -/
theorem sc_window1 (e : Fin E) (a : Fin A) (b : Fin B) : (scD N E A B wf).window (ix3 e a b) 1 = a.val := by
  unfold ScatterDims.window
  have h : (1 : Fin 3) ∈ (scD N E A B wf).sKept :=
    (by decide : (1 : Fin 3) ∈ (List.finRange 3).filter (fun a => a ∉ ([0] : List (Fin 3))))
  rw [dif_pos h]
  rfl

theorem sc_window2 (e : Fin E) (a : Fin A) (b : Fin B) : (scD N E A B wf).window (ix3 e a b) 2 = b.val := by
  unfold ScatterDims.window
  have h : (2 : Fin 3) ∈ (scD N E A B wf).sKept :=
    (by decide : (2 : Fin 3) ∈ (List.finRange 3).filter (fun a => a ∉ ([0] : List (Fin 3))))
  rw [dif_pos h]
  rfl

/-- Update (e, a, b) lands at (n, a', b') exactly when dst[e] = n, a = a' and b = b' (an update whose dst[e] is not
    a row lands nowhere). -/
theorem sc_result_iff (idx : IVec ⟨2, ![E, 1]⟩ w) (e : Fin E) (a a' : Fin A) (b b' : Fin B) (n : Fin N) :
    (scD N E A B wf).resultIdx? (ix3 e a b) idx = some (ix3 n a' b')
      ↔ (idx (ix2 e 0)).toInt = (n.val : Int) ∧ a = a' ∧ b = b' := by
  have ha := a.isLt
  have hb := b.isLt
  have hn := n.isLt
  unfold ScatterDims.resultIdx?
  split
  · rename_i h
    have h0 := h 0
    rw [sc_start0, sc_window0] at h0
    constructor
    · intro hs
      have hs' := Option.some.inj hs
      have e0 := congrArg (fun f => (f 0).val) hs'
      have e1 := congrArg (fun f => (f 1).val) hs'
      have e2 := congrArg (fun f => (f 2).val) hs'
      simp only [sc_start0, sc_start1, sc_start2, sc_window0, sc_window1, sc_window2] at e0 e1 e2
      refine ⟨?_, Fin.ext ?_, Fin.ext ?_⟩
      · change _ = n.val at e0
        omega
      · change _ = a'.val at e1
        omega
      · change _ = b'.val at e2
        omega
    · rintro ⟨ht, rfl, rfl⟩
      congr 1
      funext c
      refine Fin.ext ?_
      rcases fin3_cases c with rfl | rfl | rfl
      · show ((scD N E A B wf).start (ix3 e a b) idx 0 + ((scD N E A B wf).window (ix3 e a b) 0 : Int)).toNat = n.val
        rw [sc_start0, sc_window0, ht]; omega
      · show ((scD N E A B wf).start (ix3 e a b) idx 1 + ((scD N E A B wf).window (ix3 e a b) 1 : Int)).toNat = a.val
        rw [sc_start1, sc_window1]; omega
      · show ((scD N E A B wf).start (ix3 e a b) idx 2 + ((scD N E A B wf).window (ix3 e a b) 2 : Int)).toNat = b.val
        rw [sc_start2, sc_window2]; omega
  · rename_i h
    constructor
    · intro hs; exact absurd hs (by simp)
    · rintro ⟨ht, rfl, rfl⟩
      exfalso; apply h
      intro c
      rcases fin3_cases c with rfl | rfl | rfl
      · rw [sc_start0, sc_window0, ht]
        show (0 : Int) ≤ (n.val : Int) + ((0 : Nat) : Int) ∧ (n.val : Int) + ((0 : Nat) : Int) < (N : Int)
        omega
      · rw [sc_start1, sc_window1]
        show (0 : Int) ≤ 0 + (a.val : Int) ∧ 0 + (a.val : Int) < (A : Int)
        omega
      · rw [sc_start2, sc_window2]
        show (0 : Int) ≤ 0 + (b.val : Int) ∧ 0 + (b.val : Int) < (B : Int)
        omega

/-- The scatter-add at entry (n, a, b): x[n, a, b] plus the sum over the edges e with dst[e] = n of the update
    (e, a, b). -/
theorem sc_apply (x : (⟨3, ![N, A, B]⟩ : Shape).Idx → EReal) (idx : IVec ⟨2, ![E, 1]⟩ w)
    (upd : (⟨3, ![E, A, B]⟩ : Shape).Idx → EReal) (n : Fin N) (a : Fin A) (b : Fin B) :
    Ideal.hostScatterAdd (scD N E A B wf) x idx upd (ix3 n a b)
      = x (ix3 n a b) + ∑ e : Fin E, if (idx (ix2 e 0)).toInt = (n.val : Int) then upd (ix3 e a b) else 0 := by
  show x (ix3 n a b) + ∑ j ∈ Finset.univ.filter
      (fun j => (scD N E A B wf).resultIdx? j idx = some (ix3 n a b)), upd j = _
  congr 1
  rw [Finset.sum_filter, sum_idx3]
  refine Finset.sum_congr rfl fun e _ => ?_
  rw [Finset.sum_congr rfl fun a' _ => Finset.sum_congr rfl fun b' _ =>
    if_congr (sc_result_iff wf idx e a' a b' b n) rfl rfl]
  by_cases ht : (idx (ix2 e 0)).toInt = (n.val : Int)
  · simp only [ht, true_and, if_true]
    rw [Finset.sum_eq_single a]
    · rw [Finset.sum_eq_single b]
      · simp
      · intro b' _ hb'; simp [hb']
      · intro h; exact absurd (Finset.mem_univ _) h
    · intro a' _ ha'; simp [ha']
    · intro h; exact absurd (Finset.mem_univ _) h
  · simp [ht]

/-- The row gather's dimension numbers over an operand [N, A, B], start indices [E, 1] and a result [E, A, B]. -/
abbrev gaD (N E A B : Nat)
    (wfg : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wfg

variable (wfg : GatherDims.WF ⟨3, ![N, A, B]⟩ ⟨2, ![E, 1]⟩ ⟨3, ![E, A, B]⟩ [1, 2] [0] [] [0] [] 1 ![1, A, B])

/-- On the row axis the slice of result (e, a, b) starts at src[e], read signed and clamped into [0, N - 1]. -/
theorem ga_start0 (idx : IVec ⟨2, ![E, 1]⟩ w) (e : Fin E) (a : Fin A) (b : Fin B) :
    (gaD N E A B wfg).start (ix3 e a b) idx 0 = min (idx (ix2 e 0)).toInt.toNat (N - 1) := by
  unfold GatherDims.start
  rw [dif_pos (show (0 : Fin 3) ∈ (gaD N E A B wfg).startIndexMap from List.mem_singleton.mpr rfl)]
  have hsi : (gaD N E A B wfg).siIdx (ix3 e a b) ⟨List.idxOf (0 : Fin 3) (gaD N E A B wfg).startIndexMap,
      List.idxOf_lt_length_iff.2 (List.mem_singleton.mpr rfl)⟩ = ix2 e 0 := by
    funext c
    match c with
    | ⟨0, _⟩ => rfl
    | ⟨1, _⟩ => rfl
  rw [hsi]
  rfl

/-- On the two offset axes every slice starts at 0. -/
theorem ga_start1 (idx : IVec ⟨2, ![E, 1]⟩ w) (e : Fin E) (a : Fin A) (b : Fin B) :
    (gaD N E A B wfg).start (ix3 e a b) idx 1 = 0 := by
  unfold GatherDims.start
  rw [dif_neg (show (1 : Fin 3) ∉ ([0] : List (Fin 3)) by decide)]

theorem ga_start2 (idx : IVec ⟨2, ![E, 1]⟩ w) (e : Fin E) (a : Fin A) (b : Fin B) :
    (gaD N E A B wfg).start (ix3 e a b) idx 2 = 0 := by
  unfold GatherDims.start
  rw [dif_neg (show (2 : Fin 3) ∉ ([0] : List (Fin 3)) by decide)]

/-- The row axis is collapsed: the offset coordinate there is 0. -/
theorem ga_off0 (e : Fin E) (a : Fin A) (b : Fin B) : (gaD N E A B wfg).offCoord (ix3 e a b) 0 = 0 := by
  unfold GatherDims.offCoord
  have h : (0 : Fin 3) ∉ (gaD N E A B wfg).sKept :=
    (by decide : (0 : Fin 3) ∉ (List.finRange 3).filter (fun a => a ∉ ([0] ++ [] : List (Fin 3))))
  rw [dif_neg h]

/-- On the offset axes the offset coordinates of result (e, a, b) are a and b. -/
theorem ga_off1 (e : Fin E) (a : Fin A) (b : Fin B) : (gaD N E A B wfg).offCoord (ix3 e a b) 1 = a.val := by
  unfold GatherDims.offCoord
  have h : (1 : Fin 3) ∈ (gaD N E A B wfg).sKept :=
    (by decide : (1 : Fin 3) ∈ (List.finRange 3).filter (fun a => a ∉ ([0] ++ [] : List (Fin 3))))
  rw [dif_pos h]
  rfl

theorem ga_off2 (e : Fin E) (a : Fin A) (b : Fin B) : (gaD N E A B wfg).offCoord (ix3 e a b) 2 = b.val := by
  unfold GatherDims.offCoord
  have h : (2 : Fin 3) ∈ (gaD N E A B wfg).sKept :=
    (by decide : (2 : Fin 3) ∈ (List.finRange 3).filter (fun a => a ∉ ([0] ++ [] : List (Fin 3))))
  rw [dif_pos h]
  rfl

/-- The gather at (e, a, b): the operand at row min(src[e], N - 1), entry (a, b). -/
theorem ga_apply {α : Type} (hN : 0 < N) (H : (⟨3, ![N, A, B]⟩ : Shape).Idx → α) (idx : IVec ⟨2, ![E, 1]⟩ w)
    (e : Fin E) (a : Fin A) (b : Fin B) :
    Host.gather (gaD N E A B wfg) H idx (ix3 e a b)
      = H (ix3 ⟨min (idx (ix2 e 0)).toInt.toNat (N - 1), by omega⟩ a b) := by
  unfold Host.gather
  congr 1
  funext c
  refine Fin.ext ?_
  rcases fin3_cases c with rfl | rfl | rfl
  · show (gaD N E A B wfg).start (ix3 e a b) idx 0 + (gaD N E A B wfg).batchCoord (ix3 e a b) 0
      + (gaD N E A B wfg).offCoord (ix3 e a b) 0 = min (idx (ix2 e 0)).toInt.toNat (N - 1)
    rw [ga_start0, ga_off0, GatherDims.batchCoord_eq_zero _ _ _ List.not_mem_nil, Nat.add_zero]
  · show (gaD N E A B wfg).start (ix3 e a b) idx 1 + (gaD N E A B wfg).batchCoord (ix3 e a b) 1
      + (gaD N E A B wfg).offCoord (ix3 e a b) 1 = a.val
    rw [ga_start1, ga_off1, GatherDims.batchCoord_eq_zero _ _ _ List.not_mem_nil]
    omega
  · show (gaD N E A B wfg).start (ix3 e a b) idx 2 + (gaD N E A B wfg).batchCoord (ix3 e a b) 2
      + (gaD N E A B wfg).offCoord (ix3 e a b) 2 = b.val
    rw [ga_start2, ga_off2, GatherDims.batchCoord_eq_zero _ _ _ List.not_mem_nil]
    omega

end Generic

end Cert.Lib.RowPass3

end
-- ==== Proof.LibMergeCols.lean ====
/-
  Two trailing axes merged into one, read at an entry (a general lemma: nothing here depends on a program).

  An array [A, B, C] and a matrix [A, N] with N = B * C hold the same entries in the same row-major order: entry
  (a, b, c) of the first sits where entry (a, b * C + c) of the second does.  So the shape cast that merges the two
  trailing axes moves no entry.  Any sizes; the column j is given with the equation j = b * C + c, so that a literal
  extent (1024 for 8 * 128) is met without arithmetic on types.  (The companion of the leading-axes merge
  [A, B, C] -> [A * B, C] and of the column split [A, N] -> [A, B, C].)
-/
import Idealize.ShloMosaic.Lib.ValueIdx
import Idealize.ShloMosaic.Lib.Pipeline.Value

noncomputable section

namespace Cert.Lib.MergeCols

open Idealize.ShloMosaic Idealize.ShloMosaic.ValueIdx

/-- [A, B, C] viewed as [A, N] with N = B * C: the entry at row a, column b * C + c, is the entry (a, b, c). -/
theorem mergeCols_apply {α : Type} {A B C N : Nat} (x : (⟨3, ![A, B, C]⟩ : Shape).Idx → α)
    (h : (⟨3, ![A, B, C]⟩ : Shape).ShapeCasts ⟨2, ![A, N]⟩) (a : Fin A) (b : Fin B) (c : Fin C) (j : Fin N)
    (hN : N = B * C) (hj : j.val = b.val * C + c.val) :
    shapeCast ⟨2, ![A, N]⟩ x h (ix2 a j) = x (ix3 a b c) := by
  refine shapeCast_apply x h (ix2 a j) (ix3 a b c) ?_
  rw [Shape.rowMajor_val_three, Shape.rowMajor_val_two]
  show (a.val * B + b.val) * C + c.val = a.val * N + j.val
  rw [hj, hN, Nat.add_mul, Nat.mul_assoc, Nat.add_assoc]

end Cert.Lib.MergeCols

end
-- ==== Proof.LibTypedRef.lean ====
/-
  Typed references: the transport between a value's type and its buffer's.
-/
import Idealize.ShloMosaic.Lib.StableHlo

namespace Cert.LibTypedRef

open Idealize.ShloMosaic Idealize.ShloMosaic.StableHlo

variable {sig : RefSig} {Val : EltTy → Type} {T : BufTy}

/-- A typed reference moves contents of its value's type `T` into its buffer's type and back along one equation of
    types; there and back is the identity.  (An operation of a module-local function, stated over typed references,
    writes its result through `toBuf` and the next one reads it through `ofBuf`: composed, the pair disappears, for any
    signature, value types and reference.) -/
theorem ofBuf_toBuf (x : TRef sig T) (v : T.Contents Val) : x.ofBuf (x.toBuf v) = v := by
  obtain ⟨r, rfl, _, _⟩ := x
  rfl

/-- And back and there. -/
theorem toBuf_ofBuf (x : TRef sig T) (v : x.ref.ty.Contents Val) : x.toBuf (x.ofBuf v) = v := by
  obtain ⟨r, rfl, _, _⟩ := x
  rfl

end Cert.LibTypedRef
-- ==== Proof.LibTypedRefSame.lean ====
/-
  Typed references taken at their buffer's own type: the transport is along a reflexive equation.
-/
import Idealize.ShloMosaic.Lib.StableHlo

namespace Cert.LibTypedRefSame

open Idealize.ShloMosaic Idealize.ShloMosaic.StableHlo

variable {sig : RefSig} {Val : EltTy → Type}

/-- A typed reference whose value type is its buffer's own type moves contents into the buffer along a reflexive
    equation of types, that is, nowhere. Stated at `T := r.ty` so that it holds by definition; at a use site where the
    value type is a literal that only UNFOLDS to `r.ty`, rewrite with it by `erw`, which may unfold the buffer's type
    (`rw` and `simp` compare the two types without unfolding and find no instance). Any signature, value types and
    reference. -/
theorem toBuf_same (r : Ref sig .tc) (h : r.ty = r.ty) (hd : r.space ≠ .host) (hu : r.isScoped = false)
    (v : r.ty.Contents Val) : (TRef.of (T := r.ty) r h hd hu).toBuf v = v := rfl

/-- And out of the buffer likewise. -/
theorem ofBuf_same (r : Ref sig .tc) (h : r.ty = r.ty) (hd : r.space ≠ .host) (hu : r.isScoped = false)
    (v : r.ty.Contents Val) : (TRef.of (T := r.ty) r h hd hu).ofBuf v = v := rfl

end Cert.LibTypedRefSame
-- ==== Proof.KHost.lean ====
/-
  The arrays the pallas call finds, read at an entry: the operations before the call gather the source rows,
  pad the per-edge inputs with 640 zero rows and lay the biases out as one-row matrices.
-/
import proofs.«108081_j71390946394547_1_alg».proof.Proof.Gen.KernelIdeal.Frame
import proofs.«108081_j71390946394547_1_alg».proof.Proof.Spec
import proofs.«108081_j71390946394547_1_alg».proof.Proof.LibRowGatherScatter
import proofs.«108081_j71390946394547_1_alg».proof.Proof.LibRowGatherScatter3
import proofs.«108081_j71390946394547_1_alg».proof.Proof.LibMergeCols
import proofs.«108081_j71390946394547_1_alg».proof.Proof.LibLayout
import proofs.«108081_j71390946394547_1_alg».proof.Proof.LibTypedRef
import proofs.«108081_j71390946394547_1_alg».proof.Proof.LibTypedRefSame
import Idealize.ShloMosaic.PureOps.Ideal
import Idealize.ShloMosaic.Lib.StableHlo.Run
import Idealize.ShloMosaic.Lib.ValueLayout
import Idealize.ShloMosaic.Lib.Pipeline.Value
import Idealize.ShloMosaic.Lib.KernelVsHost

noncomputable section

namespace Cert.KHost

open Cert.KernelIdeal Cert.KernelIdeal.Gen Idealize.ShloMosaic Idealize.ShloMosaic.TcCoe Idealize.SL.Sem
open Idealize.ShloMosaic.StableHlo Idealize.ShloMosaic.ValueIdx Cert.Msg

variable (m : (ℓ : Loc nD τ sig) → Buf (Elt Ideal) ℓ) (c : Dev nD)

/-- The launch contents of the twelve arguments as the layer's arguments. -/
def kargs : Cert.Msg.Args :=
  Cert.Msg.Args.mk (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))

/-- The source index words (second row of the index argument) padded with 640 zeros. -/
private def jPad : S400640.Idx → BitVec 32 :=
  concatenate S400640 0
    [⟨S400000, (shapeCast S400000
        (extractStridedSlice S1x400000 ![1, 0] (m ((c.tc : Thread nD τ).loc main_arg11) : S2x400000.Idx → BitVec 32)
          slices_S2x400000_S1x400000_1_0 : S1x400000.Idx → BitVec 32)
        shapeCasts_S1x400000_S400000 : S400000.Idx → BitVec 32)⟩,
     ⟨S640, (broadcastInDim S640 ![] bcast_S_S640 (constantI S_ 32 0#32) : S640.Idx → BitVec 32)⟩]
    concatenates_S400000_S640_S400640_d0

/-- The padded source index words, the negative ones counted from the end, as a column. -/
private def jCol : S400640x1.Idx → BitVec 32 :=
  broadcastInDim S400640x1 ![0] bcast_S400640_S400640x1_0
    (select (cmpi .slt (jPad m c) (broadcastInDim S400640 ![] bcast_S_S400640 (constantI S_ 32 0#32)))
      (addi (jPad m c) (broadcastInDim S400640 ![] bcast_S_S400640 (constantI S_ 32 20000#32))) (jPad m c))

/-- Below 400000 the padded source words are the argument's second row. -/
private theorem jPad_lo (e : Fin 400000) :
    jPad m c (ix1 (⟨e.val, by omega⟩ : Fin 400640)) = (kargs m c).ei (ix2 (1 : Fin 2) e) := by
  unfold jPad
  refine (concatenate_pair_apply_left (t := S400640) (s₁ := S400000) (s₂ := S640) 0 _ _
    concatenates_S400000_S640_S400640_d0 (ix1 (⟨e.val, by omega⟩ : Fin 400640)) rfl (ix1 e) (fun b => match b with
    | ⟨0, _⟩ => rfl)).trans ?_
  refine (shapeCast_apply (s := S1x400000) (t := S400000) _ shapeCasts_S1x400000_S400000 (ix1 e) (ix2 (0 : Fin 1) e) ?_).trans ?_
  · rw [Shape.rowMajor_val_two, Shape.rowMajor_val_one]
    show 0 * 400000 + e.val = e.val
    omega
  exact extractStridedSlice_apply (s := S2x400000) (t := S1x400000) _ _ slices_S2x400000_S1x400000_1_0
    (ix2 (0 : Fin 1) e) (ix2 (1 : Fin 2) e) (fun a => match a with
    | ⟨0, _⟩ => rfl
    | ⟨1, _⟩ => by show e.val = 0 + e.val; omega)

/-- Below 400000 the column holds the wrapped source word of the edge. -/
private theorem jCol_lo (e : Fin 400000) :
    jCol m c (ix2 (⟨e.val, by omega⟩ : Fin 400640) (0 : Fin 1)) = wrapIdx ((kargs m c).ei (ix2 (1 : Fin 2) e)) := by
  unfold jCol
  refine (broadcastInDim_apply _ _ _ _ (ix1 (⟨e.val, by omega⟩ : Fin 400640)) (fun a => match a with
    | ⟨0, _⟩ => rfl)).trans ?_
  show Scalar.select (IntOp.cmpi .slt (jPad m c (ix1 (⟨e.val, by omega⟩ : Fin 400640))) 0#32)
      (IntOp.addi (jPad m c (ix1 (⟨e.val, by omega⟩ : Fin 400640))) 20000#32) (jPad m c (ix1 (⟨e.val, by omega⟩ : Fin 400640))) = _
  rw [jPad_lo]
  rfl

/-- The gathered source features: the rows of s at the wrapped, clamped source words. -/
private theorem V17_eq :
    (V m c main_v17 : S400640x128.Idx → EReal)
      = (Host.gather gather_S20000x128_S400640x1_S400640x128_1_0_n_n_0_1_1128
          (m ((c.tc : Thread nD τ).loc main_arg0) : S20000x128.Idx → EReal) (jCol m c) : S400640x128.Idx → EReal) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

/-- Row e < 400000 of the gathered source features is row src e of s. -/
theorem V17_apply (e : Fin 400000) (t : Fin 128) :
    V m c main_v17 (ix2 (⟨e.val, by omega⟩ : Fin 400640) t) = (kargs m c).s (ix2 ((kargs m c).src e) t) := by
  refine (congrFun (V17_eq m c) (ix2 (⟨e.val, by omega⟩ : Fin 400640) t)).trans ?_
  refine (Cert.Lib.RowPass.ga_apply (N := 20000) (E := 400640) (W := 128)
    gather_S20000x128_S400640x1_S400640x128_1_0_n_n_0_1_1128_wf (by omega) _ (jCol m c)
    (⟨e.val, by omega⟩ : Fin 400640) t).trans ?_
  refine congrArg (fun r : Fin 20000 => (kargs m c).s (ix2 r t)) (Fin.ext ?_)
  show min (jCol m c (ix2 (⟨e.val, by omega⟩ : Fin 400640) (0 : Fin 1))).toInt.toNat (20000 - 1)
    = min (wrapIdx ((kargs m c).ei (ix2 (1 : Fin 2) e))).toInt.toNat (20000 - 1)
  rw [jCol_lo]

/-- The gathered source vectors with the component and feature axes merged. -/
private theorem V25_eq :
    (V m c main_v25 : S400640x384.Idx → EReal)
      = (shapeCast S400640x384
          (Host.gather gather_S20000x3x128_S400640x1_S400640x3x128_12_0_n_n_0_1_13128
            (m ((c.tc : Thread nD τ).loc main_arg1) : S20000x3x128.Idx → EReal) (jCol m c) : S400640x3x128.Idx → EReal)
          shapeCasts_S400640x3x128_S400640x384 : S400640x384.Idx → EReal) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

/-- Row e < 400000 of the gathered source vectors, flattened to 384 columns: column 128 k + h is v[src e, k, h]. -/
theorem V25_apply (e : Fin 400000) (k : Fin 3) (h : Fin 128) :
    V m c main_v25 (ix2 (⟨e.val, by omega⟩ : Fin 400640) (⟨128 * k.val + h.val, by omega⟩ : Fin 384))
      = (kargs m c).v (ix3 ((kargs m c).src e) k h) := by
  refine (congrFun (V25_eq m c) (ix2 (⟨e.val, by omega⟩ : Fin 400640) (⟨128 * k.val + h.val, by omega⟩ : Fin 384))).trans ?_
  refine (Cert.Lib.MergeCols.mergeCols_apply (A := 400640) (B := 3) (C := 128) (N := 384) _
    shapeCasts_S400640x3x128_S400640x384 (⟨e.val, by omega⟩ : Fin 400640) k h
    (⟨128 * k.val + h.val, by omega⟩ : Fin 384) (by norm_num) (by show 128 * k.val + h.val = k.val * 128 + h.val; omega)).trans ?_
  refine (Cert.Lib.RowPass3.ga_apply (N := 20000) (E := 400640) (A := 3) (B := 128)
    gather_S20000x3x128_S400640x1_S400640x3x128_12_0_n_n_0_1_13128_wf (by omega) _ (jCol m c)
    (⟨e.val, by omega⟩ : Fin 400640) k h).trans ?_
  refine congrArg (fun r : Fin 20000 => (kargs m c).v (ix3 r k h)) (Fin.ext ?_)
  show min (jCol m c (ix2 (⟨e.val, by omega⟩ : Fin 400640) (0 : Fin 1))).toInt.toNat (20000 - 1)
    = min (wrapIdx ((kargs m c).ei (ix2 (1 : Fin 2) e))).toInt.toNat (20000 - 1)
  rw [jCol_lo]

/-- The padded radial basis: the argument with 640 rows of the converted zero appended. -/
private theorem V8_eq :
    (V m c main_v8 : S400640x20.Idx → EReal)
      = (pad S400640x20 ![0, 0] ![640, 0] ![0, 0] (m ((c.tc : Thread nD τ).loc main_arg2) : S400000x20.Idx → EReal)
          (sitofp (F := Ideal) FTy.f32 (constantI S_ 32 0#32)) pads_S400000x20_S400640x20_06400_000 h_S_ : S400640x20.Idx → EReal) := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

/-- The padded per-edge inputs agree with the arguments on the first 400000 rows. -/
theorem V8_apply (e : Fin 400000) (r : Fin 20) :
    V m c main_v8 (ix2 (⟨e.val, by omega⟩ : Fin 400640) r) = (kargs m c).rbf (ix2 e r) := by
  refine (congrFun (V8_eq m c) (ix2 (⟨e.val, by omega⟩ : Fin 400640) r)).trans ?_
  exact pad_apply_of_inside _ _ _ _ _ _ _ _ (ix2 e r) (fun a => match a with
    | ⟨0, _⟩ => by show e.val = 0 + e.val * (0 + 1); omega
    | ⟨1, _⟩ => by show r.val = 0 + r.val * (0 + 1); omega)

/-- The padded cutoffs as a column. -/
private theorem V26_eq :
    (V m c main_v26 : S400640x1.Idx → EReal)
      = (broadcastInDim S400640x1 ![0] bcast_S400640_S400640x1_0
          (pad S400640 ![0] ![640] ![0] (m ((c.tc : Thread nD τ).loc main_arg3) : S400000.Idx → EReal)
            (sitofp (F := Ideal) FTy.f32 (constantI S_ 32 0#32)) pads_S400000_S400640_06400 h_S_ : S400640.Idx → EReal)
          : S400640x1.Idx → EReal) := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

theorem V26_apply (e : Fin 400000) :
    V m c main_v26 (ix2 (⟨e.val, by omega⟩ : Fin 400640) (0 : Fin 1)) = (kargs m c).cut (ix1 e) := by
  refine (congrFun (V26_eq m c) (ix2 (⟨e.val, by omega⟩ : Fin 400640) (0 : Fin 1))).trans ?_
  refine (broadcastInDim_apply _ _ _ _ (ix1 (⟨e.val, by omega⟩ : Fin 400640)) (fun a => match a with
    | ⟨0, _⟩ => rfl)).trans ?_
  exact pad_apply_of_inside _ _ _ _ _ _ _ _ (ix1 e) (fun a => match a with
    | ⟨0, _⟩ => by show e.val = 0 + e.val * (0 + 1); omega)

/-- The padded directions: the argument with 640 rows of the converted zero appended. -/
private theorem V10_eq :
    (V m c main_v10 : S400640x3.Idx → EReal)
      = (pad S400640x3 ![0, 0] ![640, 0] ![0, 0] (m ((c.tc : Thread nD τ).loc main_arg4) : S400000x3.Idx → EReal)
          (sitofp (F := Ideal) FTy.f32 (constantI S_ 32 0#32)) pads_S400000x3_S400640x3_06400_000 h_S_ : S400640x3.Idx → EReal) := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

theorem V10_apply (e : Fin 400000) (k : Fin 3) :
    V m c main_v10 (ix2 (⟨e.val, by omega⟩ : Fin 400640) k) = (kargs m c).ev (ix2 e k) := by
  refine (congrFun (V10_eq m c) (ix2 (⟨e.val, by omega⟩ : Fin 400640) k)).trans ?_
  exact pad_apply_of_inside _ _ _ _ _ _ _ _ (ix2 e k) (fun a => match a with
    | ⟨0, _⟩ => by show e.val = 0 + e.val * (0 + 1); omega
    | ⟨1, _⟩ => by show k.val = 0 + k.val * (0 + 1); omega)

/-- Each bias vector laid out as the one row of a matrix. -/
private theorem V27_eq :
    (V m c main_v27 : S1x128.Idx → EReal)
      = (broadcastInDim S1x128 ![1] bcast_S128_S1x128_1 (m ((c.tc : Thread nD τ).loc main_arg6) : S128.Idx → EReal)
          : S1x128.Idx → EReal) := by
  dsimp only [V, V0]
  simp only [hostOps0, hostOps0_1, hostOps0_2, hostOps0_3, hostOps0_4, hostOps0_5, hostOps0_6, List.flatten_cons, List.flatten_nil, List.append_nil, List.cons_append, List.nil_append]
  after_results

/-- The biases as one-row matrices. -/
theorem V27_apply (k : Fin 128) : V m c main_v27 (ix2 (0 : Fin 1) k) = (kargs m c).b1 (ix1 k) := by
  refine (congrFun (V27_eq m c) (ix2 (0 : Fin 1) k)).trans ?_
  exact broadcastInDim_apply _ _ _ _ (ix1 k) (fun a => match a with
    | ⟨0, _⟩ => rfl)

private theorem V28_eq :
    (V m c main_v28 : S1x384.Idx → EReal)
      = (broadcastInDim S1x384 ![1] bcast_S384_S1x384_1 (m ((c.tc : Thread nD τ).loc main_arg8) : S384.Idx → EReal)
          : S1x384.Idx → EReal) := by
  dsimp only [V, V0]
  simp only [hostOps0, hostOps0_1, hostOps0_2, hostOps0_3, hostOps0_4, hostOps0_5, hostOps0_6, List.flatten_cons, List.flatten_nil, List.append_nil, List.cons_append, List.nil_append]
  after_results

theorem V28_apply (q : Fin 384) : V m c main_v28 (ix2 (0 : Fin 1) q) = (kargs m c).b2 (ix1 q) := by
  refine (congrFun (V28_eq m c) (ix2 (0 : Fin 1) q)).trans ?_
  exact broadcastInDim_apply _ _ _ _ (ix1 q) (fun a => match a with
    | ⟨0, _⟩ => rfl)

private theorem V29_eq :
    (V m c main_v29 : S1x384.Idx → EReal)
      = (broadcastInDim S1x384 ![1] bcast_S384_S1x384_1 (m ((c.tc : Thread nD τ).loc main_arg10) : S384.Idx → EReal)
          : S1x384.Idx → EReal) := by
  dsimp only [V, V0]
  simp only [hostOps0, hostOps0_1, hostOps0_2, hostOps0_3, hostOps0_4, hostOps0_5, hostOps0_6, List.flatten_cons, List.flatten_nil, List.append_nil, List.cons_append, List.nil_append]
  after_results

theorem V29_apply (q : Fin 384) : V m c main_v29 (ix2 (0 : Fin 1) q) = (kargs m c).br (ix1 q) := by
  refine (congrFun (V29_eq m c) (ix2 (0 : Fin 1) q)).trans ?_
  exact broadcastInDim_apply _ _ _ _ (ix1 q) (fun a => match a with
    | ⟨0, _⟩ => rfl)

/-- The weight matrices are the arguments themselves. -/
theorem V_W1 : V m c main_arg5 = (kargs m c).W1 := V_main_arg5 m c
theorem V_W2 : V m c main_arg7 = (kargs m c).W2 := V_main_arg7 m c
theorem V_Wr : V m c main_arg9 = (kargs m c).Wr := V_main_arg9 m c

/-- The padded target indices: the first row of the index argument, then 640 copies of 20000. -/
private theorem V5_eq :
    (V m c main_v5 : S400640.Idx → BitVec 32)
      = (concatenate S400640 0
          [⟨S400000, (shapeCast S400000
              (extractStridedSlice S1x400000 ![0, 0] (m ((c.tc : Thread nD τ).loc main_arg11) : S2x400000.Idx → BitVec 32)
                slices_S2x400000_S1x400000_0_0 : S1x400000.Idx → BitVec 32)
              shapeCasts_S1x400000_S400000 : S400000.Idx → BitVec 32)⟩,
           ⟨S640, (broadcastInDim S640 ![] bcast_S_S640 (constantI S_ 32 20000#32) : S640.Idx → BitVec 32)⟩]
          concatenates_S400000_S640_S400640_d0 : S400640.Idx → BitVec 32) := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

/-- The padded target indices: the argument's first row on the first 400000 positions, 20000 (no node) after. -/
theorem V5_lo (e : Fin 400000) :
    V m c main_v5 (ix1 (⟨e.val, by omega⟩ : Fin 400640)) = (kargs m c).ei (ix2 (0 : Fin 2) e) := by
  refine (congrFun (V5_eq m c) (ix1 (⟨e.val, by omega⟩ : Fin 400640))).trans ?_
  refine (concatenate_pair_apply_left (t := S400640) (s₁ := S400000) (s₂ := S640) 0 _ _
    concatenates_S400000_S640_S400640_d0 (ix1 (⟨e.val, by omega⟩ : Fin 400640)) rfl (ix1 e) (fun b => match b with
    | ⟨0, _⟩ => rfl)).trans ?_
  refine (shapeCast_apply (s := S1x400000) (t := S400000) _ shapeCasts_S1x400000_S400000 (ix1 e) (ix2 (0 : Fin 1) e) ?_).trans ?_
  · rw [Shape.rowMajor_val_two, Shape.rowMajor_val_one]
    show 0 * 400000 + e.val = e.val
    omega
  exact extractStridedSlice_apply (s := S2x400000) (t := S1x400000) _ _ slices_S2x400000_S1x400000_0_0
    (ix2 (0 : Fin 1) e) (ix2 (0 : Fin 2) e) (fun a => match a with
    | ⟨0, _⟩ => rfl
    | ⟨1, _⟩ => by show e.val = 0 + e.val; omega)

theorem V5_hi (e : Fin 400640) (he : 400000 ≤ e.val) : V m c main_v5 (ix1 e) = 20000#32 := by
  refine (congrFun (V5_eq m c) (ix1 e)).trans ?_
  refine (concatenate_pair_apply_right (t := S400640) (s₁ := S400000) (s₂ := S640) 0 _ _
    concatenates_S400000_S640_S400640_d0 (ix1 e) rfl rfl (ix1 (⟨e.val - 400000, by omega⟩ : Fin 640))
    (fun b hb => ?_) ?_).trans ?_
  · match b, hb with
    | ⟨0, _⟩, hb => exact absurd rfl hb
  · show e.val - 400000 + 400000 = e.val
    omega
  · rfl

end Cert.KHost

end
-- ==== Proof.SpecAlg.lean ====
/-
  The algebra of the message-passing layer on the extended reals.
-/
import proofs.«108081_j71390946394547_1_alg».proof.Proof.Spec
import Mathlib.Algebra.BigOperators.Fin

noncomputable section

namespace Cert.Msg

open Idealize.ShloMosaic Idealize.ShloMosaic.ValueIdx

/-- An extended real that is (the image of) a real number. -/
private def IsR (x : EReal) : Prop := ∃ r : ℝ, x = r

private theorem IsR.zero : IsR 0 := ⟨0, EReal.coe_zero.symm⟩

/-- The reals are closed under addition inside the extended reals. -/
private theorem IsR.add {x y : EReal} (hx : IsR x) (hy : IsR y) : IsR (x + y) := by
  obtain ⟨r, rfl⟩ := hx
  obtain ⟨s, rfl⟩ := hy
  exact ⟨r + s, (EReal.coe_add r s).symm⟩

/-- The reals are closed under multiplication inside the extended reals. -/
private theorem IsR.mul {x y : EReal} (hx : IsR x) (hy : IsR y) : IsR (x * y) := by
  obtain ⟨r, rfl⟩ := hx
  obtain ⟨s, rfl⟩ := hy
  exact ⟨r * s, (EReal.coe_mul r s).symm⟩

/-- A finite sum of reals is a real. -/
private theorem IsR.sum {ι : Type} (s : Finset ι) (f : ι → EReal) (h : ∀ i ∈ s, IsR (f i)) :
    IsR (∑ i ∈ s, f i) :=
  Finset.sum_induction f IsR (fun _ _ hx hy => IsR.add hx hy) IsR.zero h

/-- The logistic function of a real is the real 1 / (1 + exp (-r)). -/
private theorem IsR.logistic {x : EReal} (hx : IsR x) : IsR (Ideal.logistic x) := by
  obtain ⟨r, rfl⟩ := hx
  exact ⟨_, Ideal.logistic_coe r⟩

/-- The first linear layer of real features with real weights is real. -/
private theorem lin_real (a : Args) (hf : a.Finite) (sj : Fin 128 → EReal) (hs : ∀ t, IsR (sj t))
    (k : Fin 128) : IsR (lin a.wts sj k) := by
  unfold lin
  exact IsR.add (IsR.sum _ _ (fun t _ => IsR.mul (hs t) (hf.W1 (ix2 t k)))) (hf.b1 (ix1 k))

/-- silu of a real is real. -/
private theorem act_real (a : Args) (hf : a.Finite) (sj : Fin 128 → EReal) (hs : ∀ t, IsR (sj t))
    (k : Fin 128) : IsR (act a.wts sj k) := by
  unfold act
  exact IsR.mul (lin_real a hf sj hs k) (IsR.logistic (lin_real a hf sj hs k))

/-- The radial projection of real basis values, modulated by a real cutoff, is real. -/
private theorem gate_real (a : Args) (hf : a.Finite) (rb : Fin 20 → EReal) (hr : ∀ r, IsR (rb r))
    (cu : EReal) (hc : IsR cu) (q : Fin 384) : IsR (gate a.wts rb cu q) := by
  unfold gate
  exact IsR.mul (IsR.add (IsR.sum _ _ (fun r _ => IsR.mul (hr r) (hf.Wr (ix2 r q)))) (hf.br (ix1 q))) hc

/-- With real arguments every filter value of every edge is a real number. -/
theorem Args.X_real (a : Args) (hf : a.Finite) (e : Fin 400000) (q : Fin 384) : ∃ r : ℝ, a.X e q = r := by
  unfold Args.X rowX
  exact IsR.mul
    (IsR.add
      (IsR.sum _ _ (fun k _ => IsR.mul (act_real a hf _ (fun t => hf.s (ix2 (a.src e) t)) k) (hf.W2 (ix2 k q))))
      (hf.b2 (ix1 q)))
    (gate_real a hf _ (fun r => hf.rbf (ix2 e r)) _ (hf.cut (ix1 e)) q)

/-- Multiplication by a real distributes over a sum one of whose terms is real, whatever the other term is.
    (Without a real term this fails on the extended reals: ⊤ + ⊥ = ⊥.) -/
private theorem coe_add_mul_coe (A c : ℝ) (B : EReal) :
    ((A : EReal) + B) * (c : EReal) = (A : EReal) * (c : EReal) + B * (c : EReal) := by
  induction B with
  | bot =>
    rw [EReal.add_bot]
    rcases lt_trichotomy c 0 with hc | hc | hc
    · rw [EReal.bot_mul_coe_of_neg hc, ← EReal.coe_mul, EReal.coe_add_top]
    · subst hc
      rw [EReal.coe_zero, mul_zero, mul_zero, add_zero]
    · rw [EReal.bot_mul_coe_of_pos hc, EReal.add_bot]
  | coe b =>
    rw [← EReal.coe_add, ← EReal.coe_mul, ← EReal.coe_mul, ← EReal.coe_mul, ← EReal.coe_add, add_mul]
  | top =>
    rw [EReal.coe_add_top]
    rcases lt_trichotomy c 0 with hc | hc | hc
    · rw [EReal.top_mul_coe_of_neg hc, EReal.add_bot]
    · subst hc
      rw [EReal.coe_zero, mul_zero, mul_zero, add_zero]
    · rw [EReal.top_mul_coe_of_pos hc, ← EReal.coe_mul, EReal.coe_add_top]

/-- Per edge: the combined form of the vector message is the sum of its two terms, as soon as the second-group
    filter value and the direction component are real. -/
private theorem dvK_split (X : Fin 384 → EReal) (vj : Fin 3 → Fin 128 → EReal) (ev : Fin 3 → EReal) (c : Fin 3)
    (h : Fin 128) (hX : IsR (X (qsv h))) (he : IsR (ev c)) :
    dvK X vj ev c h = dvR1 X ev c h + dvR2 X vj ev c h := by
  obtain ⟨A, hA⟩ := hX
  obtain ⟨r, hr⟩ := he
  unfold dvK dvR1 dvR2
  rw [zero_add, Fin.sum_univ_three, hA, hr]
  exact coe_add_mul_coe A r _

/-- With real arguments the combined form of the vector output is the two-term form. -/
theorem Args.dv_eq (a : Args) (hf : a.Finite) (n : Fin 20000) (c : Fin 3) (h : Fin 128) :
    a.dvKer n c h = a.dvRef n c h := by
  unfold Args.dvKer Args.dvRef
  rw [zero_add, zero_add, zero_add, ← Finset.sum_add_distrib]
  refine Finset.sum_congr rfl (fun e _ => ?_)
  by_cases hP : a.dstIs e n
  · rw [if_pos hP, if_pos hP, if_pos hP]
    exact dvK_split (a.X e) (a.vj e) (a.evr e) c h (a.X_real hf e (qsv h)) (hf.ev (ix2 e c))
  · rw [if_neg hP, if_neg hP, if_neg hP, add_zero]

/-- A sum over 400640 positions whose terms vanish from position 400000 on is the sum over the first 400000. -/
theorem sum_cut (f : Fin 400640 → EReal) (h0 : ∀ i : Fin 400640, 400000 ≤ i.val → f i = 0) :
    ∑ i : Fin 400640, f i = ∑ e : Fin 400000, f ⟨e.val, by omega⟩ := by
  -- split the positions into the first 400000 and the last 640
  have hsplit : ∑ i : Fin 400640, f i
      = ∑ i : Fin 400000, f (Fin.castAdd 640 i) + ∑ i : Fin 640, f (Fin.natAdd 400000 i) :=
    Fin.sum_univ_add (a := 400000) (b := 640) f
  -- the last 640 terms are all zero
  have htail : ∑ i : Fin 640, f (Fin.natAdd 400000 i) = 0 :=
    Finset.sum_eq_zero (fun i _ => h0 (Fin.natAdd 400000 i) (Nat.le_add_right 400000 i.val))
  rw [hsplit, htail, add_zero]
  exact Finset.sum_congr rfl (fun _ _ => rfl)

end Cert.Msg

end
-- ==== Proof.LibSplitCols.lean ====
/-
  The columns of a matrix split into groups, read at an entry (a general lemma: nothing here depends on a program).

  A matrix [A, N] with N = B * C and an array [A, B, C] hold the same entries in the same row-major order: entry
  (a, b, c) of the second sits where entry (a, b * C + c) of the first does.  So the shape cast that splits the columns
  moves no entry.  Any sizes; the column r is given with the equation r = b * C + c, so that a literal extent
  (896 for 7 * 128) is met without arithmetic on types.
-/
import Idealize.ShloMosaic.Lib.ValueIdx
import Idealize.ShloMosaic.Lib.Pipeline.Value

noncomputable section

namespace Cert.Lib.SplitCols

open Idealize.ShloMosaic Idealize.ShloMosaic.ValueIdx

/-- [A, N] viewed as [A, B, C] with N = B * C: the entry (a, b, c) is the entry at row a, column b * C + c. -/
theorem split_apply {α : Type} {A B C N : Nat} (x : (⟨2, ![A, N]⟩ : Shape).Idx → α)
    (h : (⟨2, ![A, N]⟩ : Shape).ShapeCasts ⟨3, ![A, B, C]⟩) (hN : N = B * C) (a : Fin A) (b : Fin B) (c : Fin C) (r : Fin N)
    (hr : r.val = b.val * C + c.val) :
    shapeCast ⟨3, ![A, B, C]⟩ x h (ix3 a b c) = x (ix2 a r) := by
  refine shapeCast_apply x h (ix3 a b c) (ix2 a r) ?_
  rw [Shape.rowMajor_val_three, Shape.rowMajor_val_two]
  show a.val * N + r.val = (a.val * B + b.val) * C + c.val
  rw [hr, hN]
  ring

end Cert.Lib.SplitCols

end
-- ==== Proof.KValue.lean ====
/-
  The kernel program's two results read at an entry.

  Each result is a scatter-add into zeros, by the padded target indices, of one output array of the pallas call. The
  640 padding positions carry the index 20000, which is no node, so they add nothing; on the first 400000 rows the
  arrays the call read are the arguments' rows (gathered, or copied), so row e of the call's outputs is edge e's
  message.
-/
import proofs.«108081_j71390946394547_1_alg».proof.Proof.KTail
import proofs.«108081_j71390946394547_1_alg».proof.Proof.KBlocks
import proofs.«108081_j71390946394547_1_alg».proof.Proof.KHost
import proofs.«108081_j71390946394547_1_alg».proof.Proof.SpecAlg
import proofs.«108081_j71390946394547_1_alg».proof.Proof.LibRowGatherScatter
import proofs.«108081_j71390946394547_1_alg».proof.Proof.LibRowGatherScatter3
import proofs.«108081_j71390946394547_1_alg».proof.Proof.LibSplitCols
import Idealize.ShloMosaic.PureOps.Ideal.Laws

set_option maxRecDepth 16384

noncomputable section

namespace Cert.KValue

open Cert.KernelIdeal Cert.KernelIdeal.Gen Idealize.ShloMosaic Idealize.ShloMosaic.TcCoe Idealize.SL.Sem
open Idealize.ShloMosaic.ValueIdx Cert.Msg Cert.KHost Cert.KBlocks

variable (m : (ℓ : Loc nD τ sig) → Buf (Elt Ideal) ℓ) (c : Dev nD)

/-! ## The first 400000 rows are the edges -/

/-- Position e < 400000 among the padded positions. -/
abbrev lo (e : Fin 400000) : Fin 400640 := ⟨e.val, by omega⟩

theorem kw_eq : kw m c = (kargs m c).wts := by
  unfold kw KPay.bwts Args.wts
  simp only [V_W1 m c, V_W2 m c, V_Wr m c, V27_apply m c, V28_apply m c, V29_apply m c]

theorem kX_lo (e : Fin 400000) (q : Fin 384) : kX m c (lo e) q = (kargs m c).X e q := by
  unfold kX Args.X
  rw [kw_eq m c]
  simp only [lo, V17_apply m c e, V8_apply m c e, V26_apply m c e]

theorem kX_lo_fun (e : Fin 400000) : kX m c (lo e) = (kargs m c).X e := funext fun q => kX_lo m c e q

theorem kvj_lo (e : Fin 400000) : kvj m c (lo e) = (kargs m c).vj e := by
  funext k h
  unfold kvj Args.vj
  exact V25_apply m c e k h

theorem kev_lo (e : Fin 400000) : kev m c (lo e) = (kargs m c).evr e := by
  funext k
  unfold kev Args.evr
  exact V10_apply m c e k

/-! ## The index and zero arrays of the scatter-adds -/

theorem idx_apply (e : Fin 400640) :
    broadcastInDim S400640x1 ![0] bcast_S400640_S400640x1_0 (V m c main_v5 : S400640.Idx → BitVec 32) (ix2 e (0 : Fin 1))
      = V m c main_v5 (ix1 e) :=
  broadcastInDim_apply _ bcast_S400640_S400640x1_0 _ (ix2 e (0 : Fin 1)) (ix1 e) (fun a => match a with
    | ⟨0, _⟩ => by show e.val = if (400640 : Nat) = 1 then 0 else e.val; rw [if_neg (by decide)])

theorem zero2_apply (i : S20000x128.Idx) :
    broadcastInDim S20000x128 ![] bcast_S_S20000x128 (constant (F := Ideal) S_ .f32 0x00000000#32) i = 0 := by
  rw [broadcastInDim_apply _ bcast_S_S20000x128 _ i (fun a => a.elim0) (fun a => a.elim0), constant_apply,
    Ideal.ofBits_zero_f32]

theorem zero3_apply (i : S20000x3x128.Idx) :
    broadcastInDim S20000x3x128 ![] bcast_S_S20000x3x128 (constant (F := Ideal) S_ .f32 0x00000000#32) i = 0 := by
  rw [broadcastInDim_apply _ bcast_S_S20000x3x128 _ i (fun a => a.elim0) (fun a => a.elim0), constant_apply,
    Ideal.ofBits_zero_f32]

/-- A padding position points at no node. -/
theorem pad_ne (e : Fin 400640) (he : 400000 ≤ e.val) (n : Fin 20000) :
    ¬ (V m c main_v5 (ix1 e)).toInt = (n.val : Int) := by
  rw [V5_hi m c e he]
  have hn := n.isLt
  have h20 : (20000#32 : BitVec 32).toInt = 20000 := by decide
  rw [h20]
  omega

private theorem sc2_rec :
    scatter_S20000x128_S400640x1_S400640x128_1_0_0_1
      = Cert.Lib.RowPass.scD 20000 400640 128 Facts₀.scatter_S20000x128_S400640x1_S400640x128_1_0_0_1_wf := rfl

private theorem sc3_rec :
    scatter_S20000x3x128_S400640x1_S400640x3x128_12_0_0_1
      = Cert.Lib.RowPass3.scD 20000 400640 3 128 Facts₀.scatter_S20000x3x128_S400640x1_S400640x3x128_12_0_0_1_wf := rfl

/-! ## The results -/

/-- The first result at (n, h): the sum of the scalar messages of the edges pointing at n. -/
theorem ds_apply (n : Fin 20000) (h : Fin 128) :
    (Pipeline.afterTail₀ cfgs (dats m) 0 (V0 m) [hostOps1] c main_v33 : S20000x128.Idx → EReal) (ix2 n h)
      = (kargs m c).ds n h := by
  rw [KTail.tail33 m c, final11 m c]
  unfold Host.scatterAdd
  rw [Ideal.hostScatterAdd_def, sc2_rec, Cert.Lib.RowPass.sc_apply]
  unfold Args.ds
  refine congrArg₂ (· + ·) (zero2_apply (ix2 n h)) ?_
  rw [sum_cut _ (fun i hi => by rw [idx_apply m c i, if_neg (pad_ne m c i hi n)])]
  refine Finset.sum_congr rfl fun e _ => ?_
  rw [idx_apply m c, V5_lo m c e]
  refine if_congr Iff.rfl ?_ rfl
  exact kX_lo m c e (qss h)

/-- The second result at (n, k, h): the combined form of the vector output. -/
theorem dv_apply (n : Fin 20000) (k : Fin 3) (h : Fin 128) :
    (Pipeline.afterTail₀ cfgs (dats m) 0 (V0 m) [hostOps1] c main_v37 : S20000x3x128.Idx → EReal) (ix3 n k h)
      = (kargs m c).dvKer n k h := by
  rw [KTail.tail37 m c, final12 m c]
  unfold Host.scatterAdd
  rw [Ideal.hostScatterAdd_def, sc3_rec, Cert.Lib.RowPass3.sc_apply]
  unfold Args.dvKer
  refine congrArg₂ (· + ·) (zero3_apply (ix3 n k h)) ?_
  rw [sum_cut _ (fun i hi => by rw [idx_apply m c i, if_neg (pad_ne m c i hi n)])]
  refine Finset.sum_congr rfl fun e _ => ?_
  rw [idx_apply m c, V5_lo m c e]
  refine if_congr Iff.rfl ?_ rfl
  rw [Cert.Lib.SplitCols.split_apply (A := 400640) (B := 3) (C := 128) (N := 384) _ shapeCasts_S400640x384_S400640x3x128 rfl
    (lo e) k h (⟨k.val * 128 + h.val, by omega⟩ : Fin 384) rfl, dvEdge_apply, kX_lo_fun m c e, kvj_lo m c e, kev_lo m c e]
  congr 1
  · exact Fin.ext (by show (k.val * 128 + h.val) / 128 = k.val; have := h.isLt; omega)
  · exact Fin.ext (by show (k.val * 128 + h.val) % 128 = h.val; have := h.isLt; omega)

end Cert.KValue

end
-- ==== Proof.RefX.lean ====
/-
  The reference's filter values: stage %27 of its program, read at an entry, is the edge's filter value.
-/
import proofs.«108081_j71390946394547_1_alg».proof.Proof.Gen.ReferenceIdeal.Read
import proofs.«108081_j71390946394547_1_alg».proof.Proof.Spec
import proofs.«108081_j71390946394547_1_alg».proof.Proof.LibRowGatherScatter
import Idealize.ShloMosaic.Lib.IdealHost

noncomputable section

namespace Cert.RefValue

open Cert.ReferenceIdeal Cert.ReferenceIdeal.Read Idealize.ShloMosaic Idealize.ShloMosaic.ValueIdx Cert.Msg

variable (x0 : (⟨S20000x128, .f32⟩ : BufTy).Contents (Elt Ideal)) (x1 : (⟨S20000x3x128, .f32⟩ : BufTy).Contents (Elt Ideal))
  (x2 : (⟨S400000x20, .f32⟩ : BufTy).Contents (Elt Ideal)) (x3 : (⟨S400000, .f32⟩ : BufTy).Contents (Elt Ideal))
  (x4 : (⟨S400000x3, .f32⟩ : BufTy).Contents (Elt Ideal)) (x5 : (⟨S128x128, .f32⟩ : BufTy).Contents (Elt Ideal))
  (x6 : (⟨S128, .f32⟩ : BufTy).Contents (Elt Ideal)) (x7 : (⟨S128x384, .f32⟩ : BufTy).Contents (Elt Ideal))
  (x8 : (⟨S384, .f32⟩ : BufTy).Contents (Elt Ideal)) (x9 : (⟨S20x384, .f32⟩ : BufTy).Contents (Elt Ideal))
  (x10 : (⟨S384, .f32⟩ : BufTy).Contents (Elt Ideal)) (x11 : (⟨S2x400000, .i32⟩ : BufTy).Contents (Elt Ideal))

/-- The reference's arguments as the layer's arguments. -/
abbrev args : Cert.Msg.Args := Cert.Msg.Args.mk x0 x1 x2 x3 x4 x5 x6 x7 x8 x9 x10 x11

/-- The program's row-gather record is the general row gather's. -/
private theorem gather_rec_eq :
    gather_S20000x128_S400000x1_S400000x128_1_0_n_n_0_1_1128
      = Cert.Lib.RowPass.gaD 20000 400000 128 Facts₀.gather_S20000x128_S400000x1_S400000x128_1_0_n_n_0_1_1128_wf := rfl

/-- The index word the gather reads for edge e: the word in the second row of the index array, wrapped. -/
private theorem src_word (e : Fin 400000) :
    val_main_v16 (F := Ideal) x11 (ix2 e 0) = wrapIdx (x11 (ix2 1 e)) := by
  have hidx : idx_main_v2 (idx_main_v3 (idx_main_v16 (ix2 e (0 : Fin 1)))) = ix2 1 e :=
    funext fun a => Fin.ext (by
      match a with
      | ⟨0, _⟩ => rfl
      | ⟨1, _⟩ => exact Nat.mod_eq_of_lt e.isLt)
  rw [val_main_v16_apply, val_main_v15_apply, val_main_v12_apply, val_main_v14_apply, val_main_v11_apply,
    val_main_v13_apply, val_main_c_apply, val_main_c_0_apply, val_main_v3_apply, val_main_v2_apply, hidx]
  rfl

/-- Row e of the gathered source features is row src e of s. -/
theorem gathered_s_apply (e : Fin 400000) (t : Fin 128) :
    val_main_v17 (F := Ideal) x0 x11 (ix2 e t) = x0 (ix2 ((args x0 x1 x2 x3 x4 x5 x6 x7 x8 x9 x10 x11).src e) t) := by
  unfold val_main_v17
  rw [gather_rec_eq]
  refine (Cert.Lib.RowPass.ga_apply _ (by decide) x0 (val_main_v16 (F := Ideal) x11) e t).trans ?_
  refine congrArg (fun r => x0 (ix2 r t)) (Fin.ext ?_)
  show min (val_main_v16 (F := Ideal) x11 (ix2 e 0)).toInt.toNat (20000 - 1)
    = min (wrapIdx (x11 (ix2 1 e))).toInt.toNat (20000 - 1)
  rw [src_word]

/-- Stage %21 (the first layer with its bias) at (e, k) is lin k on the gathered row. -/
private theorem lin_apply (e : Fin 400000) (k : Fin 128) :
    val_main_v21 (F := Ideal) x0 x5 x6 x11 (ix2 e k)
      = lin (args x0 x1 x2 x3 x4 x5 x6 x7 x8 x9 x10 x11).wts
          (fun t => x0 (ix2 ((args x0 x1 x2 x3 x4 x5 x6 x7 x8 x9 x10 x11).src e) t)) k := by
  have hl : ∀ t : Fin 128, lidx_main_v18 (ix2 e k) t = ix2 e t := fun t =>
    funext fun a => Fin.ext (by match a with | ⟨0, _⟩ => rfl | ⟨1, _⟩ => rfl)
  have hr : ∀ t : Fin 128, ridx_main_v18 (ix2 e k) t = ix2 t k := fun t =>
    funext fun a => Fin.ext (by match a with | ⟨0, _⟩ => rfl | ⟨1, _⟩ => rfl)
  have hb : idx_main_v19 (idx_main_v20 (ix2 e k)) = ix1 k :=
    funext fun a => Fin.ext (by match a with | ⟨0, _⟩ => rfl)
  rw [val_main_v21_apply, val_main_v18_apply, val_main_v20_apply, val_main_v19_apply, hb]
  simp only [hl, hr, gathered_s_apply x0 x1 x2 x3 x4 x5 x6 x7 x8 x9 x10 x11, Ideal.addf_def]
  rfl

/-- Stage %22 (the silu of the first layer) at (e, k) is act k on the gathered row. -/
private theorem act_apply (e : Fin 400000) (k : Fin 128) :
    val_main_v22 (F := Ideal) x0 x5 x6 x11 (ix2 e k)
      = act (args x0 x1 x2 x3 x4 x5 x6 x7 x8 x9 x10 x11).wts
          (fun t => x0 (ix2 ((args x0 x1 x2 x3 x4 x5 x6 x7 x8 x9 x10 x11).src e) t)) k := by
  rw [val_main_v22_apply, val_main_call0_v5_apply, val_main_call0_v4_apply, val_main_call0_cst_0_apply,
    val_main_call0_v3_apply, val_main_call0_v2_apply, val_main_call0_cst_apply, val_main_call0_v1_apply,
    val_main_call0_v0_apply, lin_apply x0 x1 x2 x3 x4 x5 x6 x7 x8 x9 x10 x11]
  simp only [Ideal.mulf_def, Ideal.addf_def, Ideal.hostDivf_def, Ideal.hostUnary_exp_def, Ideal.hostNegf_def,
    Ideal.negf_def, Ideal.ofBits_def, Ideal.ofBits_one_f32]
  rfl

/-- Stage %10 (the radial projection with its bias, times the cutoff) at (e, q) is gate q. -/
private theorem gate_apply (e : Fin 400000) (q : Fin 384) :
    val_main_v10 (F := Ideal) x2 x3 x9 x10 (ix2 e q)
      = gate (args x0 x1 x2 x3 x4 x5 x6 x7 x8 x9 x10 x11).wts (fun r => x2 (ix2 e r)) (x3 (ix1 e)) q := by
  have hl : ∀ r : Fin 20, lidx_main_v4 (ix2 e q) r = ix2 e r := fun r =>
    funext fun a => Fin.ext (by match a with | ⟨0, _⟩ => rfl | ⟨1, _⟩ => rfl)
  have hr : ∀ r : Fin 20, ridx_main_v4 (ix2 e q) r = ix2 r q := fun r =>
    funext fun a => Fin.ext (by match a with | ⟨0, _⟩ => rfl | ⟨1, _⟩ => rfl)
  have hb : idx_main_v5 (idx_main_v6 (ix2 e q)) = ix1 q :=
    funext fun a => Fin.ext (by match a with | ⟨0, _⟩ => rfl)
  have hc : idx_main_v8 (idx_main_v9 (ix2 e q)) = ix1 e :=
    funext fun a => Fin.ext (by match a with | ⟨0, _⟩ => rfl)
  rw [val_main_v10_apply, val_main_v7_apply, val_main_v4_apply, val_main_v6_apply, val_main_v5_apply, hb,
    val_main_v9_apply, val_main_v8_apply, hc]
  simp only [hl, hr, Ideal.addf_def, Ideal.mulf_def]
  rfl

/-- Stage %27 (the product of the second layer and the gate) at (e, q) is edge e's filter value q. -/
theorem x_apply (e : Fin 400000) (q : Fin 384) :
    val_main_v27 (F := Ideal) x0 x2 x3 x5 x6 x7 x8 x9 x10 x11 (ix2 e q)
      = (args x0 x1 x2 x3 x4 x5 x6 x7 x8 x9 x10 x11).X e q := by
  have hl : ∀ k : Fin 128, lidx_main_v23 (ix2 e q) k = ix2 e k := fun k =>
    funext fun a => Fin.ext (by match a with | ⟨0, _⟩ => rfl | ⟨1, _⟩ => rfl)
  have hr : ∀ k : Fin 128, ridx_main_v23 (ix2 e q) k = ix2 k q := fun k =>
    funext fun a => Fin.ext (by match a with | ⟨0, _⟩ => rfl | ⟨1, _⟩ => rfl)
  have hb : idx_main_v24 (idx_main_v25 (ix2 e q)) = ix1 q :=
    funext fun a => Fin.ext (by match a with | ⟨0, _⟩ => rfl)
  rw [val_main_v27_apply, val_main_v26_apply, val_main_v23_apply, val_main_v25_apply, val_main_v24_apply, hb,
    gate_apply x0 x1 x2 x3 x4 x5 x6 x7 x8 x9 x10 x11]
  simp only [hl, hr, act_apply x0 x1 x2 x3 x4 x5 x6 x7 x8 x9 x10 x11, Ideal.addf_def, Ideal.mulf_def]
  rfl

end Cert.RefValue

end
-- ==== Proof.RefDs.lean ====
/-
  The reference's scalar output read at an entry.
-/
import proofs.«108081_j71390946394547_1_alg».proof.Proof.RefX

noncomputable section

namespace Cert.RefValue

open Cert.ReferenceIdeal Cert.ReferenceIdeal.Read Idealize.ShloMosaic Idealize.ShloMosaic.ValueIdx Cert.Msg

variable (x0 : (⟨S20000x128, .f32⟩ : BufTy).Contents (Elt Ideal)) (x1 : (⟨S20000x3x128, .f32⟩ : BufTy).Contents (Elt Ideal))
  (x2 : (⟨S400000x20, .f32⟩ : BufTy).Contents (Elt Ideal)) (x3 : (⟨S400000, .f32⟩ : BufTy).Contents (Elt Ideal))
  (x4 : (⟨S400000x3, .f32⟩ : BufTy).Contents (Elt Ideal)) (x5 : (⟨S128x128, .f32⟩ : BufTy).Contents (Elt Ideal))
  (x6 : (⟨S128, .f32⟩ : BufTy).Contents (Elt Ideal)) (x7 : (⟨S128x384, .f32⟩ : BufTy).Contents (Elt Ideal))
  (x8 : (⟨S384, .f32⟩ : BufTy).Contents (Elt Ideal)) (x9 : (⟨S20x384, .f32⟩ : BufTy).Contents (Elt Ideal))
  (x10 : (⟨S384, .f32⟩ : BufTy).Contents (Elt Ideal)) (x11 : (⟨S2x400000, .i32⟩ : BufTy).Contents (Elt Ideal))

/-- The program's row scatter-add record is the general row scatter-add's. -/
private theorem scatter_rec_eq :
    scatter_S20000x128_S400000x1_S400000x128_1_0_0_1
      = Cert.Lib.RowPass.scD 20000 400000 128 Facts₀.scatter_S20000x128_S400000x1_S400000x128_1_0_0_1_wf := rfl

/-- The index word the scatter reads for edge e: the word in the first row of the index array. -/
private theorem dst_word (e : Fin 400000) :
    val_main_v32 (F := Ideal) x11 (ix2 e 0) = x11 (ix2 0 e) := by
  have hidx : idx_main_v0 (idx_main_v1 (idx_main_v32 (ix2 e (0 : Fin 1)))) = ix2 0 e :=
    funext fun a => Fin.ext (by
      match a with
      | ⟨0, _⟩ => rfl
      | ⟨1, _⟩ => exact Nat.mod_eq_of_lt e.isLt)
  rw [val_main_v32_apply, val_main_v1_apply, val_main_v0_apply, hidx]

/-- The reference's first result at (n, h) is the sum of the scalar messages of the edges pointing at n. -/
theorem ds_apply (n : Fin 20000) (h : Fin 128) :
    val_main_v33 (F := Ideal) x0 x2 x3 x5 x6 x7 x8 x9 x10 x11 (ix2 n h)
      = (args x0 x1 x2 x3 x4 x5 x6 x7 x8 x9 x10 x11).ds n h := by
  have hu : ∀ e : Fin 400000, idx_main_v28 (ix2 e h) = ix2 e (qss h) := fun e =>
    funext fun a => Fin.ext (by match a with | ⟨0, _⟩ => rfl | ⟨1, _⟩ => rfl)
  unfold val_main_v33 Host.scatterAdd
  rw [Ideal.hostScatterAdd_def, scatter_rec_eq, Cert.Lib.RowPass.sc_apply]
  unfold Args.ds
  refine congrArg₂ (· + ·) ?_ ?_
  · rw [val_main_v31_apply, val_main_cst_apply, Ideal.ofBits_def, Ideal.ofBits_zero_f32]
  · refine Finset.sum_congr rfl fun e _ => ?_
    rw [dst_word, val_main_v28_apply, hu, x_apply x0 x1 x2 x3 x4 x5 x6 x7 x8 x9 x10 x11]
    exact if_congr Iff.rfl rfl rfl

/-- The reference's first result as an array. -/
theorem ds_eq :
    val_main_v33 (F := Ideal) x0 x2 x3 x5 x6 x7 x8 x9 x10 x11
      = (args x0 x1 x2 x3 x4 x5 x6 x7 x8 x9 x10 x11).dsArr := by
  funext i
  obtain ⟨n, h, rfl⟩ : ∃ (n : Fin 20000) (h : Fin 128), i = ix2 n h := ⟨i 0, i 1, eq_ix2 i⟩
  exact ds_apply x0 x1 x2 x3 x4 x5 x6 x7 x8 x9 x10 x11 n h

end Cert.RefValue

end
-- ==== Proof.RefDv.lean ====
/-
  The reference's vector output read at an entry.
-/
import proofs.«108081_j71390946394547_1_alg».proof.Proof.RefX
import proofs.«108081_j71390946394547_1_alg».proof.Proof.LibRowGatherScatter3

noncomputable section

namespace Cert.RefValue

open Cert.ReferenceIdeal Cert.ReferenceIdeal.Read Idealize.ShloMosaic Idealize.ShloMosaic.ValueIdx Cert.Msg

variable (x0 : (⟨S20000x128, .f32⟩ : BufTy).Contents (Elt Ideal)) (x1 : (⟨S20000x3x128, .f32⟩ : BufTy).Contents (Elt Ideal))
  (x2 : (⟨S400000x20, .f32⟩ : BufTy).Contents (Elt Ideal)) (x3 : (⟨S400000, .f32⟩ : BufTy).Contents (Elt Ideal))
  (x4 : (⟨S400000x3, .f32⟩ : BufTy).Contents (Elt Ideal)) (x5 : (⟨S128x128, .f32⟩ : BufTy).Contents (Elt Ideal))
  (x6 : (⟨S128, .f32⟩ : BufTy).Contents (Elt Ideal)) (x7 : (⟨S128x384, .f32⟩ : BufTy).Contents (Elt Ideal))
  (x8 : (⟨S384, .f32⟩ : BufTy).Contents (Elt Ideal)) (x9 : (⟨S20x384, .f32⟩ : BufTy).Contents (Elt Ideal))
  (x10 : (⟨S384, .f32⟩ : BufTy).Contents (Elt Ideal)) (x11 : (⟨S2x400000, .i32⟩ : BufTy).Contents (Elt Ideal))

/-- The printed scatter record is the general row scatter's. -/
private theorem scatter_eq :
    scatter_S20000x3x128_S400000x1_S400000x3x128_12_0_0_1
      = Cert.Lib.RowPass3.scD 20000 400000 3 128 Facts₀.scatter_S20000x3x128_S400000x1_S400000x3x128_12_0_0_1_wf := rfl

/-- The printed gather record is the general row gather's. -/
private theorem gather_eq :
    gather_S20000x3x128_S400000x1_S400000x3x128_12_0_n_n_0_1_13128
      = Cert.Lib.RowPass3.gaD 20000 400000 3 128 Facts₀.gather_S20000x3x128_S400000x1_S400000x3x128_12_0_n_n_0_1_13128_wf := rfl

/-- The row scatter-add of the program read at (n, c, h). -/
private theorem sc_read (x : (⟨S20000x3x128, .f32⟩ : BufTy).Contents (Elt Ideal))
    (idx : (⟨S400000x1, .i32⟩ : BufTy).Contents (Elt Ideal)) (upd : (⟨S400000x3x128, .f32⟩ : BufTy).Contents (Elt Ideal))
    (n : Fin 20000) (c : Fin 3) (h : Fin 128) :
    Host.scatterAdd (F := Ideal) (φ := .f32) scatter_S20000x3x128_S400000x1_S400000x3x128_12_0_0_1 x idx upd (ix3 n c h)
      = x (ix3 n c h) + ∑ e : Fin 400000, if (idx (ix2 e 0)).toInt = (n.val : Int) then upd (ix3 e c h) else 0 := by
  rw [scatter_eq]
  exact Cert.Lib.RowPass3.sc_apply _ x idx upd n c h

/-- The scatter's index array at edge e is the first row of the edge index array. -/
private theorem dst40 (e : Fin 400000) : val_main_v40 (F := Ideal) x11 (ix2 e 0) = x11 (ix2 0 e) := by
  rw [val_main_v40_apply, val_main_v1_apply, val_main_v0_apply]
  refine congrArg x11 (funext fun a => Fin.ext ?_)
  match a with
  | ⟨0, _⟩ => rfl
  | ⟨1, _⟩ => exact Nat.mod_eq_of_lt e.isLt

private theorem dst60 (e : Fin 400000) : val_main_v60 (F := Ideal) x11 (ix2 e 0) = x11 (ix2 0 e) := by
  rw [val_main_v60_apply, val_main_v1_apply, val_main_v0_apply]
  refine congrArg x11 (funext fun a => Fin.ext ?_)
  match a with
  | ⟨0, _⟩ => rfl
  | ⟨1, _⟩ => exact Nat.mod_eq_of_lt e.isLt

/-- The broadcast direction array at (e, c, h) is the direction's component c. -/
private theorem ev37 (e : Fin 400000) (c : Fin 3) (h : Fin 128) :
    val_main_v37 (F := Ideal) x4 (ix3 e c h) = x4 (ix2 e c) := by
  rw [val_main_v37_apply, val_main_v35_apply]
  refine congrArg x4 (funext fun a => Fin.ext ?_)
  match a with
  | ⟨0, _⟩ => rfl
  | ⟨1, _⟩ => rfl

private theorem ev50 (e : Fin 400000) (c : Fin 3) (h : Fin 128) :
    val_main_v50 (F := Ideal) x4 (ix3 e c h) = x4 (ix2 e c) := by
  rw [val_main_v50_apply, val_main_v49_apply]
  refine congrArg x4 (funext fun a => Fin.ext ?_)
  match a with
  | ⟨0, _⟩ => rfl
  | ⟨1, _⟩ => rfl

private theorem ev57 (e : Fin 400000) (c : Fin 3) (h : Fin 128) :
    val_main_v57 (F := Ideal) x4 (ix3 e c h) = x4 (ix2 e c) := by
  rw [val_main_v57_apply, val_main_v55_apply]
  refine congrArg x4 (funext fun a => Fin.ext ?_)
  match a with
  | ⟨0, _⟩ => rfl
  | ⟨1, _⟩ => rfl

/-- The broadcast second group of filter values at (e, c, h) is edge e's filter value 128 + h. -/
private theorem x36 (e : Fin 400000) (c : Fin 3) (h : Fin 128) :
    val_main_v36 (F := Ideal) x0 x2 x3 x5 x6 x7 x8 x9 x10 x11 (ix3 e c h)
      = (args x0 x1 x2 x3 x4 x5 x6 x7 x8 x9 x10 x11).X e (qsv h) := by
  rw [val_main_v36_apply, val_main_v34_apply, val_main_v29_apply,
    ← x_apply x0 x1 x2 x3 x4 x5 x6 x7 x8 x9 x10 x11 e (qsv h)]
  refine congrArg (val_main_v27 (F := Ideal) x0 x2 x3 x5 x6 x7 x8 x9 x10 x11) (funext fun a => Fin.ext ?_)
  match a with
  | ⟨0, _⟩ => rfl
  | ⟨1, _⟩ => rfl

/-- The third group of filter values at (e, h) is edge e's filter value 256 + h. -/
private theorem x30 (e : Fin 400000) (h : Fin 128) :
    val_main_v30 (F := Ideal) x0 x2 x3 x5 x6 x7 x8 x9 x10 x11 (ix2 e h)
      = (args x0 x1 x2 x3 x4 x5 x6 x7 x8 x9 x10 x11).X e (qvv h) := by
  rw [val_main_v30_apply, ← x_apply x0 x1 x2 x3 x4 x5 x6 x7 x8 x9 x10 x11 e (qvv h)]
  refine congrArg (val_main_v27 (F := Ideal) x0 x2 x3 x5 x6 x7 x8 x9 x10 x11) (funext fun a => Fin.ext ?_)
  match a with
  | ⟨0, _⟩ => rfl
  | ⟨1, _⟩ => rfl

/-- The second row of the edge index array, as the flat stage reads it. -/
private theorem src3 (e : Fin 400000) : val_main_v3 (F := Ideal) x11 (ix1 e) = x11 (ix2 1 e) := by
  rw [val_main_v3_apply, val_main_v2_apply]
  refine congrArg x11 (funext fun a => Fin.ext ?_)
  match a with
  | ⟨0, _⟩ => rfl
  | ⟨1, _⟩ => exact Nat.mod_eq_of_lt e.isLt

/-- The gather's start index at edge e is the wrapped source index word. -/
private theorem w47 (e : Fin 400000) : val_main_v47 (F := Ideal) x11 (ix2 e 0) = wrapIdx (x11 (ix2 1 e)) := by
  have hi : idx_main_v47 (ix2 e (0 : Fin 1)) = ix1 e := funext fun a => Fin.ext (by match a with | ⟨0, _⟩ => rfl)
  rw [val_main_v47_apply, hi, val_main_v46_apply, val_main_v43_apply, val_main_v45_apply, src3,
    val_main_v42_apply, val_main_c_2_apply, val_main_v44_apply, val_main_c_3_apply]
  rfl

/-- The gathered vectors at (e, k, h): row src e of v. -/
private theorem g48 (e : Fin 400000) (k : Fin 3) (h : Fin 128) :
    val_main_v48 (F := Ideal) x1 x11 (ix3 e k h) = x1 (ix3 (srcRow (x11 (ix2 1 e))) k h) := by
  unfold val_main_v48
  rw [gather_eq]
  refine (Cert.Lib.RowPass3.ga_apply _ (by decide) x1 (val_main_v47 (F := Ideal) x11) e k h).trans ?_
  refine congrArg (fun r : Fin 20000 => x1 (ix3 r k h)) (Fin.ext ?_)
  show min (val_main_v47 (F := Ideal) x11 (ix2 e 0)).toInt.toNat (20000 - 1)
    = min (wrapIdx (x11 (ix2 1 e))).toInt.toNat (20000 - 1)
  rw [w47]

/-- The inner product of the gathered vectors with the direction at (e, h), from the zero initial value. -/
private theorem s52 (e : Fin 400000) (h : Fin 128) :
    val_main_v52 (F := Ideal) x1 x4 x11 (ix2 e h)
      = 0 + ∑ k : Fin 3, x1 (ix3 (srcRow (x11 (ix2 1 e))) k h) * x4 (ix2 e k) := by
  rw [val_main_v52_apply, val_main_cst_4_apply, Ideal.ofBits_def, Ideal.ofBits_zero_f32]
  refine congrArg (0 + ·) (Finset.sum_congr rfl fun k _ => ?_)
  have hi : idx_main_v52 (ix2 e h) k = ix3 e k h :=
    funext fun a => Fin.ext (by match a with | ⟨0, _⟩ => rfl | ⟨1, _⟩ => rfl | ⟨2, _⟩ => rfl)
  rw [hi, val_main_v51_apply, g48, ev50, Ideal.mulf_def]

/-- The first scatter's update at (e, c, h) is the first term of edge e's vector message. -/
private theorem u38 (e : Fin 400000) (c : Fin 3) (h : Fin 128) :
    val_main_v38 (F := Ideal) x0 x2 x3 x4 x5 x6 x7 x8 x9 x10 x11 (ix3 e c h)
      = dvR1 ((args x0 x1 x2 x3 x4 x5 x6 x7 x8 x9 x10 x11).X e) ((args x0 x1 x2 x3 x4 x5 x6 x7 x8 x9 x10 x11).evr e) c h := by
  rw [val_main_v38_apply, x36 x0 x1 x2 x3 x4 x5 x6 x7 x8 x9 x10 x11 e c h, ev37, Ideal.mulf_def]
  rfl

/-- The second scatter's update at (e, c, h) is the second term of edge e's vector message. -/
private theorem u58 (e : Fin 400000) (c : Fin 3) (h : Fin 128) :
    val_main_v58 (F := Ideal) x0 x1 x2 x3 x4 x5 x6 x7 x8 x9 x10 x11 (ix3 e c h)
      = dvR2 ((args x0 x1 x2 x3 x4 x5 x6 x7 x8 x9 x10 x11).X e) ((args x0 x1 x2 x3 x4 x5 x6 x7 x8 x9 x10 x11).vj e)
          ((args x0 x1 x2 x3 x4 x5 x6 x7 x8 x9 x10 x11).evr e) c h := by
  have hi : idx_main_v54 (idx_main_v56 (ix3 e c h)) = ix2 e h :=
    funext fun a => Fin.ext (by match a with | ⟨0, _⟩ => rfl | ⟨1, _⟩ => rfl)
  rw [val_main_v58_apply, val_main_v56_apply, val_main_v54_apply, hi, val_main_v53_apply, s52,
    x30 x0 x1 x2 x3 x4 x5 x6 x7 x8 x9 x10 x11 e h, ev57, Ideal.mulf_def, Ideal.mulf_def]
  rfl

/-- The reference's second result at (n, c, h) is the two-term form of the vector output. -/
theorem dv_apply (n : Fin 20000) (c : Fin 3) (h : Fin 128) :
    val_main_v62 (F := Ideal) x0 x1 x2 x3 x4 x5 x6 x7 x8 x9 x10 x11 (ix3 n c h)
      = (args x0 x1 x2 x3 x4 x5 x6 x7 x8 x9 x10 x11).dvRef n c h := by
  rw [val_main_v62_apply, Ideal.addf_def]
  unfold val_main_v41 val_main_v61
  rw [sc_read, sc_read, val_main_v39_apply, val_main_cst_1_apply, val_main_v59_apply, val_main_cst_5_apply,
    Ideal.ofBits_def, Ideal.ofBits_zero_f32]
  unfold Args.dvRef
  refine congrArg₂ (· + ·) (congrArg (0 + ·) (Finset.sum_congr rfl fun e _ => ?_))
    (congrArg (0 + ·) (Finset.sum_congr rfl fun e _ => ?_))
  · refine if_congr ?_ (u38 x0 x1 x2 x3 x4 x5 x6 x7 x8 x9 x10 x11 e c h) rfl
    rw [dst40]
    exact Iff.rfl
  · refine if_congr ?_ (u58 x0 x1 x2 x3 x4 x5 x6 x7 x8 x9 x10 x11 e c h) rfl
    rw [dst60]
    exact Iff.rfl

/-- The reference's second result as an array. -/
theorem dv_eq :
    val_main_v62 (F := Ideal) x0 x1 x2 x3 x4 x5 x6 x7 x8 x9 x10 x11
      = (args x0 x1 x2 x3 x4 x5 x6 x7 x8 x9 x10 x11).dvRefArr := by
  funext i
  obtain ⟨n, c, h, rfl⟩ : ∃ (n : Fin 20000) (c : Fin 3) (h : Fin 128), i = ix3 n c h := ⟨i 0, i 1, i 2, eq_ix3 i⟩
  exact dv_apply x0 x1 x2 x3 x4 x5 x6 x7 x8 x9 x10 x11 n c h

end Cert.RefValue

end
-- ==== Proof.LibFiniteEntries.lean ====
/-
  A finiteness precondition read back, one array at a time (a general lemma: nothing here depends on a program).

  A precondition "every entry of a is finite" compares the absolute value of each entry with plus infinity and
  takes the conjunction over the array.  At the exact values an extended real whose absolute value is below plus
  infinity is neither infinity, so it is a real number; hence, when the conjunction over the whole array is true,
  every entry of the array is a real number.  Any shape, any reduced axes as long as the result has one index.
-/
import Idealize.ShloMosaic.Lib.ReduceAll
import Idealize.ShloMosaic.Lib.ValueIdx
import Idealize.ShloMosaic.PureOps.Ideal

noncomputable section

namespace Cert.Lib.FiniteEntries

open Idealize.ShloMosaic

/-- The f32 pattern 0x7F800000 denotes plus infinity. -/
theorem ofBits_inf_f32 : Ideal.ofBits .f32 0x7F800000#32 = ⊤ := by simp [Ideal.ofBits, Ideal.ieee]

/-- An extended real whose absolute value is below plus infinity is a real number. -/
theorem real_of_abs_lt (x : EReal) (h : Ideal.cmp .olt (max x (-x)) (Ideal.ofBits .f32 0x7F800000#32) = 1#1) :
    ∃ r : ℝ, x = (r : EReal) := by
  rw [ofBits_inf_f32] at h
  induction x using EReal.rec with
  | bot => simp [Ideal.cmp] at h
  | coe r => exact ⟨r, rfl⟩
  | top => simp [Ideal.cmp] at h

/-- When the conjunction over a whole f32 array of "absolute value below plus infinity" is true, every entry of the
    array is a real number. -/
theorem reals_of_all_abs_lt {s u t : Shape} {axes : List (Fin s.rank)} [Subsingleton t.Idx] (a : FVec Ideal s .f32)
    (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi
        (cmpf .olt (Host.absf a) (broadcastInDim s ![] hb (constant (F := Ideal) ⟨0, ![]⟩ .f32 0x7F800000#32))) init h hu j = 1#1) :
    ∀ i, ∃ r : ℝ, a i = (r : EReal) :=
  fun i => real_of_abs_lt _ (Host.reduce_andi_all _ _ _ _ _ e i)

end Cert.Lib.FiniteEntries

end
-- ==== Proof.Finite.lean ====
/-
  The precondition read back: every float entry of the arguments is a real number.
-/
import proofs.«108081_j71390946394547_1_alg».proof.Pre_finite_inputs
import proofs.«108081_j71390946394547_1_alg».proof.Proof.Gen.Pre_finite_inputs
import proofs.«108081_j71390946394547_1_alg».proof.Proof.Spec
import proofs.«108081_j71390946394547_1_alg».proof.Proof.LibFiniteEntries

noncomputable section

namespace Cert.FiniteArgs

open Idealize.ShloMosaic Idealize.ShloMosaic.ValueIdx Cert.Pre_finite_inputs

/-- The result shape of a conjunction over all axes has exactly one index. -/
private instance subsingleton_scalar_idx : Subsingleton S_.Idx := ⟨fun a b => funext fun d => d.elim0⟩

/-- The conjunction of two arrays of truth values, read at an index. -/
private theorem andi_at {s : Shape} {w : Nat} (x y : IVec s w) (i : s.Idx) :
    andi x y i = IntOp.andi (x i) (y i) := rfl

/-- If the finiteness predicate of the twelve arguments is all ones, every float entry is a real number. -/
theorem finite_of_pre [Cert.Pre_finite_inputs.Facts]
    (x0 : FVec Ideal S20000x128 .f32) (x1 : FVec Ideal S20000x3x128 .f32) (x2 : FVec Ideal S400000x20 .f32)
    (x3 : FVec Ideal S400000 .f32) (x4 : FVec Ideal S400000x3 .f32) (x5 : FVec Ideal S128x128 .f32)
    (x6 : FVec Ideal S128 .f32) (x7 : FVec Ideal S128x384 .f32) (x8 : FVec Ideal S384 .f32)
    (x9 : FVec Ideal S20x384 .f32) (x10 : FVec Ideal S384 .f32) (x11 : IVec S2x400000 32)
    (h : Cert.Pre_finite_inputs.fn (F := Ideal) x0 x1 x2 x3 x4 x5 x6 x7 x8 x9 x10 x11 = fun _ => 1#1) :
    (Cert.Msg.Args.mk x0 x1 x2 x3 x4 x5 x6 x7 x8 x9 x10 x11).Finite := by
  -- the predicate at its single index: a conjunction of eleven conjunctions over whole arrays
  have h0 := congrFun h ValueIdx.ix0
  dsimp only [fn, fn_part1, fn_part2, fn_part3] at h0
  simp only [andi_at, IntOp.andi_eq_one] at h0
  obtain ⟨⟨⟨⟨⟨⟨⟨⟨⟨⟨e0, e1⟩, e2⟩, e3⟩, e4⟩, e5⟩, e6⟩, e7⟩, e8⟩, e9⟩, e10⟩ := h0
  -- each conjunct says every entry of one array has absolute value below plus infinity
  exact
    { s := Cert.Lib.FiniteEntries.reals_of_all_abs_lt x0 _ _ _ _ _ e0
      v := Cert.Lib.FiniteEntries.reals_of_all_abs_lt x1 _ _ _ _ _ e1
      rbf := Cert.Lib.FiniteEntries.reals_of_all_abs_lt x2 _ _ _ _ _ e2
      cut := Cert.Lib.FiniteEntries.reals_of_all_abs_lt x3 _ _ _ _ _ e3
      ev := Cert.Lib.FiniteEntries.reals_of_all_abs_lt x4 _ _ _ _ _ e4
      W1 := Cert.Lib.FiniteEntries.reals_of_all_abs_lt x5 _ _ _ _ _ e5
      b1 := Cert.Lib.FiniteEntries.reals_of_all_abs_lt x6 _ _ _ _ _ e6
      W2 := Cert.Lib.FiniteEntries.reals_of_all_abs_lt x7 _ _ _ _ _ e7
      b2 := Cert.Lib.FiniteEntries.reals_of_all_abs_lt x8 _ _ _ _ _ e8
      Wr := Cert.Lib.FiniteEntries.reals_of_all_abs_lt x9 _ _ _ _ _ e9
      br := Cert.Lib.FiniteEntries.reals_of_all_abs_lt x10 _ _ _ _ _ e10 }

end Cert.FiniteArgs

end
-- ==== Proof.lean ====
/-
  The certificate: a message-passing layer of a graph network, as a Pallas kernel over blocks of 1280 edges with the
  gathers before it and the segment sums after it on the host, against the plain jnp layer.

  Both programs compute, for every edge e with source j(e) and target i(e), the 384 filter values
      X_e = (silu(s[j(e)] W1 + b1) W2 + b2) * ((rbf_e Wr + br) * cutoff_e)
  and scatter-add per-edge messages to the targets. The scalar output sums X_e's first 128 values. For the vector
  output the kernel adds the two terms first, (X_e[128+h] + <v[j(e)], dir_e>_h * X_e[256+h]) * dir_e[c], and sums once;
  the reference sums X_e[128+h] * dir_e[c] and (<v[j(e)], dir_e>_h * X_e[256+h]) * dir_e[c] separately and adds the
  sums. On the extended reals the two agree because every X_e and every direction entry is a real number when the
  inputs are finite (distributivity fails at opposite infinities, so the precondition is used exactly here). The
  kernel pads the edges to 400640 with target index 20000, which is no node: the padding adds nothing.

  The frames of the two kernel programs are the generated ones; the reference's frame and run are the generated run.
-/
import proofs.«108081_j71390946394547_1_alg».proof.Defs
import proofs.«108081_j71390946394547_1_alg».proof.Proof.Gen.Kernel
import proofs.«108081_j71390946394547_1_alg».proof.Proof.Gen.Kernel.Frame
import proofs.«108081_j71390946394547_1_alg».proof.Proof.Gen.KernelIdeal
import proofs.«108081_j71390946394547_1_alg».proof.Proof.Gen.KernelIdeal.Frame
import proofs.«108081_j71390946394547_1_alg».proof.Proof.Gen.ReferenceIdeal
import proofs.«108081_j71390946394547_1_alg».proof.Proof.Gen.Pre_finite_inputs
import proofs.«108081_j71390946394547_1_alg».proof.Proof.Gen.ReferenceIdeal.Run
import proofs.«108081_j71390946394547_1_alg».proof.Proof.Gen.ReferenceIdeal.Read
import proofs.«108081_j71390946394547_1_alg».proof.Proof.KRun
import proofs.«108081_j71390946394547_1_alg».proof.Proof.KValue
import proofs.«108081_j71390946394547_1_alg».proof.Proof.RefDs
import proofs.«108081_j71390946394547_1_alg».proof.Proof.RefDv
import proofs.«108081_j71390946394547_1_alg».proof.Proof.Finite
import proofs.«108081_j71390946394547_1_alg».proof.Proof.SpecAlg

set_option maxRecDepth 16384

noncomputable section

namespace Cert.Proof

open Idealize.ShloMosaic Idealize.ShloMosaic.TcCoe Idealize.SL.Sem Idealize.ShloMosaic.ValueIdx Cert.Msg

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end at the layer's outputs of the same arguments: the scalar output literally the same sum, the
    vector output the combined form against the two-term form, equal for real arguments. -/
theorem algebraic : Cert.algebraic_KernelIdeal_ReferenceIdeal := by
  intro m ρ m' ρ' hpre hagree
  have hfin : ∀ c : Dev Cert.KernelIdeal.nD, (Cert.KHost.kargs m c).Finite := fun c => by
    unfold Cert.KHost.kargs
    exact Cert.FiniteArgs.finite_of_pre _ _ _ _ _ _ _ _ _ _ _ _ (hpre c)
  have hargs : ∀ c : Dev Cert.KernelIdeal.nD, Cert.RefValue.args (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = Cert.KHost.kargs m c := fun c => by
    obtain ⟨e0, e1, e2, e3, e4, e5, e6, e7, e8, e9, e10, e11⟩ := hagree c
    unfold Cert.KHost.kargs Cert.RefValue.args
    rw [e0, e1, e2, e3, e4, e5, e6, e7, e8, e9, e10, e11]
  refine ⟨fun c => (Cert.KHost.kargs m c).dsArr, fun c => (Cert.KHost.kargs m c).dvKerArr, ?_, ?_⟩
  · refine (θ_run Cert.KernelIdeal.defs _ _).mono (fun r h c => ?_) (Cert.KRun.run_named m ρ)
    obtain ⟨h0, h1, hk⟩ := h c
    refine ⟨h0.trans ?_, h1.trans ?_, hk⟩
    · funext i
      obtain ⟨n, q, rfl⟩ : ∃ (n : Fin 20000) (q : Fin 128), i = ix2 n q := ⟨i 0, i 1, eq_ix2 i⟩
      exact Cert.KValue.ds_apply m c n q
    · funext i
      obtain ⟨n, k, q, rfl⟩ : ∃ (n : Fin 20000) (k : Fin 3) (q : Fin 128), i = ix3 n k q := ⟨i 0, i 1, i 2, eq_ix3 i⟩
      exact Cert.KValue.dv_apply m c n k q
  · refine (θ_run Cert.ReferenceIdeal.defs _ _).mono (fun r h c => ?_) (Cert.ReferenceIdeal.Value.run (F := Ideal) m' ρ')
    obtain ⟨h0, h1, hk⟩ := h c
    refine ⟨h0.trans ?_, h1.trans ?_, hk⟩
    · refine (Cert.ReferenceIdeal.Read.val_main_v33_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))).trans ?_
      rw [Cert.RefValue.ds_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)), hargs c]
    · refine (Cert.ReferenceIdeal.Read.val_main_v62_eq m' c).trans ?_
      rw [Cert.RefValue.dv_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)), hargs c]
      funext i
      exact ((Cert.KHost.kargs m c).dv_eq (hfin c) _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
